-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x932 : Shape := ⟨2, ![100000, 932]⟩
abbrev S2x3200000 : Shape := ⟨2, ![2, 3200000]⟩
abbrev S932x32 : Shape := ⟨2, ![932, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩
abbrev S1x3200000 : Shape := ⟨2, ![1, 3200000]⟩
abbrev S3200000 : Shape := ⟨1, ![3200000]⟩

class Facts : Prop where
  bcast_S_S100000x932 : S_.BroadcastsInDim S100000x932 (![] : Fin 0 → Fin S100000x932.rank)
  reducesTo_S100000x932_S_d0_1 : S100000x932.ReducesTo [0, 1] S_
  h_S_ : 0 < S_.numel
  bcast_S_S932x32 : S_.BroadcastsInDim S932x32 (![] : Fin 0 → Fin S932x32.rank)
  reducesTo_S932x32_S_d0_1 : S932x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg1 : IVec S2x3200000 32) (main_v33 : IVec S_ 1) : IVec S_ 1 :=
  let main_v34 : IVec S1x3200000 32 := (extractStridedSlice S1x3200000 ![0, 0] · slices_S2x3200000_S1x3200000_0_0) main_arg1
  let main_v35 : IVec S3200000 32 := shapeCast S3200000 main_v34 shapeCasts_S1x3200000_S3200000
  let main_c_12 : IVec S_ 32 := constantI S_ 32 4294867296#32
  let main_v36 : IVec S3200000 32 := broadcastInDim S3200000 ![] bcast_S_S3200000 main_c_12
  let main_v37 : IVec S3200000 1 := cmpi .sge main_v35 main_v36
  let main_v38 : IVec S1x3200000 32 := (extractStridedSlice S1x3200000 ![0, 0] · slices_S2x3200000_S1x3200000_0_0) main_arg1
  let main_v39 : IVec S3200000 32 := shapeCast S3200000 main_v38 shapeCasts_S1x3200000_S3200000
  let main_c_13 : IVec S_ 32 := constantI S_ 32 100000#32
  let main_v40 : IVec S3200000 32 := broadcastInDim S3200000 ![] bcast_S_S3200000 main_c_13
  let main_v41 : IVec S3200000 1 := cmpi .slt main_v39 main_v40
  let main_v42 : IVec S3200000 1 := andi main_v37 main_v41
  let main_c_14 : IVec S_ 1 := constantI S_ 1 1#1
  let main_v43 : IVec S_ 1 := (fun x v => Host.reduce IntOp.andi x v reducesTo_S3200000_S_d0 h_S_) main_v42 main_c_14
  let main_v44 : IVec S_ 1 := andi main_v33 main_v43
  main_v44

def fn_part1 {F : FTy → Type} [FloatOps F] (main_arg1 : IVec S2x3200000 32) (main_arg5 : FVec F S32 .f32) (main_arg6 : FVec F S32x16 .f32) (main_arg7 : FVec F S16 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S100000x932 .f32) (main_arg1 : IVec S2x3200000 32) (main_arg2 : FVec F S932x32 .f32) (main_arg3 : FVec F S32 .f32) (main_arg4 : FVec F S32x32 .f32) (main_arg5 : FVec F S32 .f32) (main_arg6 : FVec F S32x16 .f32) (main_arg7 : FVec F S16 .f32) : IVec S_ 1 :=
  let main_v0 : FVec F S100000x932 .f32 := Host.absf main_arg0
  let main_cst : FVec F S_ .f32 := constant S_ .f32 0x7F800000#32
  let main_v1 : FVec F S100000x932 .f32 := broadcastInDim S100000x932 ![] bcast_S_S100000x932 main_cst
  let main_v2 : IVec S100000x932 1 := cmpf .olt main_v0 main_v1
  let main_c : IVec S_ 1 := constantI S_ 1 1#1
  let main_v3 : IVec S_ 1 := (fun x v => Host.reduce IntOp.andi x v reducesTo_S100000x932_S_d0_1 h_S_) main_v2 main_c
  let main_v4 : FVec F S932x32 .f32 := Host.absf main_arg2
  let main_cst_0 : FVec F S_ .f32 := constant S_ .f32 0x7F800000#32
  let main_v5 : FVec F S932x32 .f32 := broadcastInDim S932x32 ![] bcast_S_S932x32 main_cst_0
  let main_v6 : IVec S932x32 1 := cmpf .olt main_v4 main_v5
  let main_c_1 : IVec S_ 1 := constantI S_ 1 1#1
  let main_v7 : IVec S_ 1 := (fun x v => Host.reduce IntOp.andi x v reducesTo_S932x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg1 main_arg5 main_arg6 main_arg7 main_v13 main_v16
-- ==== Kernel.lean ====
abbrev S100000x932 : Shape := ⟨2, ![100000, 932]⟩
abbrev S2x3200000 : Shape := ⟨2, ![2, 3200000]⟩
abbrev S932x32 : Shape := ⟨2, ![932, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S2000x932 : Shape := ⟨2, ![2000, 932]⟩
abbrev S2000x32 : Shape := ⟨2, ![2000, 32]⟩
abbrev S1 : Shape := ⟨1, ![1]⟩
abbrev S1x1 : Shape := ⟨2, ![1, 1]⟩
abbrev S3300000x32 : Shape := ⟨2, ![3300000, 32]⟩
abbrev S1x32 : Shape := ⟨2, ![1, 32]⟩
abbrev S5000x32 : Shape := ⟨2, ![5000, 32]⟩
abbrev S100000x16 : Shape := ⟨2, ![100000, 16]⟩
abbrev S2000x16 : Shape := ⟨2, ![2000, 16]⟩
abbrev S3300000x16 : Shape := ⟨2, ![3300000, 16]⟩
abbrev S1x16 : Shape := ⟨2, ![1, 16]⟩
abbrev S5000x16 : Shape := ⟨2, ![5000, 16]⟩

abbrev nBuf : Space → Nat
  | .hbm => 148
  | .vmem => 30
  | .smem => 0
  | _ => 0

abbrev hbmTy0_0 (i : Nat) : BufTy := match i % 128 with
  | 0 => ⟨S100000x932, .f32⟩
  | 1 => ⟨S2x3200000, .i32⟩
  | 2 => ⟨S932x32, .f32⟩
  | 3 => ⟨S32, .f32⟩
  | 4 => ⟨S32x32, .f32⟩
  | 5 => ⟨S32, .f32⟩
  | 6 => ⟨S32x16, .f32⟩
  | 7 => ⟨S16, .f32⟩
  | 8 => ⟨S1x3200000, .i32⟩
  | 9 => ⟨S3200000, .i32⟩
  | 10 => ⟨S100000, .i32⟩
  | 11 => ⟨S3300000, .i32⟩
  | 12 => ⟨S1x3200000, .i32⟩
  | 13 => ⟨S3200000, .i32⟩
  | 14 => ⟨S100000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x32, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S1, .i32⟩
  | 59 => ⟨S_, .i32⟩
  | 60 => ⟨S3300000x1, .i32⟩
  | 61 => ⟨S3300000x1, .i1⟩
  | 62 => ⟨S1x1, .i32⟩
  | 63 => ⟨S3300000x1, .i32⟩
  | 64 => ⟨S3300000x1, .i1⟩
  | 65 => ⟨S3300000x1, .i1⟩
  | 66 => ⟨S_, .i1⟩
  | 67 => ⟨S3300000, .i1⟩
  | 68 => ⟨S3300000x32, .f32⟩
  | 69 => ⟨S3300000x32, .i1⟩
  | 70 => ⟨S_, .f32⟩
  | 71 => ⟨S3300000x32, .f32⟩
  | 72 => ⟨S3300000x32, .f32⟩
  | 73 => ⟨S3300000x1, .f32⟩
  | 74 => ⟨S3300000x32, .f32⟩
  | 75 => ⟨S3300000x32, .f32⟩
  | 76 => ⟨S_, .f32⟩
  | 77 => ⟨S100000x32, .f32⟩
  | 78 => ⟨S3300000x1, .i32⟩
  | 79 => ⟨S100000x32, .f32⟩
  | 80 => ⟨S1x32, .f32⟩
  | 81 => ⟨S100000x32, .f32⟩
  | 82 => ⟨S100000x32, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S1, .i32⟩
  | 92 => ⟨S_, .i32⟩
  | 93 => ⟨S3300000x1, .i32⟩
  | 94 => ⟨S3300000x1, .i1⟩
  | 95 => ⟨S1x1, .i32⟩
  | 96 => ⟨S3300000x1, .i32⟩
  | 97 => ⟨S3300000x1, .i1⟩
  | 98 => ⟨S3300000x1, .i1⟩
  | 99 => ⟨S_, .i1⟩
  | 100 => ⟨S3300000, .i1⟩
  | 101 => ⟨S3300000x32, .f32⟩
  | 102 => ⟨S3300000x32, .i1⟩
  | 103 => ⟨S_, .f32⟩
  | 104 => ⟨S3300000x32, .f32⟩
  | 105 => ⟨S3300000x32, .f32⟩
  | 106 => ⟨S3300000x1, .f32⟩
  | 107 => ⟨S3300000x32, .f32⟩
  | 108 => ⟨S3300000x32, .f32⟩
  | 109 => ⟨S_, .f32⟩
  | 110 => ⟨S100000x32, .f32⟩
  | 111 => ⟨S3300000x1, .i32⟩
  | 112 => ⟨S100000x32, .f32⟩
  | 113 => ⟨S1x32, .f32⟩
  | 114 => ⟨S100000x32, .f32⟩
  | 115 => ⟨S100000x16, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S1, .i32⟩
  | 125 => ⟨S_, .i32⟩
  | 126 => ⟨S3300000x1, .i32⟩
  | 127 => ⟨S3300000x1, .i1⟩
  | _ => ⟨S100000x932, .f32⟩

abbrev hbmTy0_1 (i : Nat) : BufTy := match i % 128 with
  | 0 => ⟨S1x1, .i32⟩
  | 1 => ⟨S3300000x1, .i32⟩
  | 2 => ⟨S3300000x1, .i1⟩
  | 3 => ⟨S3300000x1, .i1⟩
  | 4 => ⟨S_, .i1⟩
  | 5 => ⟨S3300000, .i1⟩
  | 6 => ⟨S3300000x16, .f32⟩
  | 7 => ⟨S3300000x16, .i1⟩
  | 8 => ⟨S_, .f32⟩
  | 9 => ⟨S3300000x16, .f32⟩
  | 10 => ⟨S3300000x16, .f32⟩
  | 11 => ⟨S3300000x1, .f32⟩
  | 12 => ⟨S3300000x16, .f32⟩
  | 13 => ⟨S3300000x16, .f32⟩
  | 14 => ⟨S_, .f32⟩
  | 15 => ⟨S100000x16, .f32⟩
  | 16 => ⟨S3300000x1, .i32⟩
  | 17 => ⟨S100000x16, .f32⟩
  | 18 => ⟨S1x16, .f32⟩
  | 19 => ⟨S100000x16, .f32⟩
  | _ => ⟨S100000x932, .f32⟩

abbrev hbmTy (i : Nat) : BufTy := match i / 128 with
  | 0 => hbmTy0_0 i
  | 1 => hbmTy0_1 i
  | _ => ⟨S100000x932, .f32⟩

abbrev bufTy : (tb : Table) → Fin (tcTables nBuf tb) → BufTy
  | .hbm, ⟨i, _⟩ => hbmTy i
  | .local _ .vmem, ⟨0, _⟩ => ⟨S2000x932, .f32⟩
  | .local _ .vmem, ⟨1, _⟩ => ⟨S2000x932, .f32⟩
  | .local _ .vmem, ⟨2, _⟩ => ⟨S932x32, .f32⟩
  | .local _ .vmem, ⟨3, _⟩ => ⟨S2000x32, .f32⟩
  | .local _ .vmem, ⟨4, _⟩ => ⟨S2000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | .local _ .vmem, ⟨10, _⟩ => ⟨S2000x32, .f32⟩
  | .local _ .vmem, ⟨11, _⟩ => ⟨S2000x32, .f32⟩
  | .local _ .vmem, ⟨12, _⟩ => ⟨S32x32, .f32⟩
  | .local _ .vmem, ⟨13, _⟩ => ⟨S2000x32, .f32⟩
  | .local _ .vmem, ⟨14, _⟩ => ⟨S2000x32, .f32⟩
  | .local _ .vmem, ⟨15, _⟩ => ⟨S5000x32, .f32⟩
  | .local _ .vmem, ⟨16, _⟩ => ⟨S5000x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S2000x32, .f32⟩
  | .local _ .vmem, ⟨21, _⟩ => ⟨S2000x32, .f32⟩
  | .local _ .vmem, ⟨22, _⟩ => ⟨S32x16, .f32⟩
  | .local _ .vmem, ⟨23, _⟩ => ⟨S2000x16, .f32⟩
  | .local _ .vmem, ⟨24, _⟩ => ⟨S2000x16, .f32⟩
  | .local _ .vmem, ⟨25, _⟩ => ⟨S5000x16, .f32⟩
  | .local _ .vmem, ⟨26, _⟩ => ⟨S5000x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | _, _ => ⟨S100000x932, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_6 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_7 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_call3_c : Ref sig .tc := ⟨.hbm, 116, rfl⟩
abbrev main_call3_v0 : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_c_1 : Ref sig .tc := ⟨.hbm, 124, rfl⟩
abbrev main_call3_c_2 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_3 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_call3_cst : Ref sig .tc := ⟨.hbm, 136, rfl⟩
abbrev main_call3_v15 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_cst_8 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x932 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S932x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x932_S2000x932_0_0 : ∀ a, (![0, 0] : Fin 2 → Nat) a + S2000x932.size a ≤ S2000x932.size a
  h_S2000x932 : 0 < S2000x932.numel
  bitsLt_bf16_f32 : FTy.bits .bf16 < FTy.bits .f32
  inb_S932x32_S932x32_0_0 : ∀ a, (![0, 0] : Fin 2 → Nat) a + S932x32.size a ≤ S932x32.size a
  h_S932x32 : 0 < S932x32.numel
  inb_S2000x32_S2000x32_0_0 : ∀ a, (![0, 0] : Fin 2 → Nat) a + S2000x32.size a ≤ S2000x32.size a
  h_S2000x32 : 0 < S2000x32.numel
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  bcast_S3300000_S3300000x32_0 : S3300000.BroadcastsInDim S3300000x32 (![0] : Fin 1 → Fin S3300000x32.rank)
  bcast_S_S3300000x32 : S_.BroadcastsInDim S3300000x32 (![] : Fin 0 → Fin S3300000x32.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S3300000_S3300000x16_0 : S3300000.BroadcastsInDim S3300000x16 (![0] : Fin 1 → Fin S3300000x16.rank)
  bcast_S_S3300000x16 : S_.BroadcastsInDim S3300000x16 (![] : Fin 0 → Fin S3300000x16.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x932_S932x32_S2000x32_1_0_0_1_n_n_wf : DotDims.WF S2000x932 S932x32 S2000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S2000x32_S32x32_S2000x32_1_0_0_1_n_n_wf : DotDims.WF S2000x32 S32x32 S2000x32 [1] [0] [0] [1] [] []
  dot_S2000x32_S32x16_S2000x16_1_0_0_1_n_n_wf : DotDims.WF S2000x32 S32x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x932.size a ≤ S100000x932.size a
  hwx0_0 : ∀ i : grid0.Coords, EltTy.bits .f32 = 32 ∨ (Rect.block (s := S100000x932) S2000x932.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S932x32.size a ≤ S932x32.size a
  hwx0_1 : ∀ i : grid0.Coords, EltTy.bits .f32 = 32 ∨ (Rect.block (s := S932x32) S932x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x16.size a ≤ S100000x16.size a
  hwx4_2 : ∀ i : grid4.Coords, EltTy.bits .f32 = 32 ∨ (Rect.block (s := S100000x16) S2000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x932_S932x32_S2000x32_1_0_0_1_n_n : DotDims S2000x932 S932x32 S2000x32 where
  lhsContracting := [1]
  rhsContracting := [0]
  lhsNonContracting := [0]
  rhsNonContracting := [1]
  lhsBatch := []
  rhsBatch := []
  wf := dot_S2000x932_S932x32_S2000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S2000x932.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S932x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S2000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x932 : Shape := ⟨2, ![100000, 932]⟩
abbrev S2x3200000 : Shape := ⟨2, ![2, 3200000]⟩
abbrev S932x32 : Shape := ⟨2, ![932, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 139
  | .vmem => 0
  | .smem => 0
  | _ => 0

abbrev hbmTy0_0 (i : Nat) : BufTy := match i % 128 with
  | 0 => ⟨S100000x932, .f32⟩
  | 1 => ⟨S2x3200000, .i32⟩
  | 2 => ⟨S932x32, .f32⟩
  | 3 => ⟨S32, .f32⟩
  | 4 => ⟨S32x32, .f32⟩
  | 5 => ⟨S32, .f32⟩
  | 6 => ⟨S32x16, .f32⟩
  | 7 => ⟨S16, .f32⟩
  | 8 => ⟨S1x3200000, .i32⟩
  | 9 => ⟨S3200000, .i32⟩
  | 10 => ⟨S100000, .i32⟩
  | 11 => ⟨S3300000, .i32⟩
  | 12 => ⟨S1x3200000, .i32⟩
  | 13 => ⟨S3200000, .i32⟩
  | 14 => ⟨S100000, .i32⟩
  | 15 => ⟨S3300000, .i32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x32, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x32, .f32⟩
  | 59 => ⟨S3300000x1, .f32⟩
  | 60 => ⟨S3300000x32, .f32⟩
  | 61 => ⟨S3300000x32, .f32⟩
  | 62 => ⟨S_, .f32⟩
  | 63 => ⟨S100000x32, .f32⟩
  | 64 => ⟨S3300000x1, .i32⟩
  | 65 => ⟨S100000x32, .f32⟩
  | 66 => ⟨S1x32, .f32⟩
  | 67 => ⟨S100000x32, .f32⟩
  | 68 => ⟨S100000x32, .f32⟩
  | 69 => ⟨S_, .f32⟩
  | 70 => ⟨S100000x32, .f32⟩
  | 71 => ⟨S100000x32, .i1⟩
  | 72 => ⟨S_, .f32⟩
  | 73 => ⟨S100000x32, .f32⟩
  | 74 => ⟨S100000x32, .i1⟩
  | 75 => ⟨S_, .f32⟩
  | 76 => ⟨S_, .f32⟩
  | 77 => ⟨S100000x32, .f32⟩
  | 78 => ⟨S100000x32, .f32⟩
  | 79 => ⟨S100000x32, .f32⟩
  | 80 => ⟨S_, .f32⟩
  | 81 => ⟨S100000x32, .f32⟩
  | 82 => ⟨S100000x32, .f32⟩
  | 83 => ⟨S100000x32, .f32⟩
  | 84 => ⟨S100000x32, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000x32, .f32⟩
  | 94 => ⟨S3300000x1, .f32⟩
  | 95 => ⟨S3300000x32, .f32⟩
  | 96 => ⟨S3300000x32, .f32⟩
  | 97 => ⟨S_, .f32⟩
  | 98 => ⟨S100000x32, .f32⟩
  | 99 => ⟨S3300000x1, .i32⟩
  | 100 => ⟨S100000x32, .f32⟩
  | 101 => ⟨S1x32, .f32⟩
  | 102 => ⟨S100000x32, .f32⟩
  | 103 => ⟨S100000x32, .f32⟩
  | 104 => ⟨S_, .f32⟩
  | 105 => ⟨S100000x32, .f32⟩
  | 106 => ⟨S100000x32, .i1⟩
  | 107 => ⟨S_, .f32⟩
  | 108 => ⟨S100000x32, .f32⟩
  | 109 => ⟨S100000x32, .i1⟩
  | 110 => ⟨S_, .f32⟩
  | 111 => ⟨S_, .f32⟩
  | 112 => ⟨S100000x32, .f32⟩
  | 113 => ⟨S100000x32, .f32⟩
  | 114 => ⟨S100000x32, .f32⟩
  | 115 => ⟨S_, .f32⟩
  | 116 => ⟨S100000x32, .f32⟩
  | 117 => ⟨S100000x32, .f32⟩
  | 118 => ⟨S100000x32, .f32⟩
  | 119 => ⟨S100000x16, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x932, .f32⟩

abbrev hbmTy0_1 (i : Nat) : BufTy := match i % 128 with
  | 0 => ⟨S3300000x16, .f32⟩
  | 1 => ⟨S3300000x1, .f32⟩
  | 2 => ⟨S3300000x16, .f32⟩
  | 3 => ⟨S3300000x16, .f32⟩
  | 4 => ⟨S_, .f32⟩
  | 5 => ⟨S100000x16, .f32⟩
  | 6 => ⟨S3300000x1, .i32⟩
  | 7 => ⟨S100000x16, .f32⟩
  | 8 => ⟨S1x16, .f32⟩
  | 9 => ⟨S100000x16, .f32⟩
  | 10 => ⟨S100000x16, .f32⟩
  | _ => ⟨S100000x932, .f32⟩

abbrev hbmTy (i : Nat) : BufTy := match i / 128 with
  | 0 => hbmTy0_0 i
  | 1 => hbmTy0_1 i
  | _ => ⟨S100000x932, .f32⟩

abbrev bufTy : (tb : Table) → Fin (tcTables nBuf tb) → BufTy
  | .hbm, ⟨i, _⟩ => hbmTy i
  | _, _ => ⟨S100000x932, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_cst_1 : Ref sig .tc := ⟨.hbm, 75, rfl⟩
abbrev main_call1_call0_v0 : Ref sig .tc := ⟨.hbm, 76, rfl⟩
abbrev main_call1_call0_v1 : Ref sig .tc := ⟨.hbm, 77, rfl⟩
abbrev main_call1_v4 : Ref sig .tc := ⟨.hbm, 78, rfl⟩
abbrev main_call1_v5 : Ref sig .tc := ⟨.hbm, 79, rfl⟩
abbrev main_call1_cst_2 : Ref sig .tc := ⟨.hbm, 80, rfl⟩
abbrev main_call1_v6 : Ref sig .tc := ⟨.hbm, 81, rfl⟩
abbrev main_call1_v7 : Ref sig .tc := ⟨.hbm, 82, rfl⟩
abbrev main_v48 : Ref sig .tc := ⟨.hbm, 83, rfl⟩
abbrev main_v49 : Ref sig .tc := ⟨.hbm, 84, rfl⟩
abbrev main_c_9 : Ref sig .tc := ⟨.hbm, 85, rfl⟩
abbrev main_v50 : Ref sig .tc := ⟨.hbm, 86, rfl⟩
abbrev main_v51 : Ref sig .tc := ⟨.hbm, 87, rfl⟩
abbrev main_c_10 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call2_cst : Ref sig .tc := ⟨.hbm, 104, rfl⟩
abbrev main_call2_v0 : Ref sig .tc := ⟨.hbm, 105, rfl⟩
abbrev main_call2_v1 : Ref sig .tc := ⟨.hbm, 106, rfl⟩
abbrev main_call2_cst_0 : Ref sig .tc := ⟨.hbm, 107, rfl⟩
abbrev main_call2_v2 : Ref sig .tc := ⟨.hbm, 108, rfl⟩
abbrev main_call2_v3 : Ref sig .tc := ⟨.hbm, 109, rfl⟩
abbrev main_call2_cst_1 : Ref sig .tc := ⟨.hbm, 110, rfl⟩
abbrev main_call2_call0_v0 : Ref sig .tc := ⟨.hbm, 111, rfl⟩
abbrev main_call2_call0_v1 : Ref sig .tc := ⟨.hbm, 112, rfl⟩
abbrev main_call2_v4 : Ref sig .tc := ⟨.hbm, 113, rfl⟩
abbrev main_call2_v5 : Ref sig .tc := ⟨.hbm, 114, rfl⟩
abbrev main_call2_cst_2 : Ref sig .tc := ⟨.hbm, 115, rfl⟩
abbrev main_call2_v6 : Ref sig .tc := ⟨.hbm, 116, rfl⟩
abbrev main_call2_v7 : Ref sig .tc := ⟨.hbm, 117, rfl⟩
abbrev main_v66 : Ref sig .tc := ⟨.hbm, 118, rfl⟩
abbrev main_v67 : Ref sig .tc := ⟨.hbm, 119, rfl⟩
abbrev main_c_12 : Ref sig .tc := ⟨.hbm, 120, rfl⟩
abbrev main_v68 : Ref sig .tc := ⟨.hbm, 121, rfl⟩
abbrev main_v69 : Ref sig .tc := ⟨.hbm, 122, rfl⟩
abbrev main_c_13 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_14 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x932_S932x32_S100000x32_1_0_0_1_n_n_wf : DotDims.WF S100000x932 S932x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x932_S932x32_S100000x32_1_0_0_1_n_n : DotDims S100000x932 S932x32 S100000x32 where
  lhsContracting := [1]
  rhsContracting := [0]
  lhsNonContracting := [0]
  rhsNonContracting := [1]
  lhsBatch := []
  rhsBatch := []
  wf := dot_S100000x932_S932x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.RefOps.lean ====
/- GENERATED by `python3 scratch/mk_refops.py proof/ReferenceIdeal.lean proof/Proof/RefOps.lean` (run in the unit directory): the reference
   program's host operations as lists, one per stretch of @main, copied from the printed proof/ReferenceIdeal.lean with the
   outlined functions' operations written at their calls over each call's buffer record. A table, no argument. -/
import proofs.«423356_j64484638982496_1_alg».proof.Proof.Gen.ReferenceIdeal
import Idealize.ShloMosaic.Lib.StableHlo.Run

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-- 41 operations: the edge lists with self loops, the degrees, and the edge weights. -/
abbrev rA : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.nullary main_v2 (iotaInDim S100000 32 0),
    StableHlo.binary main_v1 main_v2 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v4 main_v5 rfl shapeCasts_S1x3200000_S3200000,
    StableHlo.nullary main_v6 (iotaInDim S100000 32 0),
    StableHlo.binary main_v5 main_v6 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    StableHlo.nullary main_cst (constant S_ .f32 0x3F800000#32),
    StableHlo.unary main_cst main_v8 (broadcastInDim S3300000 ![] bcast_S_S3300000 : (⟨S_, .f32⟩ : BufTy).Contents (Elt F) → (⟨S3300000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v7 main_v10 (broadcastInDim S3300000x1 ![0] bcast_S3300000_S3300000x1_0 : (⟨S3300000, .i32⟩ : BufTy).Contents (Elt F) → (⟨S3300000x1, .i32⟩ : BufTy).Contents (Elt F)),
    StableHlo.ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.unary main_v11 main_v14 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S100000 ![] bcast_S_S100000),
    StableHlo.TRef.ternary (.of main_v13) (.of main_v14) main_call0.v1 main_call0.v2 select,
    StableHlo.nullary main_c (constantI S_ 32 0#32),
    StableHlo.unary main_c main_v16 (broadcastInDim S3300000 ![] bcast_S_S3300000 : (⟨S_, .i32⟩ : BufTy).Contents (Elt F) → (⟨S3300000, .i32⟩ : BufTy).Contents (Elt F)),
    StableHlo.binary main_v3 main_v16 main_v17 (cmpi .slt : (⟨S3300000, .i32⟩ : BufTy).Contents (Elt F) → (⟨S3300000, .i32⟩ : BufTy).Contents (Elt F) → (⟨S3300000, .i1⟩ : BufTy).Contents (Elt F)),
    StableHlo.nullary main_c_3 (constantI S_ 32 100000#32),
    StableHlo.unary main_c_3 main_v18 (broadcastInDim S3300000 ![] bcast_S_S3300000 : (⟨S_, .i32⟩ : BufTy).Contents (Elt F) → (⟨S3300000, .i32⟩ : BufTy).Contents (Elt F)),
    StableHlo.binary main_v3 main_v18 main_v19 (addi : (⟨S3300000, .i32⟩ : BufTy).Contents (Elt F) → (⟨S3300000, .i32⟩ : BufTy).Contents (Elt F) → (⟨S3300000, .i32⟩ : BufTy).Contents (Elt F)),
    StableHlo.ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v20 main_v21 (broadcastInDim S3300000x1 ![0] bcast_S3300000_S3300000x1_0 : (⟨S3300000, .i32⟩ : BufTy).Contents (Elt F) → (⟨S3300000x1, .i32⟩ : BufTy).Contents (Elt F)),
    StableHlo.binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.nullary main_c_4 (constantI S_ 32 0#32),
    StableHlo.unary main_c_4 main_v23 (broadcastInDim S3300000 ![] bcast_S_S3300000 : (⟨S_, .i32⟩ : BufTy).Contents (Elt F) → (⟨S3300000, .i32⟩ : BufTy).Contents (Elt F)),
    StableHlo.binary main_v7 main_v23 main_v24 (cmpi .slt : (⟨S3300000, .i32⟩ : BufTy).Contents (Elt F) → (⟨S3300000, .i32⟩ : BufTy).Contents (Elt F) → (⟨S3300000, .i1⟩ : BufTy).Contents (Elt F)),
    StableHlo.nullary main_c_5 (constantI S_ 32 100000#32),
    StableHlo.unary main_c_5 main_v25 (broadcastInDim S3300000 ![] bcast_S_S3300000 : (⟨S_, .i32⟩ : BufTy).Contents (Elt F) → (⟨S3300000, .i32⟩ : BufTy).Contents (Elt F)),
    StableHlo.binary main_v7 main_v25 main_v26 (addi : (⟨S3300000, .i32⟩ : BufTy).Contents (Elt F) → (⟨S3300000, .i32⟩ : BufTy).Contents (Elt F) → (⟨S3300000, .i32⟩ : BufTy).Contents (Elt F)),
    StableHlo.ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v27 main_v28 (broadcastInDim S3300000x1 ![0] bcast_S3300000_S3300000x1_0 : (⟨S3300000, .i32⟩ : BufTy).Contents (Elt F) → (⟨S3300000x1, .i32⟩ : BufTy).Contents (Elt F)),
    StableHlo.binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    StableHlo.binary main_v22 main_v29 main_v30 (mulf : (⟨S3300000, .f32⟩ : BufTy).Contents (Elt F) → (⟨S3300000, .f32⟩ : BufTy).Contents (Elt F) → (⟨S3300000, .f32⟩ : BufTy).Contents (Elt F)) ]
/-- Each touches TensorCore references only. -/
theorem rA_sub : (rA : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.unary_bufs_sub .., StableHlo.reshape_bufs_sub .., StableHlo.nullary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- 1 operations: the first layer's product. -/
abbrev rD1 : List (HloOp τ sig (Elt F)) :=
  [ StableHlo.binary main_arg0 main_arg2 main_v31 ((fun l r => Host.dotGeneral dot_S100000x932_S932x32_S100000x32_1_0_0_1_n_n none l r) : (⟨S100000x932, .f32⟩ : BufTy).Contents (Elt F) → (⟨S932x32, .f32⟩ : BufTy).Contents (Elt F) → (⟨S100000x32, .f32⟩ : BufTy).Contents (Elt F)) ]
/-- Each touches TensorCore references only. -/
theorem rD1_sub : (rD1 : List (HloOp τ sig (Elt F))).Forall fun op => op.bufs ⊆ StableHlo.tcRefs τ sig :=
  StableHlo.binary_bufs_sub ..

/-- 16 operations: the first layer's gather, scaling and scatter-add. -/
abbrev rG1 : List (HloOp τ sig (Elt F)) :=
  [ StableHlo.nullary main_c_6 (constantI S_ 32 0#32),
    StableHlo.unary main_c_6 main_v32 (broadcastInDim S3300000 ![] bcast_S_S3300000 : (⟨S_, .i32⟩ : BufTy).Contents (Elt F) → (⟨S3300000, .i32⟩ : BufTy).Contents (Elt F)),
    StableHlo.binary main_v3 main_v32 main_v33 (cmpi .slt : (⟨S3300000, .i32⟩ : BufTy).Contents (Elt F) → (⟨S3300000, .i32⟩ : BufTy).Contents (Elt F) → (⟨S3300000, .i1⟩ : BufTy).Contents (Elt F)),
    StableHlo.nullary main_c_7 (constantI S_ 32 100000#32),
    StableHlo.unary main_c_7 main_v34 (broadcastInDim S3300000 ![] bcast_S_S3300000 : (⟨S_, .i32⟩ : BufTy).Contents (Elt F) → (⟨S3300000, .i32⟩ : BufTy).Contents (Elt F)),
    StableHlo.binary main_v3 main_v34 main_v35 (addi : (⟨S3300000, .i32⟩ : BufTy).Contents (Elt F) → (⟨S3300000, .i32⟩ : BufTy).Contents (Elt F) → (⟨S3300000, .i32⟩ : BufTy).Contents (Elt F)),
    StableHlo.ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v36 main_v37 (broadcastInDim S3300000x1 ![0] bcast_S3300000_S3300000x1_0 : (⟨S3300000, .i32⟩ : BufTy).Contents (Elt F) → (⟨S3300000x1, .i32⟩ : BufTy).Contents (Elt F)),
    StableHlo.binary main_v31 main_v37 main_v38 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v30 main_v39 (broadcastInDim S3300000x1 ![0] bcast_S3300000_S3300000x1_0 : (⟨S3300000, .f32⟩ : BufTy).Contents (Elt F) → (⟨S3300000x1, .f32⟩ : BufTy).Contents (Elt F)),
    StableHlo.unary main_v39 main_v40 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v38 main_v40 main_v41 (mulf : (⟨S3300000x32, .f32⟩ : BufTy).Contents (Elt F) → (⟨S3300000x32, .f32⟩ : BufTy).Contents (Elt F) → (⟨S3300000x32, .f32⟩ : BufTy).Contents (Elt F)),
    StableHlo.nullary main_cst_8 (constant S_ .f32 0x00000000#32),
    StableHlo.unary main_cst_8 main_v42 (broadcastInDim S100000x32 ![] bcast_S_S100000x32 : (⟨S_, .f32⟩ : BufTy).Contents (Elt F) → (⟨S100000x32, .f32⟩ : BufTy).Contents (Elt F)),
    StableHlo.unary main_v7 main_v43 (broadcastInDim S3300000x1 ![0] bcast_S3300000_S3300000x1_0 : (⟨S3300000, .i32⟩ : BufTy).Contents (Elt F) → (⟨S3300000x1, .i32⟩ : BufTy).Contents (Elt F)),
    StableHlo.ternary main_v42 main_v43 main_v41 main_v44 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]
/-- Each touches TensorCore references only. -/
theorem rG1_sub : (rG1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- 18 operations: the first layer's bias and ELU (its result is main_v48). -/
abbrev rE1 : List (HloOp τ sig (Elt F)) :=
  [ StableHlo.unary main_arg3 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S100000x32 ![0, 1] bcast_S1x32_S100000x32_0_1 : (⟨S1x32, .f32⟩ : BufTy).Contents (Elt F) → (⟨S100000x32, .f32⟩ : BufTy).Contents (Elt F)),
    StableHlo.binary main_v44 main_v46 main_v47 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v47) main_call1.v0 main_call1.v1 (cmpf .ogt),
    StableHlo.TRef.nullary main_call1.cst_0 (constant S_ .f32 0x00000000#32),
    StableHlo.TRef.unary main_call1.cst_0 main_call1.v2 (broadcastInDim S100000x32 ![] bcast_S_S100000x32),
    StableHlo.TRef.binary (.of main_v47) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x32 ![] bcast_S_S100000x32),
    StableHlo.TRef.ternary main_call1.v3 main_call1.call0.v1 (.of main_v47) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x32 ![] bcast_S_S100000x32),
    StableHlo.TRef.binary main_call1.v6 main_call1.v5 main_call1.v7 mulf,
    StableHlo.TRef.ternary main_call1.v1 (.of main_v47) main_call1.v7 main_call1.call1.v0 select ]
/-- Each touches TensorCore references only. -/
theorem rE1_sub : (rE1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩

/-- 1 operations: the second layer's product. -/
abbrev rD2 : List (HloOp τ sig (Elt F)) :=
  [ StableHlo.binary main_v48 main_arg4 main_v49 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]
/-- Each touches TensorCore references only. -/
theorem rD2_sub : (rD2 : List (HloOp τ sig (Elt F))).Forall fun op => op.bufs ⊆ StableHlo.tcRefs τ sig :=
  StableHlo.binary_bufs_sub ..

/-- 16 operations: the second layer's gather, scaling and scatter-add. -/
abbrev rG2 : List (HloOp τ sig (Elt F)) :=
  [ StableHlo.nullary main_c_9 (constantI S_ 32 0#32),
    StableHlo.unary main_c_9 main_v50 (broadcastInDim S3300000 ![] bcast_S_S3300000 : (⟨S_, .i32⟩ : BufTy).Contents (Elt F) → (⟨S3300000, .i32⟩ : BufTy).Contents (Elt F)),
    StableHlo.binary main_v3 main_v50 main_v51 (cmpi .slt : (⟨S3300000, .i32⟩ : BufTy).Contents (Elt F) → (⟨S3300000, .i32⟩ : BufTy).Contents (Elt F) → (⟨S3300000, .i1⟩ : BufTy).Contents (Elt F)),
    StableHlo.nullary main_c_10 (constantI S_ 32 100000#32),
    StableHlo.unary main_c_10 main_v52 (broadcastInDim S3300000 ![] bcast_S_S3300000 : (⟨S_, .i32⟩ : BufTy).Contents (Elt F) → (⟨S3300000, .i32⟩ : BufTy).Contents (Elt F)),
    StableHlo.binary main_v3 main_v52 main_v53 (addi : (⟨S3300000, .i32⟩ : BufTy).Contents (Elt F) → (⟨S3300000, .i32⟩ : BufTy).Contents (Elt F) → (⟨S3300000, .i32⟩ : BufTy).Contents (Elt F)),
    StableHlo.ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v54 main_v55 (broadcastInDim S3300000x1 ![0] bcast_S3300000_S3300000x1_0 : (⟨S3300000, .i32⟩ : BufTy).Contents (Elt F) → (⟨S3300000x1, .i32⟩ : BufTy).Contents (Elt F)),
    StableHlo.binary main_v49 main_v55 main_v56 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    StableHlo.unary main_v30 main_v57 (broadcastInDim S3300000x1 ![0] bcast_S3300000_S3300000x1_0 : (⟨S3300000, .f32⟩ : BufTy).Contents (Elt F) → (⟨S3300000x1, .f32⟩ : BufTy).Contents (Elt F)),
    StableHlo.unary main_v57 main_v58 (broadcastInDim S3300000x32 ![0, 1] bcast_S3300000x1_S3300000x32_0_1 : (⟨S3300000x1, .f32⟩ : BufTy).Contents (Elt F) → (⟨S3300000x32, .f32⟩ : BufTy).Contents (Elt F)),
    StableHlo.binary main_v56 main_v58 main_v59 (mulf : (⟨S3300000x32, .f32⟩ : BufTy).Contents (Elt F) → (⟨S3300000x32, .f32⟩ : BufTy).Contents (Elt F) → (⟨S3300000x32, .f32⟩ : BufTy).Contents (Elt F)),
    StableHlo.nullary main_cst_11 (constant S_ .f32 0x00000000#32),
    StableHlo.unary main_cst_11 main_v60 (broadcastInDim S100000x32 ![] bcast_S_S100000x32 : (⟨S_, .f32⟩ : BufTy).Contents (Elt F) → (⟨S100000x32, .f32⟩ : BufTy).Contents (Elt F)),
    StableHlo.unary main_v7 main_v61 (broadcastInDim S3300000x1 ![0] bcast_S3300000_S3300000x1_0 : (⟨S3300000, .i32⟩ : BufTy).Contents (Elt F) → (⟨S3300000x1, .i32⟩ : BufTy).Contents (Elt F)),
    StableHlo.ternary main_v60 main_v61 main_v59 main_v62 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]
/-- Each touches TensorCore references only. -/
theorem rG2_sub : (rG2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- 18 operations: the second layer's bias and ELU (its result is main_v66). -/
abbrev rE2 : List (HloOp τ sig (Elt F)) :=
  [ StableHlo.unary main_arg5 main_v63 (broadcastInDim S1x32 ![1] bcast_S32_S1x32_1 : (⟨S32, .f32⟩ : BufTy).Contents (Elt F) → (⟨S1x32, .f32⟩ : BufTy).Contents (Elt F)),
    StableHlo.unary main_v63 main_v64 (broadcastInDim S100000x32 ![0, 1] bcast_S1x32_S100000x32_0_1 : (⟨S1x32, .f32⟩ : BufTy).Contents (Elt F) → (⟨S100000x32, .f32⟩ : BufTy).Contents (Elt F)),
    StableHlo.binary main_v62 main_v64 main_v65 (addf : (⟨S100000x32, .f32⟩ : BufTy).Contents (Elt F) → (⟨S100000x32, .f32⟩ : BufTy).Contents (Elt F) → (⟨S100000x32, .f32⟩ : BufTy).Contents (Elt F)),
    StableHlo.TRef.nullary main_call2.cst (constant S_ .f32 0x00000000#32),
    StableHlo.TRef.unary main_call2.cst main_call2.v0 (broadcastInDim S100000x32 ![] bcast_S_S100000x32),
    StableHlo.TRef.binary (.of main_v65) main_call2.v0 main_call2.v1 (cmpf .ogt),
    StableHlo.TRef.nullary main_call2.cst_0 (constant S_ .f32 0x00000000#32),
    StableHlo.TRef.unary main_call2.cst_0 main_call2.v2 (broadcastInDim S100000x32 ![] bcast_S_S100000x32),
    StableHlo.TRef.binary (.of main_v65) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x32 ![] bcast_S_S100000x32),
    StableHlo.TRef.ternary main_call2.v3 main_call2.call0.v1 (.of main_v65) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x32 ![] bcast_S_S100000x32),
    StableHlo.TRef.binary main_call2.v6 main_call2.v5 main_call2.v7 mulf,
    StableHlo.TRef.ternary main_call2.v1 (.of main_v65) main_call2.v7 main_call2.call1.v0 select ]
/-- Each touches TensorCore references only. -/
theorem rE2_sub : (rE2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩

/-- 1 operations: the third layer's product. -/
abbrev rD3 : List (HloOp τ sig (Elt F)) :=
  [ StableHlo.binary main_v66 main_arg6 main_v67 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)) ]
/-- Each touches TensorCore references only. -/
theorem rD3_sub : (rD3 : List (HloOp τ sig (Elt F))).Forall fun op => op.bufs ⊆ StableHlo.tcRefs τ sig :=
  StableHlo.binary_bufs_sub ..

/-- 16 operations: the third layer's gather, scaling and scatter-add. -/
abbrev rG3 : List (HloOp τ sig (Elt F)) :=
  [ StableHlo.nullary main_c_12 (constantI S_ 32 0#32),
    StableHlo.unary main_c_12 main_v68 (broadcastInDim S3300000 ![] bcast_S_S3300000 : (⟨S_, .i32⟩ : BufTy).Contents (Elt F) → (⟨S3300000, .i32⟩ : BufTy).Contents (Elt F)),
    StableHlo.binary main_v3 main_v68 main_v69 (cmpi .slt : (⟨S3300000, .i32⟩ : BufTy).Contents (Elt F) → (⟨S3300000, .i32⟩ : BufTy).Contents (Elt F) → (⟨S3300000, .i1⟩ : BufTy).Contents (Elt F)),
    StableHlo.nullary main_c_13 (constantI S_ 32 100000#32),
    StableHlo.unary main_c_13 main_v70 (broadcastInDim S3300000 ![] bcast_S_S3300000 : (⟨S_, .i32⟩ : BufTy).Contents (Elt F) → (⟨S3300000, .i32⟩ : BufTy).Contents (Elt F)),
    StableHlo.binary main_v3 main_v70 main_v71 (addi : (⟨S3300000, .i32⟩ : BufTy).Contents (Elt F) → (⟨S3300000, .i32⟩ : BufTy).Contents (Elt F) → (⟨S3300000, .i32⟩ : BufTy).Contents (Elt F)),
    StableHlo.ternary main_v69 main_v71 main_v3 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    StableHlo.unary main_v72 main_v73 (broadcastInDim S3300000x1 ![0] bcast_S3300000_S3300000x1_0 : (⟨S3300000, .i32⟩ : BufTy).Contents (Elt F) → (⟨S3300000x1, .i32⟩ : BufTy).Contents (Elt F)),
    StableHlo.binary main_v67 main_v73 main_v74 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    StableHlo.unary main_v30 main_v75 (broadcastInDim S3300000x1 ![0] bcast_S3300000_S3300000x1_0 : (⟨S3300000, .f32⟩ : BufTy).Contents (Elt F) → (⟨S3300000x1, .f32⟩ : BufTy).Contents (Elt F)),
    StableHlo.unary main_v75 main_v76 (broadcastInDim S3300000x16 ![0, 1] bcast_S3300000x1_S3300000x16_0_1 : (⟨S3300000x1, .f32⟩ : BufTy).Contents (Elt F) → (⟨S3300000x16, .f32⟩ : BufTy).Contents (Elt F)),
    StableHlo.binary main_v74 main_v76 main_v77 (mulf : (⟨S3300000x16, .f32⟩ : BufTy).Contents (Elt F) → (⟨S3300000x16, .f32⟩ : BufTy).Contents (Elt F) → (⟨S3300000x16, .f32⟩ : BufTy).Contents (Elt F)),
    StableHlo.nullary main_cst_14 (constant S_ .f32 0x00000000#32),
    StableHlo.unary main_cst_14 main_v78 (broadcastInDim S100000x16 ![] bcast_S_S100000x16 : (⟨S_, .f32⟩ : BufTy).Contents (Elt F) → (⟨S100000x16, .f32⟩ : BufTy).Contents (Elt F)),
    StableHlo.unary main_v7 main_v79 (broadcastInDim S3300000x1 ![0] bcast_S3300000_S3300000x1_0 : (⟨S3300000, .i32⟩ : BufTy).Contents (Elt F) → (⟨S3300000x1, .i32⟩ : BufTy).Contents (Elt F)),
    StableHlo.ternary main_v78 main_v79 main_v77 main_v80 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]
/-- Each touches TensorCore references only. -/
theorem rG3_sub : (rG3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub ..⟩

/-- 3 operations: the third layer's bias. -/
abbrev rB3 : List (HloOp τ sig (Elt F)) :=
  [ StableHlo.unary main_arg7 main_v81 (broadcastInDim S1x16 ![1] bcast_S16_S1x16_1 : (⟨S16, .f32⟩ : BufTy).Contents (Elt F) → (⟨S1x16, .f32⟩ : BufTy).Contents (Elt F)),
    StableHlo.unary main_v81 main_v82 (broadcastInDim S100000x16 ![0, 1] bcast_S1x16_S100000x16_0_1 : (⟨S1x16, .f32⟩ : BufTy).Contents (Elt F) → (⟨S100000x16, .f32⟩ : BufTy).Contents (Elt F)),
    StableHlo.binary main_v80 main_v82 main_v83 (addf : (⟨S100000x16, .f32⟩ : BufTy).Contents (Elt F) → (⟨S100000x16, .f32⟩ : BufTy).Contents (Elt F) → (⟨S100000x16, .f32⟩ : BufTy).Contents (Elt F)) ]
/-- Each touches TensorCore references only. -/
theorem rB3_sub : (rB3 : List (HloOp τ sig (Elt F))).Forall fun op => op.bufs ⊆ StableHlo.tcRefs τ sig :=
  ⟨StableHlo.unary_bufs_sub .., StableHlo.unary_bufs_sub .., StableHlo.binary_bufs_sub ..⟩

end Cert.ReferenceIdeal.RV

end
-- ==== Proof.RefRun.lean ====
/-
  The reference program read as a straight line. Its @main, with the three outlined functions (the
  selection that guards the inverse square root of the degrees, and the two ELU calls) written out at
  their call sites, is the run of ten lists of host operations in order: the edge lists and edge weights,
  then per layer the product, the gather / scale / scatter-add, and the bias (with ELU after layers one and
  two). The contents of the buffers at the end of each list are named, so that a later argument can
  speak of one list at a time: `XA` after the first, … , `XB3` at the end of @main.
  Every weakly fair execution of @main ends with each buffer at `XB3`.
-/
import proofs.«423356_j64484638982496_1_alg».proof.Proof.RefOps

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

/-- Running one list after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first sixty statements of @main. -/
abbrev ops0 : List (HloOp τ sig (Elt F)) := rA ++ (rD1 ++ (rG1 ++ rE1))
/-- The remaining statements of @main. -/
abbrev ops1 : List (HloOp τ sig (Elt F)) := rD2 ++ (rG2 ++ (rE2 ++ (rD3 ++ (rG3 ++ rB3))))
/-- All of @main's operations, in order. -/
abbrev ops : List (HloOp τ sig (Elt F)) := ops0 ++ ops1

set_option maxRecDepth 4096 in
/-- The first part of @main is the run of its lists: the outlined functions' definitions unfolded at their calls, both
    sides are one chain of steps once sequencing is reassociated. -/
theorem part0_eq (c : Dev nD) : main_part0 (F := F) c = seq ops0 := by
  simp only [main_part0, fn_where.body, fn_elu.body, fn_where_0.body, fn_where_1.body, seq, ops0, rA, rD1, rG1, rE1,
    List.cons_append, List.nil_append, bind_assoc, pure_bind]

set_option maxRecDepth 4096 in
/-- The second part of @main likewise. -/
theorem part1_eq (c : Dev nD) : main_part1 (F := F) c = seq ops1 := by
  simp only [main_part1, fn_elu.body, fn_where_0.body, fn_where_1.body, seq, ops1, rD2, rG2, rE2, rD3, rG3, rB3,
    List.cons_append, List.nil_append, bind_assoc, pure_bind]

/-- @main is the run of all its operations. -/
theorem main_eq (c : Dev nD) : main (F := F) c = seq ops := by
  show (main_part0 (F := F) c >>= fun _ => main_part1 (F := F) c) = seq (ops0 ++ ops1)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append (forall_append rA_sub (forall_append rD1_sub (forall_append rG1_sub rE1_sub)))
    (forall_append rD2_sub (forall_append rG2_sub (forall_append rE2_sub (forall_append rD3_sub (forall_append rG3_sub rB3_sub)))))

/-! ## The contents at the end of each list -/

variable (m : (ℓ : Loc nD τ sig) → Buf (Elt F) ℓ)

/-- At launch. -/
abbrev X0 (c : Dev nD) : Valuation τ sig (Elt F) := launchContents m c
/-- After the edge lists and weights. -/
abbrev XA (c : Dev nD) : Valuation τ sig (Elt F) := after rA (X0 m c)
/-- After the first product. -/
abbrev XD1 (c : Dev nD) : Valuation τ sig (Elt F) := after rD1 (XA m c)
/-- After the first aggregation. -/
abbrev XG1 (c : Dev nD) : Valuation τ sig (Elt F) := after rG1 (XD1 m c)
/-- After the first bias and ELU. -/
abbrev XE1 (c : Dev nD) : Valuation τ sig (Elt F) := after rE1 (XG1 m c)
/-- After the second product. -/
abbrev XD2 (c : Dev nD) : Valuation τ sig (Elt F) := after rD2 (XE1 m c)
/-- After the second aggregation. -/
abbrev XG2 (c : Dev nD) : Valuation τ sig (Elt F) := after rG2 (XD2 m c)
/-- After the second bias and ELU. -/
abbrev XE2 (c : Dev nD) : Valuation τ sig (Elt F) := after rE2 (XG2 m c)
/-- After the third product. -/
abbrev XD3 (c : Dev nD) : Valuation τ sig (Elt F) := after rD3 (XE2 m c)
/-- After the third aggregation. -/
abbrev XG3 (c : Dev nD) : Valuation τ sig (Elt F) := after rG3 (XD3 m c)
/-- After the third bias: the end of @main. -/
abbrev XB3 (c : Dev nD) : Valuation τ sig (Elt F) := after rB3 (XG3 m c)

theorem after_ops (c : Dev nD) : after ops (launchContents m c) = XB3 m c := by
  simp only [ops, ops0, ops1, after_append]

/-- From any memory with zero counters every weakly fair execution of @main terminates, nothing faulting, with every
    buffer at the contents the ten lists leave. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = XB3 m c (Proc.devRef .tc b) :=
  (θ_run defs _ _).mono (fun _ h c b => (h c b).trans (congrFun (after_ops m c) _))
    (run_seq scopedRefs_eq scopedSems_eq defs main (fun _ => ops) main_eq (fun _ => ops_sub) m ρ
      (fun _ op hop => by
        have : ∀ op ∈ (ops : List (HloOp τ sig (Elt F))), op.fresh = ∅ := by
          intro op h
          simp only [ops, ops0, ops1, rA, rD1, rG1, rE1, rD2, rG2, rE2, rD3, rG3, rB3, List.cons_append, List.nil_append] at h
          (repeat (cases h with | head => rfl | tail _ h => ?_)); exact nomatch h
        exact this op hop))

end Cert.ReferenceIdeal.RV

end
-- ==== Proof.KeepR.lean ====
/- Buffers the reference program writes once and only reads afterwards. The two index lists and the edge weights are
  results of the first list of operations, the argument arrays are launched; no later operation has one of them as its
  result, so at the end of every later list each still holds what it held after the first.
-/
import proofs.«423356_j64484638982496_1_alg».proof.Proof.RefRun

set_option maxRecDepth 16384

noncomputable section

namespace Cert.ReferenceIdeal.Keep

open Cert.ReferenceIdeal Cert.ReferenceIdeal.Gen Cert.ReferenceIdeal.RV
open Idealize.ShloMosaic Idealize.ShloMosaic.TcCoe Idealize.SL.Sem

variable {F : FTy → Type} [FloatOps F]
variable (m : (ℓ : Loc nD τ sig) → Buf (Elt F) ℓ)

/-- No operation of a literal list has the buffer as its result: each operation writes one buffer, and the buffer in
    question is another. -/
macro "not_written" : tactic => `(tactic|
  (refine StableHlo.after_of_forall_not_mem _ _ (List.forall_iff_forall_mem.mp ?_)
   simp only [rA, rD1, rG1, rE1, rD2, rG2, rE2, rD3, rG3, rB3,
     List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- The source list at the end of that list are those after the first list. -/
theorem main_v3_XD1 (c : Dev nD) : XD1 m c (Proc.devRef .tc main_v3) = XA m c (Proc.devRef .tc main_v3) :=
  calc XD1 m c (Proc.devRef .tc main_v3)
    _ = XA m c (Proc.devRef .tc main_v3) := by not_written

/-- The source list at the end of that list are those after the first list. -/
theorem main_v3_XD2 (c : Dev nD) : XD2 m c (Proc.devRef .tc main_v3) = XA m c (Proc.devRef .tc main_v3) :=
  calc XD2 m c (Proc.devRef .tc main_v3)
    _ = XE1 m c (Proc.devRef .tc main_v3) := by not_written
    _ = XG1 m c (Proc.devRef .tc main_v3) := by not_written
    _ = XD1 m c (Proc.devRef .tc main_v3) := by not_written
    _ = XA m c (Proc.devRef .tc main_v3) := by not_written

/-- The source list at the end of that list are those after the first list. -/
theorem main_v3_XD3 (c : Dev nD) : XD3 m c (Proc.devRef .tc main_v3) = XA m c (Proc.devRef .tc main_v3) :=
  calc XD3 m c (Proc.devRef .tc main_v3)
    _ = XE2 m c (Proc.devRef .tc main_v3) := by not_written
    _ = XG2 m c (Proc.devRef .tc main_v3) := by not_written
    _ = XD2 m c (Proc.devRef .tc main_v3) := by not_written
    _ = XE1 m c (Proc.devRef .tc main_v3) := by not_written
    _ = XG1 m c (Proc.devRef .tc main_v3) := by not_written
    _ = XD1 m c (Proc.devRef .tc main_v3) := by not_written
    _ = XA m c (Proc.devRef .tc main_v3) := by not_written

/-- The destination list at the end of that list are those after the first list. -/
theorem main_v7_XD1 (c : Dev nD) : XD1 m c (Proc.devRef .tc main_v7) = XA m c (Proc.devRef .tc main_v7) :=
  calc XD1 m c (Proc.devRef .tc main_v7)
    _ = XA m c (Proc.devRef .tc main_v7) := by not_written

/-- The destination list at the end of that list are those after the first list. -/
theorem main_v7_XD2 (c : Dev nD) : XD2 m c (Proc.devRef .tc main_v7) = XA m c (Proc.devRef .tc main_v7) :=
  calc XD2 m c (Proc.devRef .tc main_v7)
    _ = XE1 m c (Proc.devRef .tc main_v7) := by not_written
    _ = XG1 m c (Proc.devRef .tc main_v7) := by not_written
    _ = XD1 m c (Proc.devRef .tc main_v7) := by not_written
    _ = XA m c (Proc.devRef .tc main_v7) := by not_written

/-- The destination list at the end of that list are those after the first list. -/
theorem main_v7_XD3 (c : Dev nD) : XD3 m c (Proc.devRef .tc main_v7) = XA m c (Proc.devRef .tc main_v7) :=
  calc XD3 m c (Proc.devRef .tc main_v7)
    _ = XE2 m c (Proc.devRef .tc main_v7) := by not_written
    _ = XG2 m c (Proc.devRef .tc main_v7) := by not_written
    _ = XD2 m c (Proc.devRef .tc main_v7) := by not_written
    _ = XE1 m c (Proc.devRef .tc main_v7) := by not_written
    _ = XG1 m c (Proc.devRef .tc main_v7) := by not_written
    _ = XD1 m c (Proc.devRef .tc main_v7) := by not_written
    _ = XA m c (Proc.devRef .tc main_v7) := by not_written

/-- The edge weights at the end of that list are those after the first list. -/
theorem main_v30_XD1 (c : Dev nD) : XD1 m c (Proc.devRef .tc main_v30) = XA m c (Proc.devRef .tc main_v30) :=
  calc XD1 m c (Proc.devRef .tc main_v30)
    _ = XA m c (Proc.devRef .tc main_v30) := by not_written

/-- The edge weights at the end of that list are those after the first list. -/
theorem main_v30_XD2 (c : Dev nD) : XD2 m c (Proc.devRef .tc main_v30) = XA m c (Proc.devRef .tc main_v30) :=
  calc XD2 m c (Proc.devRef .tc main_v30)
    _ = XE1 m c (Proc.devRef .tc main_v30) := by not_written
    _ = XG1 m c (Proc.devRef .tc main_v30) := by not_written
    _ = XD1 m c (Proc.devRef .tc main_v30) := by not_written
    _ = XA m c (Proc.devRef .tc main_v30) := by not_written

/-- The edge weights at the end of that list are those after the first list. -/
theorem main_v30_XD3 (c : Dev nD) : XD3 m c (Proc.devRef .tc main_v30) = XA m c (Proc.devRef .tc main_v30) :=
  calc XD3 m c (Proc.devRef .tc main_v30)
    _ = XE2 m c (Proc.devRef .tc main_v30) := by not_written
    _ = XG2 m c (Proc.devRef .tc main_v30) := by not_written
    _ = XD2 m c (Proc.devRef .tc main_v30) := by not_written
    _ = XE1 m c (Proc.devRef .tc main_v30) := by not_written
    _ = XG1 m c (Proc.devRef .tc main_v30) := by not_written
    _ = XD1 m c (Proc.devRef .tc main_v30) := by not_written
    _ = XA m c (Proc.devRef .tc main_v30) := by not_written

/-- The node features is as launched. -/
theorem main_arg0_XA (c : Dev nD) : XA m c (Proc.devRef .tc main_arg0) = m ((c : Thread nD τ).loc main_arg0) :=
  calc XA m c (Proc.devRef .tc main_arg0)
    _ = X0 m c (Proc.devRef .tc main_arg0) := by not_written
    _ = m ((c : Thread nD τ).loc main_arg0) := rfl

/-- The first weight matrix is as launched. -/
theorem main_arg2_XA (c : Dev nD) : XA m c (Proc.devRef .tc main_arg2) = m ((c : Thread nD τ).loc main_arg2) :=
  calc XA m c (Proc.devRef .tc main_arg2)
    _ = X0 m c (Proc.devRef .tc main_arg2) := by not_written
    _ = m ((c : Thread nD τ).loc main_arg2) := rfl

/-- The first bias is as launched. -/
theorem main_arg3_XG1 (c : Dev nD) : XG1 m c (Proc.devRef .tc main_arg3) = m ((c : Thread nD τ).loc main_arg3) :=
  calc XG1 m c (Proc.devRef .tc main_arg3)
    _ = XD1 m c (Proc.devRef .tc main_arg3) := by not_written
    _ = XA m c (Proc.devRef .tc main_arg3) := by not_written
    _ = X0 m c (Proc.devRef .tc main_arg3) := by not_written
    _ = m ((c : Thread nD τ).loc main_arg3) := rfl

/-- The second weight matrix is as launched. -/
theorem main_arg4_XE1 (c : Dev nD) : XE1 m c (Proc.devRef .tc main_arg4) = m ((c : Thread nD τ).loc main_arg4) :=
  calc XE1 m c (Proc.devRef .tc main_arg4)
    _ = XG1 m c (Proc.devRef .tc main_arg4) := by not_written
    _ = XD1 m c (Proc.devRef .tc main_arg4) := by not_written
    _ = XA m c (Proc.devRef .tc main_arg4) := by not_written
    _ = X0 m c (Proc.devRef .tc main_arg4) := by not_written
    _ = m ((c : Thread nD τ).loc main_arg4) := rfl

/-- The second bias is as launched. -/
theorem main_arg5_XG2 (c : Dev nD) : XG2 m c (Proc.devRef .tc main_arg5) = m ((c : Thread nD τ).loc main_arg5) :=
  calc XG2 m c (Proc.devRef .tc main_arg5)
    _ = XD2 m c (Proc.devRef .tc main_arg5) := by not_written
    _ = XE1 m c (Proc.devRef .tc main_arg5) := by not_written
    _ = XG1 m c (Proc.devRef .tc main_arg5) := by not_written
    _ = XD1 m c (Proc.devRef .tc main_arg5) := by not_written
    _ = XA m c (Proc.devRef .tc main_arg5) := by not_written
    _ = X0 m c (Proc.devRef .tc main_arg5) := by not_written
    _ = m ((c : Thread nD τ).loc main_arg5) := rfl

/-- The third weight matrix is as launched. -/
theorem main_arg6_XE2 (c : Dev nD) : XE2 m c (Proc.devRef .tc main_arg6) = m ((c : Thread nD τ).loc main_arg6) :=
  calc XE2 m c (Proc.devRef .tc main_arg6)
    _ = XG2 m c (Proc.devRef .tc main_arg6) := by not_written
    _ = XD2 m c (Proc.devRef .tc main_arg6) := by not_written
    _ = XE1 m c (Proc.devRef .tc main_arg6) := by not_written
    _ = XG1 m c (Proc.devRef .tc main_arg6) := by not_written
    _ = XD1 m c (Proc.devRef .tc main_arg6) := by not_written
    _ = XA m c (Proc.devRef .tc main_arg6) := by not_written
    _ = X0 m c (Proc.devRef .tc main_arg6) := by not_written
    _ = m ((c : Thread nD τ).loc main_arg6) := rfl

/-- The third bias is as launched. -/
theorem main_arg7_XG3 (c : Dev nD) : XG3 m c (Proc.devRef .tc main_arg7) = m ((c : Thread nD τ).loc main_arg7) :=
  calc XG3 m c (Proc.devRef .tc main_arg7)
    _ = XD3 m c (Proc.devRef .tc main_arg7) := by not_written
    _ = XE2 m c (Proc.devRef .tc main_arg7) := by not_written
    _ = XG2 m c (Proc.devRef .tc main_arg7) := by not_written
    _ = XD2 m c (Proc.devRef .tc main_arg7) := by not_written
    _ = XE1 m c (Proc.devRef .tc main_arg7) := by not_written
    _ = XG1 m c (Proc.devRef .tc main_arg7) := by not_written
    _ = XD1 m c (Proc.devRef .tc main_arg7) := by not_written
    _ = XA m c (Proc.devRef .tc main_arg7) := by not_written
    _ = X0 m c (Proc.devRef .tc main_arg7) := by not_written
    _ = m ((c : Thread nD τ).loc main_arg7) := rfl

/-- The edge list is as launched. -/
theorem main_arg1_X0 (c : Dev nD) : X0 m c (Proc.devRef .tc main_arg1) = m ((c : Thread nD τ).loc main_arg1) :=
  calc X0 m c (Proc.devRef .tc main_arg1)
    _ = m ((c : Thread nD τ).loc main_arg1) := rfl

/-- Argument 0 at the end of @main is as launched. -/
theorem main_arg0_XB3 (c : Dev nD) : XB3 m c (Proc.devRef .tc main_arg0) = m ((c : Thread nD τ).loc main_arg0) :=
  calc XB3 m c (Proc.devRef .tc main_arg0)
    _ = XG3 m c (Proc.devRef .tc main_arg0) := by not_written
    _ = XD3 m c (Proc.devRef .tc main_arg0) := by not_written
    _ = XE2 m c (Proc.devRef .tc main_arg0) := by not_written
    _ = XG2 m c (Proc.devRef .tc main_arg0) := by not_written
    _ = XD2 m c (Proc.devRef .tc main_arg0) := by not_written
    _ = XE1 m c (Proc.devRef .tc main_arg0) := by not_written
    _ = XG1 m c (Proc.devRef .tc main_arg0) := by not_written
    _ = XD1 m c (Proc.devRef .tc main_arg0) := by not_written
    _ = XA m c (Proc.devRef .tc main_arg0) := by not_written
    _ = X0 m c (Proc.devRef .tc main_arg0) := by not_written
    _ = m ((c : Thread nD τ).loc main_arg0) := rfl

/-- Argument 1 at the end of @main is as launched. -/
theorem main_arg1_XB3 (c : Dev nD) : XB3 m c (Proc.devRef .tc main_arg1) = m ((c : Thread nD τ).loc main_arg1) :=
  calc XB3 m c (Proc.devRef .tc main_arg1)
    _ = XG3 m c (Proc.devRef .tc main_arg1) := by not_written
    _ = XD3 m c (Proc.devRef .tc main_arg1) := by not_written
    _ = XE2 m c (Proc.devRef .tc main_arg1) := by not_written
    _ = XG2 m c (Proc.devRef .tc main_arg1) := by not_written
    _ = XD2 m c (Proc.devRef .tc main_arg1) := by not_written
    _ = XE1 m c (Proc.devRef .tc main_arg1) := by not_written
    _ = XG1 m c (Proc.devRef .tc main_arg1) := by not_written
    _ = XD1 m c (Proc.devRef .tc main_arg1) := by not_written
    _ = XA m c (Proc.devRef .tc main_arg1) := by not_written
    _ = X0 m c (Proc.devRef .tc main_arg1) := by not_written
    _ = m ((c : Thread nD τ).loc main_arg1) := rfl

/-- Argument 2 at the end of @main is as launched. -/
theorem main_arg2_XB3 (c : Dev nD) : XB3 m c (Proc.devRef .tc main_arg2) = m ((c : Thread nD τ).loc main_arg2) :=
  calc XB3 m c (Proc.devRef .tc main_arg2)
    _ = XG3 m c (Proc.devRef .tc main_arg2) := by not_written
    _ = XD3 m c (Proc.devRef .tc main_arg2) := by not_written
    _ = XE2 m c (Proc.devRef .tc main_arg2) := by not_written
    _ = XG2 m c (Proc.devRef .tc main_arg2) := by not_written
    _ = XD2 m c (Proc.devRef .tc main_arg2) := by not_written
    _ = XE1 m c (Proc.devRef .tc main_arg2) := by not_written
    _ = XG1 m c (Proc.devRef .tc main_arg2) := by not_written
    _ = XD1 m c (Proc.devRef .tc main_arg2) := by not_written
    _ = XA m c (Proc.devRef .tc main_arg2) := by not_written
    _ = X0 m c (Proc.devRef .tc main_arg2) := by not_written
    _ = m ((c : Thread nD τ).loc main_arg2) := rfl

/-- Argument 3 at the end of @main is as launched. -/
theorem main_arg3_XB3 (c : Dev nD) : XB3 m c (Proc.devRef .tc main_arg3) = m ((c : Thread nD τ).loc main_arg3) :=
  calc XB3 m c (Proc.devRef .tc main_arg3)
    _ = XG3 m c (Proc.devRef .tc main_arg3) := by not_written
    _ = XD3 m c (Proc.devRef .tc main_arg3) := by not_written
    _ = XE2 m c (Proc.devRef .tc main_arg3) := by not_written
    _ = XG2 m c (Proc.devRef .tc main_arg3) := by not_written
    _ = XD2 m c (Proc.devRef .tc main_arg3) := by not_written
    _ = XE1 m c (Proc.devRef .tc main_arg3) := by not_written
    _ = XG1 m c (Proc.devRef .tc main_arg3) := by not_written
    _ = XD1 m c (Proc.devRef .tc main_arg3) := by not_written
    _ = XA m c (Proc.devRef .tc main_arg3) := by not_written
    _ = X0 m c (Proc.devRef .tc main_arg3) := by not_written
    _ = m ((c : Thread nD τ).loc main_arg3) := rfl

/-- Argument 4 at the end of @main is as launched. -/
theorem main_arg4_XB3 (c : Dev nD) : XB3 m c (Proc.devRef .tc main_arg4) = m ((c : Thread nD τ).loc main_arg4) :=
  calc XB3 m c (Proc.devRef .tc main_arg4)
    _ = XG3 m c (Proc.devRef .tc main_arg4) := by not_written
    _ = XD3 m c (Proc.devRef .tc main_arg4) := by not_written
    _ = XE2 m c (Proc.devRef .tc main_arg4) := by not_written
    _ = XG2 m c (Proc.devRef .tc main_arg4) := by not_written
    _ = XD2 m c (Proc.devRef .tc main_arg4) := by not_written
    _ = XE1 m c (Proc.devRef .tc main_arg4) := by not_written
    _ = XG1 m c (Proc.devRef .tc main_arg4) := by not_written
    _ = XD1 m c (Proc.devRef .tc main_arg4) := by not_written
    _ = XA m c (Proc.devRef .tc main_arg4) := by not_written
    _ = X0 m c (Proc.devRef .tc main_arg4) := by not_written
    _ = m ((c : Thread nD τ).loc main_arg4) := rfl

/-- Argument 5 at the end of @main is as launched. -/
theorem main_arg5_XB3 (c : Dev nD) : XB3 m c (Proc.devRef .tc main_arg5) = m ((c : Thread nD τ).loc main_arg5) :=
  calc XB3 m c (Proc.devRef .tc main_arg5)
    _ = XG3 m c (Proc.devRef .tc main_arg5) := by not_written
    _ = XD3 m c (Proc.devRef .tc main_arg5) := by not_written
    _ = XE2 m c (Proc.devRef .tc main_arg5) := by not_written
    _ = XG2 m c (Proc.devRef .tc main_arg5) := by not_written
    _ = XD2 m c (Proc.devRef .tc main_arg5) := by not_written
    _ = XE1 m c (Proc.devRef .tc main_arg5) := by not_written
    _ = XG1 m c (Proc.devRef .tc main_arg5) := by not_written
    _ = XD1 m c (Proc.devRef .tc main_arg5) := by not_written
    _ = XA m c (Proc.devRef .tc main_arg5) := by not_written
    _ = X0 m c (Proc.devRef .tc main_arg5) := by not_written
    _ = m ((c : Thread nD τ).loc main_arg5) := rfl

/-- Argument 6 at the end of @main is as launched. -/
theorem main_arg6_XB3 (c : Dev nD) : XB3 m c (Proc.devRef .tc main_arg6) = m ((c : Thread nD τ).loc main_arg6) :=
  calc XB3 m c (Proc.devRef .tc main_arg6)
    _ = XG3 m c (Proc.devRef .tc main_arg6) := by not_written
    _ = XD3 m c (Proc.devRef .tc main_arg6) := by not_written
    _ = XE2 m c (Proc.devRef .tc main_arg6) := by not_written
    _ = XG2 m c (Proc.devRef .tc main_arg6) := by not_written
    _ = XD2 m c (Proc.devRef .tc main_arg6) := by not_written
    _ = XE1 m c (Proc.devRef .tc main_arg6) := by not_written
    _ = XG1 m c (Proc.devRef .tc main_arg6) := by not_written
    _ = XD1 m c (Proc.devRef .tc main_arg6) := by not_written
    _ = XA m c (Proc.devRef .tc main_arg6) := by not_written
    _ = X0 m c (Proc.devRef .tc main_arg6) := by not_written
    _ = m ((c : Thread nD τ).loc main_arg6) := rfl

/-- Argument 7 at the end of @main is as launched. -/
theorem main_arg7_XB3 (c : Dev nD) : XB3 m c (Proc.devRef .tc main_arg7) = m ((c : Thread nD τ).loc main_arg7) :=
  calc XB3 m c (Proc.devRef .tc main_arg7)
    _ = XG3 m c (Proc.devRef .tc main_arg7) := by not_written
    _ = XD3 m c (Proc.devRef .tc main_arg7) := by not_written
    _ = XE2 m c (Proc.devRef .tc main_arg7) := by not_written
    _ = XG2 m c (Proc.devRef .tc main_arg7) := by not_written
    _ = XD2 m c (Proc.devRef .tc main_arg7) := by not_written
    _ = XE1 m c (Proc.devRef .tc main_arg7) := by not_written
    _ = XG1 m c (Proc.devRef .tc main_arg7) := by not_written
    _ = XD1 m c (Proc.devRef .tc main_arg7) := by not_written
    _ = XA m c (Proc.devRef .tc main_arg7) := by not_written
    _ = X0 m c (Proc.devRef .tc main_arg7) := by not_written
    _ = m ((c : Thread nD τ).loc main_arg7) := rfl

end Cert.ReferenceIdeal.Keep

end
-- ==== Proof.KeepK.lean ====
/- Buffers the kernel program writes once and only reads afterwards. The two index lists, the edge weights and the
  argument arrays are written (or launched) before the first product region; no later host operation has one of them as
  its result and no later region has one as an array it writes back, so at every later boundary of @main each still
  holds what it held when the first region was entered. Each lemma below says so for one buffer between two boundaries.
-/
import proofs.«423356_j64484638982496_1_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of a literal list has the buffer as its result: each operation writes one buffer, and the buffer in
    question is another. -/
macro "not_written" : tactic => `(tactic|
  (refine StableHlo.after_of_forall_not_mem _ _ (List.forall_iff_forall_mem.mp ?_)
   simp only [hostOps0, hostOps0_1, hostOps0_2, hostOps1, hostOps1_1, hostOps3, hostOps3_1, hostOps5, hostOps5_1,
     List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- The source list at boundary 4 are those at the first region's entry. -/
theorem main_v3_W4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The source list at boundary 8 are those at the first region's entry. -/
theorem main_v3_W8 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by not_written
    _ = W4 m ρ c (Proc.devRef .tc main_v3) := by not_written
    _ = W3 m ρ c (Proc.devRef .tc main_v3) := W4_of_ne m ρ c main_v3 (by decide)

/-- The source list at boundary 12 are those at the first region's entry. -/
theorem main_v3_W12 (c : Dev nD) : W12 m ρ c (Proc.devRef .tc main_v3) = W3 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := W11_of_ne m ρ c main_v3 (by decide)
    _ = W9 m ρ c (Proc.devRef .tc main_v3) := by not_written
    _ = W8 m ρ c (Proc.devRef .tc main_v3) := by not_written
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := by not_written
    _ = W4 m ρ c (Proc.devRef .tc main_v3) := by not_written
    _ = W3 m ρ c (Proc.devRef .tc main_v3) := W4_of_ne m ρ c main_v3 (by decide)

/-- The destination list at boundary 4 are those at the first region's entry. -/
theorem main_v7_W4 (c : Dev nD) : W4 m ρ c (Proc.devRef .tc main_v7) = W3 m ρ c (Proc.devRef .tc main_v7) :=
  calc W4 m ρ c (Proc.devRef .tc main_v7)
    _ = W3 m ρ c (Proc.devRef .tc main_v7) := W4_of_ne m ρ c main_v7 (by decide)

/-- The destination list at boundary 8 are those at the first region's entry. -/
theorem main_v7_W8 (c : Dev nD) : W8 m ρ c (Proc.devRef .tc main_v7) = W3 m ρ c (Proc.devRef .tc main_v7) :=
  calc W8 m ρ c (Proc.devRef .tc main_v7)
    _ = W7 m ρ c (Proc.devRef .tc main_v7) := W8_of_ne m ρ c main_v7 (by decide)
    _ = W6 m ρ c (Proc.devRef .tc main_v7) := W7_of_ne m ρ c main_v7 (by decide)
    _ = W5 m ρ c (Proc.devRef .tc main_v7) := by not_written
    _ = W4 m ρ c (Proc.devRef .tc main_v7) := by not_written
    _ = W3 m ρ c (Proc.devRef .tc main_v7) := W4_of_ne m ρ c main_v7 (by decide)

/-- The destination list at boundary 12 are those at the first region's entry. -/
theorem main_v7_W12 (c : Dev nD) : W12 m ρ c (Proc.devRef .tc main_v7) = W3 m ρ c (Proc.devRef .tc main_v7) :=
  calc W12 m ρ c (Proc.devRef .tc main_v7)
    _ = W11 m ρ c (Proc.devRef .tc main_v7) := W12_of_ne m ρ c main_v7 (by decide)
    _ = W10 m ρ c (Proc.devRef .tc main_v7) := W11_of_ne m ρ c main_v7 (by decide)
    _ = W9 m ρ c (Proc.devRef .tc main_v7) := by not_written
    _ = W8 m ρ c (Proc.devRef .tc main_v7) := by not_written
    _ = W7 m ρ c (Proc.devRef .tc main_v7) := W8_of_ne m ρ c main_v7 (by decide)
    _ = W6 m ρ c (Proc.devRef .tc main_v7) := W7_of_ne m ρ c main_v7 (by decide)
    _ = W5 m ρ c (Proc.devRef .tc main_v7) := by not_written
    _ = W4 m ρ c (Proc.devRef .tc main_v7) := by not_written
    _ = W3 m ρ c (Proc.devRef .tc main_v7) := W4_of_ne m ρ c main_v7 (by decide)

/-- The edge weights at boundary 4 are those at the first region's entry. -/
theorem main_v30_W4 (c : Dev nD) : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

/-- The edge weights at boundary 8 are those at the first region's entry. -/
theorem main_v30_W8 (c : Dev nD) : W8 m ρ c (Proc.devRef .tc main_v30) = W3 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := W7_of_ne m ρ c main_v30 (by decide)
    _ = W5 m ρ c (Proc.devRef .tc main_v30) := by not_written
    _ = W4 m ρ c (Proc.devRef .tc main_v30) := by not_written
    _ = W3 m ρ c (Proc.devRef .tc main_v30) := W4_of_ne m ρ c main_v30 (by decide)

/-- The edge weights at boundary 12 are those at the first region's entry. -/
theorem main_v30_W12 (c : Dev nD) : W12 m ρ c (Proc.devRef .tc main_v30) = W3 m ρ c (Proc.devRef .tc main_v30) :=
  calc W12 m ρ c (Proc.devRef .tc main_v30)
    _ = W11 m ρ c (Proc.devRef .tc main_v30) := W12_of_ne m ρ c main_v30 (by decide)
    _ = W10 m ρ c (Proc.devRef .tc main_v30) := W11_of_ne m ρ c main_v30 (by decide)
    _ = W9 m ρ c (Proc.devRef .tc main_v30) := by not_written
    _ = W8 m ρ c (Proc.devRef .tc main_v30) := by not_written
    _ = W7 m ρ c (Proc.devRef .tc main_v30) := W8_of_ne m ρ c main_v30 (by decide)
    _ = W6 m ρ c (Proc.devRef .tc main_v30) := W7_of_ne m ρ c main_v30 (by decide)
    _ = W5 m ρ c (Proc.devRef .tc main_v30) := by not_written
    _ = W4 m ρ c (Proc.devRef .tc main_v30) := by not_written
    _ = W3 m ρ c (Proc.devRef .tc main_v30) := W4_of_ne m ρ c main_v30 (by decide)

/-- The node features at boundary 3 is as launched. -/
theorem main_arg0_W3 (c : Dev nD) : W3 m ρ c (Proc.devRef .tc main_arg0) = m ((c : Thread nD τ).loc main_arg0) :=
  calc W3 m ρ c (Proc.devRef .tc main_arg0)
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl

/-- The first weight matrix at boundary 3 is as launched. -/
theorem main_arg2_W3 (c : Dev nD) : W3 m ρ c (Proc.devRef .tc main_arg2) = m ((c : Thread nD τ).loc main_arg2) :=
  calc W3 m ρ c (Proc.devRef .tc main_arg2)
    _ = W2 m ρ c (Proc.devRef .tc main_arg2) := by not_written
    _ = W1 m ρ c (Proc.devRef .tc main_arg2) := by not_written
    _ = W0 m ρ c (Proc.devRef .tc main_arg2) := by not_written
    _ = m ((c : Thread nD τ).loc main_arg2) := rfl

/-- The first bias at boundary 5 is as launched. -/
theorem main_arg3_W5 (c : Dev nD) : W5 m ρ c (Proc.devRef .tc main_arg3) = m ((c : Thread nD τ).loc main_arg3) :=
  calc W5 m ρ c (Proc.devRef .tc main_arg3)
    _ = W4 m ρ c (Proc.devRef .tc main_arg3) := by not_written
    _ = W3 m ρ c (Proc.devRef .tc main_arg3) := W4_of_ne m ρ c main_arg3 (by decide)
    _ = W2 m ρ c (Proc.devRef .tc main_arg3) := by not_written
    _ = W1 m ρ c (Proc.devRef .tc main_arg3) := by not_written
    _ = W0 m ρ c (Proc.devRef .tc main_arg3) := by not_written
    _ = m ((c : Thread nD τ).loc main_arg3) := rfl

/-- The second weight matrix at boundary 7 is as launched. -/
theorem main_arg4_W7 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := by not_written
    _ = W4 m ρ c (Proc.devRef .tc main_arg4) := by not_written
    _ = W3 m ρ c (Proc.devRef .tc main_arg4) := W4_of_ne m ρ c main_arg4 (by decide)
    _ = W2 m ρ c (Proc.devRef .tc main_arg4) := by not_written
    _ = W1 m ρ c (Proc.devRef .tc main_arg4) := by not_written
    _ = W0 m ρ c (Proc.devRef .tc main_arg4) := by not_written
    _ = m ((c : Thread nD τ).loc main_arg4) := rfl

/-- The second bias at boundary 9 is as launched. -/
theorem main_arg5_W9 (c : Dev nD) : W9 m ρ c (Proc.devRef .tc main_arg5) = m ((c : Thread nD τ).loc main_arg5) :=
  calc W9 m ρ c (Proc.devRef .tc main_arg5)
    _ = W8 m ρ c (Proc.devRef .tc main_arg5) := by not_written
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := by not_written
    _ = W4 m ρ c (Proc.devRef .tc main_arg5) := by not_written
    _ = W3 m ρ c (Proc.devRef .tc main_arg5) := W4_of_ne m ρ c main_arg5 (by decide)
    _ = W2 m ρ c (Proc.devRef .tc main_arg5) := by not_written
    _ = W1 m ρ c (Proc.devRef .tc main_arg5) := by not_written
    _ = W0 m ρ c (Proc.devRef .tc main_arg5) := by not_written
    _ = m ((c : Thread nD τ).loc main_arg5) := rfl

/-- The third weight matrix at boundary 11 is as launched. -/
theorem main_arg6_W11 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := by not_written
    _ = W8 m ρ c (Proc.devRef .tc main_arg6) := by not_written
    _ = W7 m ρ c (Proc.devRef .tc main_arg6) := W8_of_ne m ρ c main_arg6 (by decide)
    _ = W6 m ρ c (Proc.devRef .tc main_arg6) := W7_of_ne m ρ c main_arg6 (by decide)
    _ = W5 m ρ c (Proc.devRef .tc main_arg6) := by not_written
    _ = W4 m ρ c (Proc.devRef .tc main_arg6) := by not_written
    _ = W3 m ρ c (Proc.devRef .tc main_arg6) := W4_of_ne m ρ c main_arg6 (by decide)
    _ = W2 m ρ c (Proc.devRef .tc main_arg6) := by not_written
    _ = W1 m ρ c (Proc.devRef .tc main_arg6) := by not_written
    _ = W0 m ρ c (Proc.devRef .tc main_arg6) := by not_written
    _ = m ((c : Thread nD τ).loc main_arg6) := rfl

/-- The third bias at boundary 13 is as launched. -/
theorem main_arg7_W13 (c : Dev nD) : W13 m ρ c (Proc.devRef .tc main_arg7) = m ((c : Thread nD τ).loc main_arg7) :=
  calc W13 m ρ c (Proc.devRef .tc main_arg7)
    _ = W12 m ρ c (Proc.devRef .tc main_arg7) := by not_written
    _ = W11 m ρ c (Proc.devRef .tc main_arg7) := W12_of_ne m ρ c main_arg7 (by decide)
    _ = W10 m ρ c (Proc.devRef .tc main_arg7) := W11_of_ne m ρ c main_arg7 (by decide)
    _ = W9 m ρ c (Proc.devRef .tc main_arg7) := by not_written
    _ = W8 m ρ c (Proc.devRef .tc main_arg7) := by not_written
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := by not_written
    _ = W4 m ρ c (Proc.devRef .tc main_arg7) := by not_written
    _ = W3 m ρ c (Proc.devRef .tc main_arg7) := W4_of_ne m ρ c main_arg7 (by decide)
    _ = W2 m ρ c (Proc.devRef .tc main_arg7) := by not_written
    _ = W1 m ρ c (Proc.devRef .tc main_arg7) := by not_written
    _ = W0 m ρ c (Proc.devRef .tc main_arg7) := by not_written
    _ = m ((c : Thread nD τ).loc main_arg7) := rfl

/-- The edge list at launch. -/
theorem main_arg1_W0 (c : Dev nD) : W0 m ρ c (Proc.devRef .tc main_arg1) = m ((c : Thread nD τ).loc main_arg1) := rfl

end Cert.KernelIdeal.Keep

end
-- ==== Proof.StepA.lean ====
/-
  The two programs begin with the same operations on the edge list: the source list and the destination list, each
  followed by the 100000 self loops; the degree of every node as a scatter-add of ones over the destinations; its inverse
  square root where the degree is positive; and the weight of an edge as the product of that value at its two ends. Read
  back as functions of the edge list they are the same three terms.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

attribute [local irreducible] Host.scatterAdd Host.gather concatenate in
set_option maxHeartbeats 4000000 in
/-- The source lists agree: on both sides the list is the edge list's first row followed by the self loops, one term of
    the edge list; the two spellings differ in the names of shapes and side conditions only. -/
theorem stepA_src (VK : Valuation Cert.KernelIdeal.τ Cert.KernelIdeal.sig (Elt Ideal)) (X : Valuation Cert.ReferenceIdeal.τ Cert.ReferenceIdeal.sig (Elt Ideal))
    (hE : VK (Proc.devRef .tc Cert.KernelIdeal.main_arg1) = X (Proc.devRef .tc Cert.ReferenceIdeal.main_arg1)) :
    after Cert.KernelIdeal.Gen.hostOps0_2 (after Cert.KernelIdeal.Gen.hostOps0_1 (after Cert.KernelIdeal.Gen.hostOps0 VK)) (Proc.devRef .tc Cert.KernelIdeal.main_v3)
        = after Cert.ReferenceIdeal.RV.rA X (Proc.devRef .tc Cert.ReferenceIdeal.main_v3) := by
  after_results
  rw [hE]
  rfl

attribute [local irreducible] Host.scatterAdd Host.gather concatenate in
set_option maxHeartbeats 4000000 in
/-- The destination lists agree: the edge list's second row followed by the self loops. -/
theorem stepA_dst (VK : Valuation Cert.KernelIdeal.τ Cert.KernelIdeal.sig (Elt Ideal)) (X : Valuation Cert.ReferenceIdeal.τ Cert.ReferenceIdeal.sig (Elt Ideal))
    (hE : VK (Proc.devRef .tc Cert.KernelIdeal.main_arg1) = X (Proc.devRef .tc Cert.ReferenceIdeal.main_arg1)) :
    after Cert.KernelIdeal.Gen.hostOps0_2 (after Cert.KernelIdeal.Gen.hostOps0_1 (after Cert.KernelIdeal.Gen.hostOps0 VK)) (Proc.devRef .tc Cert.KernelIdeal.main_v7)
        = after Cert.ReferenceIdeal.RV.rA X (Proc.devRef .tc Cert.ReferenceIdeal.main_v7) := by
  after_results
  rw [hE]
  rfl

attribute [local irreducible] Host.scatterAdd Host.gather concatenate in
set_option maxHeartbeats 4000000 in
/-- The edge weights agree: the product, over an edge's two ends (indices below zero wrapped by the number of nodes), of
    the inverse square root of the degree where it is positive and zero elsewhere, the degree being the scatter-add of
    ones over the destination list. The operations' results are read back in one pass, then once more inside the two lists'
    operands; the gathers and the scatter-add stay folded: the equation never looks inside them. -/
theorem stepA_w (VK : Valuation Cert.KernelIdeal.τ Cert.KernelIdeal.sig (Elt Ideal)) (X : Valuation Cert.ReferenceIdeal.τ Cert.ReferenceIdeal.sig (Elt Ideal))
    (hE : VK (Proc.devRef .tc Cert.KernelIdeal.main_arg1) = X (Proc.devRef .tc Cert.ReferenceIdeal.main_arg1)) :
    after Cert.KernelIdeal.Gen.hostOps0_2 (after Cert.KernelIdeal.Gen.hostOps0_1 (after Cert.KernelIdeal.Gen.hostOps0 VK)) (Proc.devRef .tc Cert.KernelIdeal.main_v30)
        = after Cert.ReferenceIdeal.RV.rA X (Proc.devRef .tc Cert.ReferenceIdeal.main_v30) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hE]
  rfl

/-- From contents that agree on the edge list, the kernel's first three stretches and the reference's first list leave the
    same source list, destination list and edge weights. -/
theorem stepA (VK : Valuation Cert.KernelIdeal.τ Cert.KernelIdeal.sig (Elt Ideal)) (X : Valuation Cert.ReferenceIdeal.τ Cert.ReferenceIdeal.sig (Elt Ideal))
    (hE : VK (Proc.devRef .tc Cert.KernelIdeal.main_arg1) = X (Proc.devRef .tc Cert.ReferenceIdeal.main_arg1)) :
    after Cert.KernelIdeal.Gen.hostOps0_2 (after Cert.KernelIdeal.Gen.hostOps0_1 (after Cert.KernelIdeal.Gen.hostOps0 VK)) (Proc.devRef .tc Cert.KernelIdeal.main_v3)
        = after Cert.ReferenceIdeal.RV.rA X (Proc.devRef .tc Cert.ReferenceIdeal.main_v3)
    ∧ after Cert.KernelIdeal.Gen.hostOps0_2 (after Cert.KernelIdeal.Gen.hostOps0_1 (after Cert.KernelIdeal.Gen.hostOps0 VK)) (Proc.devRef .tc Cert.KernelIdeal.main_v7)
        = after Cert.ReferenceIdeal.RV.rA X (Proc.devRef .tc Cert.ReferenceIdeal.main_v7)
    ∧ after Cert.KernelIdeal.Gen.hostOps0_2 (after Cert.KernelIdeal.Gen.hostOps0_1 (after Cert.KernelIdeal.Gen.hostOps0 VK)) (Proc.devRef .tc Cert.KernelIdeal.main_v30)
        = after Cert.ReferenceIdeal.RV.rA X (Proc.devRef .tc Cert.ReferenceIdeal.main_v30) :=
  ⟨stepA_src VK X hE, stepA_dst VK X hE, stepA_w VK X hE⟩

end Cert.Sim

end
-- ==== Proof.SrcRange.lean ====
/-
  The precondition's last conjunct says that every entry s of the edge list's first row has -100000 ≤ s < 100000. The
  source list the programs use is that row followed by the self loops 0 … 99999, so every entry of the source list is in
  the same range.
-/
import proofs.«423356_j64484638982496_1_alg».proof.Proof.Gen.KernelIdeal.Frame
import proofs.«423356_j64484638982496_1_alg».proof.Proof.RefRun
import proofs.«423356_j64484638982496_1_alg».proof.Defs
import proofs.«423356_j64484638982496_1_alg».proof.Proof.Gen.Pre_finite_inputs
import Idealize.ShloMosaic.Lib.ReduceAll
import Idealize.ShloMosaic.Lib.StableHlo.Predicate
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

/-- The signed value of the word that prints -100000. -/
theorem srcRange_lo : (4294867296#32 : BitVec 32).toInt = -100000 := by decide

/-- The signed value of the word 100000. -/
theorem srcRange_hi : (100000#32 : BitVec 32).toInt = 100000 := by decide

/-- The precondition's last conjunct, read at one entry of the edge list's first row: the reduction by "and" over all
    3200000 entries is 1, so at each entry both compares are 1, and a signed compare of words that is 1 is the
    inequality of their signed values. -/
theorem srcRange_pre_entry
    (A0 : FVec Ideal Cert.Pre_finite_inputs.S100000x932 .f32) (A1 : IVec Cert.Pre_finite_inputs.S2x3200000 32)
    (A2 : FVec Ideal Cert.Pre_finite_inputs.S932x32 .f32) (A3 : FVec Ideal Cert.Pre_finite_inputs.S32 .f32)
    (A4 : FVec Ideal Cert.Pre_finite_inputs.S32x32 .f32) (A5 : FVec Ideal Cert.Pre_finite_inputs.S32 .f32)
    (A6 : FVec Ideal Cert.Pre_finite_inputs.S32x16 .f32) (A7 : FVec Ideal Cert.Pre_finite_inputs.S16 .f32)
    (hpre : Cert.Pre_finite_inputs.fn (F := Ideal) A0 A1 A2 A3 A4 A5 A6 A7 = fun _ => 1#1)
    (j : Cert.Pre_finite_inputs.S3200000.Idx) :
    -100000 ≤ (shapeCast Cert.Pre_finite_inputs.S3200000
        (extractStridedSlice Cert.Pre_finite_inputs.S1x3200000 ![0, 0] A1 Cert.Pre_finite_inputs.Gen.slices_S2x3200000_S1x3200000_0_0)
        Cert.Pre_finite_inputs.Gen.shapeCasts_S1x3200000_S3200000 j : BitVec 32).toInt
    ∧ (shapeCast Cert.Pre_finite_inputs.S3200000
        (extractStridedSlice Cert.Pre_finite_inputs.S1x3200000 ![0, 0] A1 Cert.Pre_finite_inputs.Gen.slices_S2x3200000_S1x3200000_0_0)
        Cert.Pre_finite_inputs.Gen.shapeCasts_S1x3200000_S3200000 j : BitVec 32).toInt < 100000 := by
  have e := congrFun hpre ValueIdx.ix0
  dsimp only [Cert.Pre_finite_inputs.fn, Cert.Pre_finite_inputs.fn_part1, Cert.Pre_finite_inputs.fn_part2] at e
  have e43 := (IntOp.andi_eq_one.1 e).2
  haveI : Subsingleton Cert.Pre_finite_inputs.S_.Idx := ⟨fun a b => funext fun d => d.elim0⟩
  have ej := Host.reduce_andi_all _ _ _ _ _ e43 j
  obtain ⟨hge, hlt⟩ := IntOp.andi_eq_one.1 ej
  have hge' := IntOp.cmpi_sge.1 hge
  have hlt' := IntOp.cmpi_slt.1 hlt
  have h1 : (4294867296#32 : BitVec 32).toInt ≤ (shapeCast Cert.Pre_finite_inputs.S3200000
        (extractStridedSlice Cert.Pre_finite_inputs.S1x3200000 ![0, 0] A1 Cert.Pre_finite_inputs.Gen.slices_S2x3200000_S1x3200000_0_0)
        Cert.Pre_finite_inputs.Gen.shapeCasts_S1x3200000_S3200000 j : BitVec 32).toInt := hge'
  have h2 : (shapeCast Cert.Pre_finite_inputs.S3200000
        (extractStridedSlice Cert.Pre_finite_inputs.S1x3200000 ![0, 0] A1 Cert.Pre_finite_inputs.Gen.slices_S2x3200000_S1x3200000_0_0)
        Cert.Pre_finite_inputs.Gen.shapeCasts_S1x3200000_S3200000 j : BitVec 32).toInt < (100000#32 : BitVec 32).toInt := hlt'
  rw [srcRange_lo] at h1
  rw [srcRange_hi] at h2
  exact ⟨h1, h2⟩

/-- Under the precondition every entry of the kernel's source list (the edge list's first row, then the self loops) is
    between -100000 and 99999. -/
theorem src_range (VK : Valuation Cert.KernelIdeal.τ Cert.KernelIdeal.sig (Elt Ideal))
    (hpre : Cert.Pre_finite_inputs.fn (F := Ideal)
      (VK (Proc.devRef .tc Cert.KernelIdeal.main_arg0)) (VK (Proc.devRef .tc Cert.KernelIdeal.main_arg1)) (VK (Proc.devRef .tc Cert.KernelIdeal.main_arg2)) (VK (Proc.devRef .tc Cert.KernelIdeal.main_arg3))
      (VK (Proc.devRef .tc Cert.KernelIdeal.main_arg4)) (VK (Proc.devRef .tc Cert.KernelIdeal.main_arg5)) (VK (Proc.devRef .tc Cert.KernelIdeal.main_arg6)) (VK (Proc.devRef .tc Cert.KernelIdeal.main_arg7)) = fun _ => 1#1)
    (i : Cert.KernelIdeal.S3300000.Idx) :
    -100000 ≤ (after Cert.KernelIdeal.Gen.hostOps0_2 (after Cert.KernelIdeal.Gen.hostOps0_1 (after Cert.KernelIdeal.Gen.hostOps0 VK)) (Proc.devRef .tc Cert.KernelIdeal.main_v3) i : BitVec 32).toInt
    ∧ (after Cert.KernelIdeal.Gen.hostOps0_2 (after Cert.KernelIdeal.Gen.hostOps0_1 (after Cert.KernelIdeal.Gen.hostOps0 VK)) (Proc.devRef .tc Cert.KernelIdeal.main_v3) i : BitVec 32).toInt < 100000 := by
  after_results
  have hi0 : (i 0).val < 3300000 := (i 0).isLt
  by_cases hlt : (i 0).val < 3200000
  · rw [concatenate_pair_apply_left (t := Cert.KernelIdeal.S3300000) (s₁ := Cert.KernelIdeal.S3200000) (s₂ := Cert.KernelIdeal.S100000)
      0 _ _ _ i rfl (ValueIdx.ix1 ⟨(i 0).val, hlt⟩) (fun b => match b with | ⟨0, _⟩ => rfl)]
    exact srcRange_pre_entry _ _ _ _ _ _ _ _ hpre (ValueIdx.ix1 ⟨(i 0).val, hlt⟩)
  · have hge : 3200000 ≤ (i 0).val := Nat.le_of_not_lt hlt
    rw [concatenate_pair_apply_right (t := Cert.KernelIdeal.S3300000) (s₁ := Cert.KernelIdeal.S3200000) (s₂ := Cert.KernelIdeal.S100000)
      0 _ _ _ i rfl rfl (ValueIdx.ix1 ⟨(i 0).val - 3200000, by omega⟩)
      (fun b hb => absurd (Subsingleton.elim _ _) hb)
      (show (i 0).val - 3200000 + 3200000 = (i 0).val by omega)]
    show -100000 ≤ (BitVec.ofNat 32 ((i 0).val - 3200000)).toInt ∧ (BitVec.ofNat 32 ((i 0).val - 3200000)).toInt < 100000
    rw [Predicate.toInt_ofNat_small _ (by omega)]
    constructor <;> omega

end Cert.Sim

end
-- ==== Proof.StepD1.lean ====
/-
  The first layer's dense product (100000×932 by 932×32). The kernel computes it in row tiles of 2000: at grid point t the body
  multiplies rows 2000·t … 2000·t+1999 of the left matrix by the whole right matrix into a zero accumulator (the casts to
  bfloat16 on the way in are the identity on the extended reals) and writes the tile back; the fifty tiles cover the
  result. Entry (r, j) of the result array is therefore the sum over k of left (r, k) · right (k, j), which is what the
  reference's one dot_general of the whole matrices gives.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

namespace ProductOne

open Cert.KernelIdeal Cert.KernelIdeal.Gen Idealize.ShloMosaic.ValueIdx

/-- A block stored at offset zero in every axis. -/
theorem zeroOffsets : (![0, 0] : Fin 2 → Nat) = fun _ => 0 := funext fun a => by fin_cases a <;> rfl

/-! ## The tile's product at an entry -/

/-- The left operand's row coordinate is the output's row. -/
theorem lhs_row (i : S2000x32.Idx) (q : dot_S2000x932_S932x32_S2000x32_1_0_0_1_n_n.contr.Idx) :
    (dot_S2000x932_S932x32_S2000x32_1_0_0_1_n_n.lhsIdx i q 0).val = (i 0).val := by
  unfold DotDims.lhsIdx
  rw [dif_neg (show ¬(0 : Fin S2000x932.rank) ∈ dot_S2000x932_S932x32_S2000x32_1_0_0_1_n_n.lhsBatch by decide), dif_pos (show (0 : Fin S2000x932.rank) ∈ dot_S2000x932_S932x32_S2000x32_1_0_0_1_n_n.lhsNonContracting by decide)]
  rfl

/-- The left operand's column coordinate is the contraction position. -/
theorem lhs_col (i : S2000x32.Idx) (q : dot_S2000x932_S932x32_S2000x32_1_0_0_1_n_n.contr.Idx) :
    (dot_S2000x932_S932x32_S2000x32_1_0_0_1_n_n.lhsIdx i q 1).val = (q ⟨0, by decide⟩).val :=
  dot_S2000x932_S932x32_S2000x32_1_0_0_1_n_n.lhsIdx_val_of_single rfl i q

/-- The right operand's row coordinate is the contraction position. -/
theorem rhs_row (i : S2000x32.Idx) (q : dot_S2000x932_S932x32_S2000x32_1_0_0_1_n_n.contr.Idx) :
    (dot_S2000x932_S932x32_S2000x32_1_0_0_1_n_n.rhsIdx i q 0).val = (q ⟨0, by decide⟩).val :=
  dot_S2000x932_S932x32_S2000x32_1_0_0_1_n_n.rhsIdx_val_of_single rfl i q

/-- The right operand's column coordinate is the output's column. -/
theorem rhs_col (i : S2000x32.Idx) (q : dot_S2000x932_S932x32_S2000x32_1_0_0_1_n_n.contr.Idx) :
    (dot_S2000x932_S932x32_S2000x32_1_0_0_1_n_n.rhsIdx i q 1).val = (i 1).val := by
  unfold DotDims.rhsIdx
  rw [dif_neg (show ¬(1 : Fin S932x32.rank) ∈ dot_S2000x932_S932x32_S2000x32_1_0_0_1_n_n.rhsBatch by decide), dif_pos (show (1 : Fin S932x32.rank) ∈ dot_S2000x932_S932x32_S2000x32_1_0_0_1_n_n.rhsNonContracting by decide)]
  rfl

/-- Entry (p, q) of the tile the body stores: row p of the left block times column q of the right block. -/
theorem tile_apply (x0 : Vec Ideal S2000x932 .f32) (x1 : Vec Ideal S932x32 .f32) (p : Fin 2000) (q : Fin 32) :
    k0_pay1 (F := Ideal) x0 x1 (ix2 p q) = ∑ k : Fin 932, x0 (ix2 p k) * x1 (ix2 k q) := by
  unfold k0_pay1
  refine (Ideal.matmul_constant_zero_apply dot_S2000x932_S932x32_S2000x32_1_0_0_1_n_n none _ _ (ix2 p q)).trans ?_
  rw [← Equiv.sum_comp (ValueIdx.contrEquiv1 dot_S2000x932_S932x32_S2000x32_1_0_0_1_n_n 932 rfl rfl).symm]
  refine Finset.sum_congr rfl fun k _ => ?_
  have hk := ValueIdx.contrEquiv1_symm_val dot_S2000x932_S932x32_S2000x32_1_0_0_1_n_n 932 rfl rfl k
  have el : dot_S2000x932_S932x32_S2000x32_1_0_0_1_n_n.lhsIdx (ix2 p q) ((ValueIdx.contrEquiv1 dot_S2000x932_S932x32_S2000x32_1_0_0_1_n_n 932 rfl rfl).symm k) = ix2 p k := funext fun a => Fin.ext (by
    match a with
    | ⟨0, _⟩ => exact lhs_row _ _
    | ⟨1, _⟩ => exact (lhs_col _ _).trans hk)
  have er : dot_S2000x932_S932x32_S2000x32_1_0_0_1_n_n.rhsIdx (ix2 p q) ((ValueIdx.contrEquiv1 dot_S2000x932_S932x32_S2000x32_1_0_0_1_n_n 932 rfl rfl).symm k) = ix2 k q := funext fun a => Fin.ext (by
    match a with
    | ⟨0, _⟩ => exact (rhs_row _ _).trans hk
    | ⟨1, _⟩ => exact rhs_col _ _)
  show x0 _ * x1 _ = _
  rw [el, er]

end ProductOne

namespace ProductOne

open Cert.KernelIdeal Cert.KernelIdeal.Gen Idealize.ShloMosaic.ValueIdx

/-! ## From the tiles to the array -/

/-- The product of the whole matrices, entry by entry. -/
abbrev product (a : Vec Ideal S100000x932 .f32) (b : Vec Ideal S932x32 .f32) : Vec Ideal S100000x32 .f32 :=
  fun i => ∑ k : Fin 932, a (ix2 (i 0) k) * b (ix2 k (i 1))

/-- The printed index maps over the fifty grid points: the left window and the output move down one tile per point, the
    right window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If the left block is rows 2000·n … 2000·n+1999 of `a` and the right block is `b`, the tile the body stores is rows
    2000·n … 2000·n+1999 of the product. -/
theorem tile_of_blocks (a : Vec Ideal S100000x932 .f32) (b : Vec Ideal S932x32 .f32)
    (x0 : Vec Ideal S2000x932 .f32) (x1 : Vec Ideal S932x32 .f32) (n : ℕ)
    (h0 : ∀ (y : S2000x932.Idx) (i : S100000x932.Idx), (i 0).val = n * 2000 + (y 0).val → (i 1).val = (y 1).val → x0 y = a i)
    (h1 : ∀ (y : S932x32.Idx), x1 y = b y)
    (y : S2000x32.Idx) (i : S100000x32.Idx) (hi0 : (i 0).val = n * 2000 + (y 0).val) (hi1 : (i 1).val = (y 1).val) :
    k0_pay1 (F := Ideal) x0 x1 y = product a b i := by
  obtain ⟨p, q, rfl⟩ : ∃ (p : Fin 2000) (q : Fin 32), y = ix2 p q := ⟨y 0, y 1, eq_ix2 y⟩
  obtain ⟨r, s, rfl⟩ : ∃ (r : Fin 100000) (s : Fin 32), i = ix2 r s := ⟨i 0, i 1, eq_ix2 i⟩
  have hr : r.val = n * 2000 + p.val := hi0
  obtain rfl : s = q := Fin.ext hi1
  rw [tile_apply]
  show _ = ∑ k : Fin 932, a (ix2 r k) * b (ix2 k s)
  refine Finset.sum_congr rfl fun k _ => ?_
  rw [h0 (ix2 p k) (ix2 r k) hr rfl, h1]

variable (V : (c : Dev nD) → (b : Ref sig .tc) → Buf (Elt Ideal) ((c : Thread nD τ).loc b))

/-- The left window's block at point `t` is rows 2000·t … 2000·t+1999 of the left matrix. -/
theorem left_block (c : Dev nD) (t : Fin cfg0.N) (y : S2000x932.Idx) (i : S100000x932.Idx)
    (h0 : (i 0).val = t.val * 2000 + (y 0).val) (h1 : (i 1).val = (y 1).val) :
    (iblk0 V c 0 t : Vec Ideal S2000x932 .f32) y = (V c main_arg0 : Vec Ideal S100000x932 .f32) i := by
  obtain ⟨e0, e1, -, -, -, -⟩ := index_facts t
  unfold iblk0
  rw [View.read_apply]
  show (V c main_arg0 : Vec Ideal S100000x932 .f32) _ = _
  congr 1
  funext d
  apply Fin.ext
  match d with
  | ⟨0, _⟩ => show win0_0.index t (0 : Fin 2) * 2000 + 1 * (y 0).val = (i 0).val; omega
  | ⟨1, _⟩ => show win0_0.index t (1 : Fin 2) * 932 + 1 * (y 1).val = (i 1).val; omega

/-- The right window's block at every point is the whole right matrix. -/
theorem right_block (c : Dev nD) (t : Fin cfg0.N) (y : S932x32.Idx) :
    (iblk0 V c 1 t : Vec Ideal S932x32 .f32) y = (V c main_arg2 : Vec Ideal S932x32 .f32) y := by
  obtain ⟨-, -, e2, e3, -, -⟩ := index_facts t
  unfold iblk0
  rw [View.read_apply]
  show (V c main_arg2 : Vec Ideal S932x32 .f32) _ = _
  congr 1
  funext d
  apply Fin.ext
  have h0 : (y 0).val < 932 := (y 0).isLt
  have h1 : (y 1).val < 32 := (y 1).isLt
  match d with
  | ⟨0, _⟩ => show win0_1.index t (0 : Fin 2) * 932 + 1 * (y 0).val = (y 0).val; omega
  | ⟨1, _⟩ => show win0_1.index t (1 : Fin 2) * 32 + 1 * (y 1).val = (y 1).val; omega

/-- What point `t` writes back is block `t` of the product of the two matrices as the region finds them. -/
theorem flushed_eq (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeroOffsets]
  simp only [View.ld_unit_zero (S := S2000x932) zeroOffsets, View.ld_unit_zero (S := S932x32) zeroOffsets]
  obtain ⟨-, -, -, -, e4, e5⟩ := index_facts t
  funext j
  show k0_pay1 (F := Ideal) (iblk0 V c 0 t) (iblk0 V c 1 t) j = product (V c main_arg0) (V c main_arg2) (((cfg0.win 2).blk t).view.emb j)
  refine tile_of_blocks (V c main_arg0) (V c main_arg2) (iblk0 V c 0 t) (iblk0 V c 1 t) t.val
    (left_block V c t) (right_block V c t) j (((cfg0.win 2).blk t).view.emb j) ?_ ?_
  · show win0_2.index t (0 : Fin 2) * 2000 + 1 * (j 0).val = t.val * 2000 + (j 0).val
    omega
  · show win0_2.index t (1 : Fin 2) * 32 + 1 * (j 1).val = (j 1).val
    omega

/-- An index of the result array lies in point `t`'s block iff each coordinate lies in the block's range on its axis. -/
theorem mem_blk (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v31).slice (win0_2.rect t)).set ↔ _
  rw [View.set_slice_whole, Rect.mem_set_unit]
  exact Iff.rfl

/-- Row r of the result lies in tile r / 2000: the fifty tiles cover the array. -/
theorem tiles_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 50 := N_0
  have ht : (i 0).val / 2000 < cfg0.N := by rw [hN]; omega
  obtain ⟨-, -, -, -, e4, e5⟩ := index_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 32 ≤ (i 1).val ∧ (i 1).val < win0_2.index ⟨(i 0).val / 2000, ht⟩ (1 : Fin 2) * 32 + 32
    omega

/-- The result array after the fifty points is the product of the two matrices as the region finds them. -/
theorem array_eq (c : Dev nD) :
    (dat0 (F := Ideal) V c).arrAt 2 cfg0.N = product (V c main_arg0) (V c main_arg2) :=
  (dat0 V c).arrAt_eq_of_cover 2 (product (V c main_arg0) (V c main_arg2)) (fun t _ => flushed_eq V c t) tiles_cover

end ProductOne

namespace RefProductOne

open Cert.ReferenceIdeal Idealize.ShloMosaic.ValueIdx

/-! ## The reference's product at an entry -/

/-- The left operand's row coordinate is the output's row. -/
theorem lhs_row (i : S100000x32.Idx) (q : dot_S100000x932_S932x32_S100000x32_1_0_0_1_n_n.contr.Idx) :
    (dot_S100000x932_S932x32_S100000x32_1_0_0_1_n_n.lhsIdx i q 0).val = (i 0).val := by
  unfold DotDims.lhsIdx
  rw [dif_neg (show ¬(0 : Fin S100000x932.rank) ∈ dot_S100000x932_S932x32_S100000x32_1_0_0_1_n_n.lhsBatch by decide), dif_pos (show (0 : Fin S100000x932.rank) ∈ dot_S100000x932_S932x32_S100000x32_1_0_0_1_n_n.lhsNonContracting by decide)]
  rfl

/-- The left operand's column coordinate is the contraction position. -/
theorem lhs_col (i : S100000x32.Idx) (q : dot_S100000x932_S932x32_S100000x32_1_0_0_1_n_n.contr.Idx) :
    (dot_S100000x932_S932x32_S100000x32_1_0_0_1_n_n.lhsIdx i q 1).val = (q ⟨0, by decide⟩).val :=
  dot_S100000x932_S932x32_S100000x32_1_0_0_1_n_n.lhsIdx_val_of_single rfl i q

/-- The right operand's row coordinate is the contraction position. -/
theorem rhs_row (i : S100000x32.Idx) (q : dot_S100000x932_S932x32_S100000x32_1_0_0_1_n_n.contr.Idx) :
    (dot_S100000x932_S932x32_S100000x32_1_0_0_1_n_n.rhsIdx i q 0).val = (q ⟨0, by decide⟩).val :=
  dot_S100000x932_S932x32_S100000x32_1_0_0_1_n_n.rhsIdx_val_of_single rfl i q

/-- The right operand's column coordinate is the output's column. -/
theorem rhs_col (i : S100000x32.Idx) (q : dot_S100000x932_S932x32_S100000x32_1_0_0_1_n_n.contr.Idx) :
    (dot_S100000x932_S932x32_S100000x32_1_0_0_1_n_n.rhsIdx i q 1).val = (i 1).val := by
  unfold DotDims.rhsIdx
  rw [dif_neg (show ¬(1 : Fin S932x32.rank) ∈ dot_S100000x932_S932x32_S100000x32_1_0_0_1_n_n.rhsBatch by decide), dif_pos (show (1 : Fin S932x32.rank) ∈ dot_S100000x932_S932x32_S100000x32_1_0_0_1_n_n.rhsNonContracting by decide)]
  rfl

/-- Entry (r, s) of the reference's product of the whole matrices: row r of the left times column s of the right. -/
theorem whole_apply (a : FVec Ideal S100000x932 .f32) (b : FVec Ideal S932x32 .f32) (r : Fin 100000) (s : Fin 32) :
    Host.dotGeneral (F := Ideal) dot_S100000x932_S932x32_S100000x32_1_0_0_1_n_n none a b (ix2 r s)
      = ∑ k : Fin 932, a (ix2 r k) * b (ix2 k s) := by
  simp only [Host.dotGeneral]
  rw [Ideal.dotGeneral_apply, ← Equiv.sum_comp (ValueIdx.contrEquiv1 dot_S100000x932_S932x32_S100000x32_1_0_0_1_n_n 932 rfl rfl).symm]
  refine Finset.sum_congr rfl fun k _ => ?_
  have hk := ValueIdx.contrEquiv1_symm_val dot_S100000x932_S932x32_S100000x32_1_0_0_1_n_n 932 rfl rfl k
  have el : dot_S100000x932_S932x32_S100000x32_1_0_0_1_n_n.lhsIdx (ix2 r s) ((ValueIdx.contrEquiv1 dot_S100000x932_S932x32_S100000x32_1_0_0_1_n_n 932 rfl rfl).symm k) = ix2 r k := funext fun d => Fin.ext (by
    match d with
    | ⟨0, _⟩ => exact lhs_row _ _
    | ⟨1, _⟩ => exact (lhs_col _ _).trans hk)
  have er : dot_S100000x932_S932x32_S100000x32_1_0_0_1_n_n.rhsIdx (ix2 r s) ((ValueIdx.contrEquiv1 dot_S100000x932_S932x32_S100000x32_1_0_0_1_n_n 932 rfl rfl).symm k) = ix2 k s := funext fun d => Fin.ext (by
    match d with
    | ⟨0, _⟩ => exact (rhs_row _ _).trans hk
    | ⟨1, _⟩ => exact rhs_col _ _)
  rw [el, er]

end RefProductOne

/-- The product region's result array, for ANY contents the region is entered from, is the reference's product of the
    same two matrices. -/
theorem stepD1 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (X : Valuation Cert.ReferenceIdeal.τ Cert.ReferenceIdeal.sig (Elt Ideal))
    (hx : V c Cert.KernelIdeal.main_arg0 = X (Proc.devRef .tc Cert.ReferenceIdeal.main_arg0))
    (hw : V c Cert.KernelIdeal.main_arg2 = X (Proc.devRef .tc Cert.ReferenceIdeal.main_arg2)) :
    (Cert.KernelIdeal.Gen.dat0 (F := Ideal) V c).arrAt 2 Cert.KernelIdeal.cfg0.N
      = after Cert.ReferenceIdeal.RV.rD1 X (Proc.devRef .tc Cert.ReferenceIdeal.main_v31) := by
  rw [ProductOne.array_eq V c, hx, hw]
  have hr : after Cert.ReferenceIdeal.RV.rD1 X (Proc.devRef .tc Cert.ReferenceIdeal.main_v31)
      = Host.dotGeneral (F := Ideal) (φ₁ := .f32) (φ₂ := .f32) Cert.ReferenceIdeal.dot_S100000x932_S932x32_S100000x32_1_0_0_1_n_n none
          (X (Proc.devRef .tc Cert.ReferenceIdeal.main_arg0)) (X (Proc.devRef .tc Cert.ReferenceIdeal.main_arg2)) := by
    after_results
  rw [hr]
  funext i
  obtain ⟨r, s, rfl⟩ : ∃ (r : Fin 100000) (s : Fin 32), i = ValueIdx.ix2 r s := ⟨i 0, i 1, ValueIdx.eq_ix2 i⟩
  exact (RefProductOne.whole_apply _ _ r s).symm

end Cert.Sim

end
-- ==== Proof.StepD2.lean ====
/-
  The second layer's dense product (100000×32 by 32×32). The kernel computes it in row tiles of 2000: at grid point t the body
  multiplies rows 2000·t … 2000·t+1999 of the left matrix by the whole right matrix into a zero accumulator (the casts to
  bfloat16 on the way in are the identity on the extended reals) and writes the tile back; the fifty tiles cover the
  result. Entry (r, j) of the result array is therefore the sum over k of left (r, k) · right (k, j), which is what the
  reference's one dot_general of the whole matrices gives.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

namespace ProductTwo

open Cert.KernelIdeal Cert.KernelIdeal.Gen Idealize.ShloMosaic.ValueIdx

/-- A block stored at offset zero in every axis. -/
theorem zeroOffsets : (![0, 0] : Fin 2 → Nat) = fun _ => 0 := funext fun a => by fin_cases a <;> rfl

/-! ## The tile's product at an entry -/

/-- The left operand's row coordinate is the output's row. -/
theorem lhs_row (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl

/-- The left operand's column coordinate is the contraction position. -/
theorem lhs_col (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q

/-- The right operand's row coordinate is the contraction position. -/
theorem rhs_row (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q

/-- The right operand's column coordinate is the output's column. -/
theorem rhs_col (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- Entry (p, q) of the tile the body stores: row p of the left block (recast to its own shape, which changes nothing)
    times column q of the right block. -/
theorem tile_apply (x0 : Vec Ideal S2000x32 .f32) (x1 : Vec Ideal S32x32 .f32) (p : Fin 2000) (q : Fin 32) :
    k2_pay1 (F := Ideal) x0 x1 (ix2 p q) = ∑ k : Fin 32, x0 (ix2 p k) * x1 (ix2 k q) := by
  unfold k2_pay1
  refine (Ideal.matmul_constant_zero_apply dot_S2000x32_S32x32_S2000x32_1_0_0_1_n_n none _ _ (ix2 p q)).trans ?_
  rw [← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx (ix2 p q) ((ValueIdx.contrEquiv1 dot_S2000x32_S32x32_S2000x32_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x32_S2000x32_1_0_0_1_n_n.rhsIdx (ix2 p q) ((ValueIdx.contrEquiv1 dot_S2000x32_S32x32_S2000x32_1_0_0_1_n_n 32 rfl rfl).symm k) = ix2 k q := funext fun a => Fin.ext (by
    match a with
    | ⟨0, _⟩ => exact (rhs_row _ _).trans hk
    | ⟨1, _⟩ => exact rhs_col _ _)
  show (shapeCast S2000x32 x0 shapeCasts_S2000x32_S2000x32) _ * x1 _ = _
  rw [shapeCast_self, el, er]

/-! ## From the tiles to the array -/

/-- The product of the whole matrices, entry by entry. -/
abbrev product (a : Vec Ideal S100000x32 .f32) (b : Vec Ideal S32x32 .f32) : Vec Ideal S100000x32 .f32 :=
  fun i => ∑ k : Fin 32, a (ix2 (i 0) k) * b (ix2 k (i 1))

/-- The printed index maps over the fifty grid points: the left window and the output move down one tile per point, the
    right window stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- If the left block is rows 2000·n … 2000·n+1999 of `a` and the right block is `b`, the tile the body stores is rows
    2000·n … 2000·n+1999 of the product. -/
theorem tile_of_blocks (a : Vec Ideal S100000x32 .f32) (b : Vec Ideal S32x32 .f32)
    (x0 : Vec Ideal S2000x32 .f32) (x1 : Vec Ideal S32x32 .f32) (n : ℕ)
    (h0 : ∀ (y : S2000x32.Idx) (i : S100000x32.Idx), (i 0).val = n * 2000 + (y 0).val → (i 1).val = (y 1).val → x0 y = a i)
    (h1 : ∀ (y : S32x32.Idx), x1 y = b y)
    (y : S2000x32.Idx) (i : S100000x32.Idx) (hi0 : (i 0).val = n * 2000 + (y 0).val) (hi1 : (i 1).val = (y 1).val) :
    k2_pay1 (F := Ideal) x0 x1 y = product a b i := by
  obtain ⟨p, q, rfl⟩ : ∃ (p : Fin 2000) (q : Fin 32), y = ix2 p q := ⟨y 0, y 1, eq_ix2 y⟩
  obtain ⟨r, s, rfl⟩ : ∃ (r : Fin 100000) (s : Fin 32), i = ix2 r s := ⟨i 0, i 1, eq_ix2 i⟩
  have hr : r.val = n * 2000 + p.val := hi0
  obtain rfl : s = q := Fin.ext hi1
  rw [tile_apply]
  show _ = ∑ k : Fin 32, a (ix2 r k) * b (ix2 k s)
  refine Finset.sum_congr rfl fun k _ => ?_
  rw [h0 (ix2 p k) (ix2 r k) hr rfl, h1]

variable (V : (c : Dev nD) → (b : Ref sig .tc) → Buf (Elt Ideal) ((c : Thread nD τ).loc b))

/-- The left window's block at point `t` is rows 2000·t … 2000·t+1999 of the left matrix. -/
theorem left_block (c : Dev nD) (t : Fin cfg2.N) (y : S2000x32.Idx) (i : S100000x32.Idx)
    (h0 : (i 0).val = t.val * 2000 + (y 0).val) (h1 : (i 1).val = (y 1).val) :
    (iblk2 V c 0 t : Vec Ideal S2000x32 .f32) y = (V c main_v40 : Vec Ideal S100000x32 .f32) i := by
  obtain ⟨e0, e1, -, -, -, -⟩ := index_facts t
  unfold iblk2
  rw [View.read_apply]
  show (V c main_v40 : Vec Ideal S100000x32 .f32) _ = _
  congr 1
  funext d
  apply Fin.ext
  match d with
  | ⟨0, _⟩ => show win2_0.index t (0 : Fin 2) * 2000 + 1 * (y 0).val = (i 0).val; omega
  | ⟨1, _⟩ => show win2_0.index t (1 : Fin 2) * 32 + 1 * (y 1).val = (i 1).val; omega

/-- The right window's block at every point is the whole right matrix. -/
theorem right_block (c : Dev nD) (t : Fin cfg2.N) (y : S32x32.Idx) :
    (iblk2 V c 1 t : Vec Ideal S32x32 .f32) y = (V c main_arg4 : Vec Ideal S32x32 .f32) y := by
  obtain ⟨-, -, e2, e3, -, -⟩ := index_facts t
  unfold iblk2
  rw [View.read_apply]
  show (V c main_arg4 : Vec Ideal S32x32 .f32) _ = _
  congr 1
  funext d
  apply Fin.ext
  have h0 : (y 0).val < 32 := (y 0).isLt
  have h1 : (y 1).val < 32 := (y 1).isLt
  match d with
  | ⟨0, _⟩ => show win2_1.index t (0 : Fin 2) * 32 + 1 * (y 0).val = (y 0).val; omega
  | ⟨1, _⟩ => show win2_1.index t (1 : Fin 2) * 32 + 1 * (y 1).val = (y 1).val; omega

/-- What point `t` writes back is block `t` of the product of the two matrices as the region finds them. -/
theorem flushed_eq (c : Dev nD) (t : Fin cfg2.N) :
    (dat2 (F := Ideal) V c).flushed 2 t
      = ((cfg2.win 2).blk t).view.read (Elt Ideal) (product (V c main_v40) (V c main_arg4)) := by
  show (cfg2.win 2).cut (grid2.coords t) ((dat2 V c).after 2 t) = _
  rw [after2_2]
  unfold out2_2
  rw [View.canon_unit_zero zeroOffsets]
  simp only [View.ld_unit_zero (S := S2000x32) zeroOffsets, View.ld_unit_zero (S := S32x32) zeroOffsets]
  obtain ⟨-, -, -, -, e4, e5⟩ := index_facts t
  funext j
  show k2_pay1 (F := Ideal) (iblk2 V c 0 t) (iblk2 V c 1 t) j = product (V c main_v40) (V c main_arg4) (((cfg2.win 2).blk t).view.emb j)
  refine tile_of_blocks (V c main_v40) (V c main_arg4) (iblk2 V c 0 t) (iblk2 V c 1 t) t.val
    (left_block V c t) (right_block V c t) j (((cfg2.win 2).blk t).view.emb j) ?_ ?_
  · show win2_2.index t (0 : Fin 2) * 2000 + 1 * (j 0).val = t.val * 2000 + (j 0).val
    omega
  · show win2_2.index t (1 : Fin 2) * 32 + 1 * (j 1).val = (j 1).val
    omega

/-- An index of the result array lies in point `t`'s block iff each coordinate lies in the block's range on its axis. -/
theorem mem_blk (t : Fin cfg2.N) (i : S100000x32.Idx) :
    i ∈ ((cfg2.win 2).blk t).view.set ↔ ∀ a : Fin 2, win2_2.index t a * S2000x32.size a ≤ (i a).val ∧ (i a).val < win2_2.index t a * S2000x32.size a + S2000x32.size a := by
  show i ∈ ((View.whole main_v41).slice (win2_2.rect t)).set ↔ _
  rw [View.set_slice_whole, Rect.mem_set_unit]
  exact Iff.rfl

/-- Row r of the result lies in tile r / 2000: the fifty tiles cover the array. -/
theorem tiles_cover (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 50 := N_2
  have ht : (i 0).val / 2000 < cfg2.N := by rw [hN]; omega
  obtain ⟨-, -, -, -, e4, e5⟩ := index_facts ⟨(i 0).val / 2000, ht⟩
  refine ⟨⟨(i 0).val / 2000, ht⟩, flush2_2 _, ?_⟩
  rw [mem_blk]
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, ht⟩ (1 : Fin 2) * 32 ≤ (i 1).val ∧ (i 1).val < win2_2.index ⟨(i 0).val / 2000, ht⟩ (1 : Fin 2) * 32 + 32
    omega

/-- The result array after the fifty points is the product of the two matrices as the region finds them. -/
theorem array_eq (c : Dev nD) :
    (dat2 (F := Ideal) V c).arrAt 2 cfg2.N = product (V c main_v40) (V c main_arg4) :=
  (dat2 V c).arrAt_eq_of_cover 2 (product (V c main_v40) (V c main_arg4)) (fun t _ => flushed_eq V c t) tiles_cover

end ProductTwo

namespace RefProductTwo

open Cert.ReferenceIdeal Idealize.ShloMosaic.ValueIdx

/-! ## The reference's product at an entry -/

/-- The left operand's row coordinate is the output's row. -/
theorem lhs_row (i : S100000x32.Idx) (q : dot_S100000x32_S32x32_S100000x32_1_0_0_1_n_n.contr.Idx) :
    (dot_S100000x32_S32x32_S100000x32_1_0_0_1_n_n.lhsIdx i q 0).val = (i 0).val := by
  unfold DotDims.lhsIdx
  rw [dif_neg (show ¬(0 : Fin S100000x32.rank) ∈ dot_S100000x32_S32x32_S100000x32_1_0_0_1_n_n.lhsBatch by decide), dif_pos (show (0 : Fin S100000x32.rank) ∈ dot_S100000x32_S32x32_S100000x32_1_0_0_1_n_n.lhsNonContracting by decide)]
  rfl

/-- The left operand's column coordinate is the contraction position. -/
theorem lhs_col (i : S100000x32.Idx) (q : dot_S100000x32_S32x32_S100000x32_1_0_0_1_n_n.contr.Idx) :
    (dot_S100000x32_S32x32_S100000x32_1_0_0_1_n_n.lhsIdx i q 1).val = (q ⟨0, by decide⟩).val :=
  dot_S100000x32_S32x32_S100000x32_1_0_0_1_n_n.lhsIdx_val_of_single rfl i q

/-- The right operand's row coordinate is the contraction position. -/
theorem rhs_row (i : S100000x32.Idx) (q : dot_S100000x32_S32x32_S100000x32_1_0_0_1_n_n.contr.Idx) :
    (dot_S100000x32_S32x32_S100000x32_1_0_0_1_n_n.rhsIdx i q 0).val = (q ⟨0, by decide⟩).val :=
  dot_S100000x32_S32x32_S100000x32_1_0_0_1_n_n.rhsIdx_val_of_single rfl i q

/-- The right operand's column coordinate is the output's column. -/
theorem rhs_col (i : S100000x32.Idx) (q : dot_S100000x32_S32x32_S100000x32_1_0_0_1_n_n.contr.Idx) :
    (dot_S100000x32_S32x32_S100000x32_1_0_0_1_n_n.rhsIdx i q 1).val = (i 1).val := by
  unfold DotDims.rhsIdx
  rw [dif_neg (show ¬(1 : Fin S32x32.rank) ∈ dot_S100000x32_S32x32_S100000x32_1_0_0_1_n_n.rhsBatch by decide), dif_pos (show (1 : Fin S32x32.rank) ∈ dot_S100000x32_S32x32_S100000x32_1_0_0_1_n_n.rhsNonContracting by decide)]
  rfl

/-- Entry (r, s) of the reference's product of the whole matrices: row r of the left times column s of the right. -/
theorem whole_apply (a : FVec Ideal S100000x32 .f32) (b : FVec Ideal S32x32 .f32) (r : Fin 100000) (s : Fin 32) :
    Host.dotGeneral (F := Ideal) dot_S100000x32_S32x32_S100000x32_1_0_0_1_n_n none a b (ix2 r s)
      = ∑ k : Fin 32, a (ix2 r k) * b (ix2 k s) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx (ix2 r s) ((ValueIdx.contrEquiv1 dot_S100000x32_S32x32_S100000x32_1_0_0_1_n_n 32 rfl rfl).symm k) = ix2 r k := funext fun d => Fin.ext (by
    match d with
    | ⟨0, _⟩ => exact lhs_row _ _
    | ⟨1, _⟩ => exact (lhs_col _ _).trans hk)
  have er : dot_S100000x32_S32x32_S100000x32_1_0_0_1_n_n.rhsIdx (ix2 r s) ((ValueIdx.contrEquiv1 dot_S100000x32_S32x32_S100000x32_1_0_0_1_n_n 32 rfl rfl).symm k) = ix2 k s := funext fun d => Fin.ext (by
    match d with
    | ⟨0, _⟩ => exact (rhs_row _ _).trans hk
    | ⟨1, _⟩ => exact rhs_col _ _)
  rw [el, er]

end RefProductTwo

/-- The product region's result array, for ANY contents the region is entered from, is the reference's product of the
    same two matrices. -/
theorem stepD2 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (X : Valuation Cert.ReferenceIdeal.τ Cert.ReferenceIdeal.sig (Elt Ideal))
    (hx : V c Cert.KernelIdeal.main_v40 = X (Proc.devRef .tc Cert.ReferenceIdeal.main_v48))
    (hw : V c Cert.KernelIdeal.main_arg4 = X (Proc.devRef .tc Cert.ReferenceIdeal.main_arg4)) :
    (Cert.KernelIdeal.Gen.dat2 (F := Ideal) V c).arrAt 2 Cert.KernelIdeal.cfg2.N
      = after Cert.ReferenceIdeal.RV.rD2 X (Proc.devRef .tc Cert.ReferenceIdeal.main_v49) := by
  rw [ProductTwo.array_eq V c, hx, hw]
  have hr : after Cert.ReferenceIdeal.RV.rD2 X (Proc.devRef .tc Cert.ReferenceIdeal.main_v49)
      = Host.dotGeneral (F := Ideal) (φ₁ := .f32) (φ₂ := .f32) Cert.ReferenceIdeal.dot_S100000x32_S32x32_S100000x32_1_0_0_1_n_n none
          (X (Proc.devRef .tc Cert.ReferenceIdeal.main_v48)) (X (Proc.devRef .tc Cert.ReferenceIdeal.main_arg4)) := by
    after_results
  rw [hr]
  funext i
  obtain ⟨r, s, rfl⟩ : ∃ (r : Fin 100000) (s : Fin 32), i = ValueIdx.ix2 r s := ⟨i 0, i 1, ValueIdx.eq_ix2 i⟩
  exact (RefProductTwo.whole_apply _ _ r s).symm

end Cert.Sim

end
-- ==== Proof.StepD3.lean ====
/-
  The third layer's dense product (100000×32 by 32×16). The kernel computes it in row tiles of 2000: at grid point t the body
  multiplies rows 2000·t … 2000·t+1999 of the left matrix by the whole right matrix into a zero accumulator (the casts to
  bfloat16 on the way in are the identity on the extended reals) and writes the tile back; the fifty tiles cover the
  result. Entry (r, j) of the result array is therefore the sum over k of left (r, k) · right (k, j), which is what the
  reference's one dot_general of the whole matrices gives.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

namespace ProductThree

open Cert.KernelIdeal Cert.KernelIdeal.Gen Idealize.ShloMosaic.ValueIdx

/-- A block stored at offset zero in every axis. -/
theorem zeroOffsets : (![0, 0] : Fin 2 → Nat) = fun _ => 0 := funext fun a => by fin_cases a <;> rfl

/-! ## The tile's product at an entry -/

/-- The left operand's row coordinate is the output's row. -/
theorem lhs_row (i : S2000x16.Idx) (q : dot_S2000x32_S32x16_S2000x16_1_0_0_1_n_n.contr.Idx) :
    (dot_S2000x32_S32x16_S2000x16_1_0_0_1_n_n.lhsIdx i q 0).val = (i 0).val := by
  unfold DotDims.lhsIdx
  rw [dif_neg (show ¬(0 : Fin S2000x32.rank) ∈ dot_S2000x32_S32x16_S2000x16_1_0_0_1_n_n.lhsBatch by decide), dif_pos (show (0 : Fin S2000x32.rank) ∈ dot_S2000x32_S32x16_S2000x16_1_0_0_1_n_n.lhsNonContracting by decide)]
  rfl

/-- The left operand's column coordinate is the contraction position. -/
theorem lhs_col (i : S2000x16.Idx) (q : dot_S2000x32_S32x16_S2000x16_1_0_0_1_n_n.contr.Idx) :
    (dot_S2000x32_S32x16_S2000x16_1_0_0_1_n_n.lhsIdx i q 1).val = (q ⟨0, by decide⟩).val :=
  dot_S2000x32_S32x16_S2000x16_1_0_0_1_n_n.lhsIdx_val_of_single rfl i q

/-- The right operand's row coordinate is the contraction position. -/
theorem rhs_row (i : S2000x16.Idx) (q : dot_S2000x32_S32x16_S2000x16_1_0_0_1_n_n.contr.Idx) :
    (dot_S2000x32_S32x16_S2000x16_1_0_0_1_n_n.rhsIdx i q 0).val = (q ⟨0, by decide⟩).val :=
  dot_S2000x32_S32x16_S2000x16_1_0_0_1_n_n.rhsIdx_val_of_single rfl i q

/-- The right operand's column coordinate is the output's column. -/
theorem rhs_col (i : S2000x16.Idx) (q : dot_S2000x32_S32x16_S2000x16_1_0_0_1_n_n.contr.Idx) :
    (dot_S2000x32_S32x16_S2000x16_1_0_0_1_n_n.rhsIdx i q 1).val = (i 1).val := by
  unfold DotDims.rhsIdx
  rw [dif_neg (show ¬(1 : Fin S32x16.rank) ∈ dot_S2000x32_S32x16_S2000x16_1_0_0_1_n_n.rhsBatch by decide), dif_pos (show (1 : Fin S32x16.rank) ∈ dot_S2000x32_S32x16_S2000x16_1_0_0_1_n_n.rhsNonContracting by decide)]
  rfl

/-- Entry (p, q) of the tile the body stores: row p of the left block (recast to its own shape, which changes nothing)
    times column q of the right block. -/
theorem tile_apply (x0 : Vec Ideal S2000x32 .f32) (x1 : Vec Ideal S32x16 .f32) (p : Fin 2000) (q : Fin 16) :
    k4_pay1 (F := Ideal) x0 x1 (ix2 p q) = ∑ k : Fin 32, x0 (ix2 p k) * x1 (ix2 k q) := by
  unfold k4_pay1
  refine (Ideal.matmul_constant_zero_apply dot_S2000x32_S32x16_S2000x16_1_0_0_1_n_n none _ _ (ix2 p q)).trans ?_
  rw [← Equiv.sum_comp (ValueIdx.contrEquiv1 dot_S2000x32_S32x16_S2000x16_1_0_0_1_n_n 32 rfl rfl).symm]
  refine Finset.sum_congr rfl fun k _ => ?_
  have hk := ValueIdx.contrEquiv1_symm_val dot_S2000x32_S32x16_S2000x16_1_0_0_1_n_n 32 rfl rfl k
  have el : dot_S2000x32_S32x16_S2000x16_1_0_0_1_n_n.lhsIdx (ix2 p q) ((ValueIdx.contrEquiv1 dot_S2000x32_S32x16_S2000x16_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x16_S2000x16_1_0_0_1_n_n.rhsIdx (ix2 p q) ((ValueIdx.contrEquiv1 dot_S2000x32_S32x16_S2000x16_1_0_0_1_n_n 32 rfl rfl).symm k) = ix2 k q := funext fun a => Fin.ext (by
    match a with
    | ⟨0, _⟩ => exact (rhs_row _ _).trans hk
    | ⟨1, _⟩ => exact rhs_col _ _)
  show (shapeCast S2000x32 x0 shapeCasts_S2000x32_S2000x32) _ * x1 _ = _
  rw [shapeCast_self, el, er]

/-! ## From the tiles to the array -/

/-- The product of the whole matrices, entry by entry. -/
abbrev product (a : Vec Ideal S100000x32 .f32) (b : Vec Ideal S32x16 .f32) : Vec Ideal S100000x16 .f32 :=
  fun i => ∑ k : Fin 32, a (ix2 (i 0) k) * b (ix2 k (i 1))

/-- The printed index maps over the fifty grid points: the left window and the output move down one tile per point, the
    right window stays. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- If the left block is rows 2000·n … 2000·n+1999 of `a` and the right block is `b`, the tile the body stores is rows
    2000·n … 2000·n+1999 of the product. -/
theorem tile_of_blocks (a : Vec Ideal S100000x32 .f32) (b : Vec Ideal S32x16 .f32)
    (x0 : Vec Ideal S2000x32 .f32) (x1 : Vec Ideal S32x16 .f32) (n : ℕ)
    (h0 : ∀ (y : S2000x32.Idx) (i : S100000x32.Idx), (i 0).val = n * 2000 + (y 0).val → (i 1).val = (y 1).val → x0 y = a i)
    (h1 : ∀ (y : S32x16.Idx), x1 y = b y)
    (y : S2000x16.Idx) (i : S100000x16.Idx) (hi0 : (i 0).val = n * 2000 + (y 0).val) (hi1 : (i 1).val = (y 1).val) :
    k4_pay1 (F := Ideal) x0 x1 y = product a b i := by
  obtain ⟨p, q, rfl⟩ : ∃ (p : Fin 2000) (q : Fin 16), y = ix2 p q := ⟨y 0, y 1, eq_ix2 y⟩
  obtain ⟨r, s, rfl⟩ : ∃ (r : Fin 100000) (s : Fin 16), i = ix2 r s := ⟨i 0, i 1, eq_ix2 i⟩
  have hr : r.val = n * 2000 + p.val := hi0
  obtain rfl : s = q := Fin.ext hi1
  rw [tile_apply]
  show _ = ∑ k : Fin 32, a (ix2 r k) * b (ix2 k s)
  refine Finset.sum_congr rfl fun k _ => ?_
  rw [h0 (ix2 p k) (ix2 r k) hr rfl, h1]

variable (V : (c : Dev nD) → (b : Ref sig .tc) → Buf (Elt Ideal) ((c : Thread nD τ).loc b))

/-- The left window's block at point `t` is rows 2000·t … 2000·t+1999 of the left matrix. -/
theorem left_block (c : Dev nD) (t : Fin cfg4.N) (y : S2000x32.Idx) (i : S100000x32.Idx)
    (h0 : (i 0).val = t.val * 2000 + (y 0).val) (h1 : (i 1).val = (y 1).val) :
    (iblk4 V c 0 t : Vec Ideal S2000x32 .f32) y = (V c main_v50 : Vec Ideal S100000x32 .f32) i := by
  obtain ⟨e0, e1, -, -, -, -⟩ := index_facts t
  unfold iblk4
  rw [View.read_apply]
  show (V c main_v50 : Vec Ideal S100000x32 .f32) _ = _
  congr 1
  funext d
  apply Fin.ext
  match d with
  | ⟨0, _⟩ => show win4_0.index t (0 : Fin 2) * 2000 + 1 * (y 0).val = (i 0).val; omega
  | ⟨1, _⟩ => show win4_0.index t (1 : Fin 2) * 32 + 1 * (y 1).val = (i 1).val; omega

/-- The right window's block at every point is the whole right matrix. -/
theorem right_block (c : Dev nD) (t : Fin cfg4.N) (y : S32x16.Idx) :
    (iblk4 V c 1 t : Vec Ideal S32x16 .f32) y = (V c main_arg6 : Vec Ideal S32x16 .f32) y := by
  obtain ⟨-, -, e2, e3, -, -⟩ := index_facts t
  unfold iblk4
  rw [View.read_apply]
  show (V c main_arg6 : Vec Ideal S32x16 .f32) _ = _
  congr 1
  funext d
  apply Fin.ext
  have h0 : (y 0).val < 32 := (y 0).isLt
  have h1 : (y 1).val < 16 := (y 1).isLt
  match d with
  | ⟨0, _⟩ => show win4_1.index t (0 : Fin 2) * 32 + 1 * (y 0).val = (y 0).val; omega
  | ⟨1, _⟩ => show win4_1.index t (1 : Fin 2) * 16 + 1 * (y 1).val = (y 1).val; omega

/-- What point `t` writes back is block `t` of the product of the two matrices as the region finds them. -/
theorem flushed_eq (c : Dev nD) (t : Fin cfg4.N) :
    (dat4 (F := Ideal) V c).flushed 2 t
      = ((cfg4.win 2).blk t).view.read (Elt Ideal) (product (V c main_v50) (V c main_arg6)) := by
  show (cfg4.win 2).cut (grid4.coords t) ((dat4 V c).after 2 t) = _
  rw [after4_2]
  unfold out4_2
  rw [View.canon_unit_zero zeroOffsets]
  simp only [View.ld_unit_zero (S := S2000x32) zeroOffsets, View.ld_unit_zero (S := S32x16) zeroOffsets]
  obtain ⟨-, -, -, -, e4, e5⟩ := index_facts t
  funext j
  show k4_pay1 (F := Ideal) (iblk4 V c 0 t) (iblk4 V c 1 t) j = product (V c main_v50) (V c main_arg6) (((cfg4.win 2).blk t).view.emb j)
  refine tile_of_blocks (V c main_v50) (V c main_arg6) (iblk4 V c 0 t) (iblk4 V c 1 t) t.val
    (left_block V c t) (right_block V c t) j (((cfg4.win 2).blk t).view.emb j) ?_ ?_
  · show win4_2.index t (0 : Fin 2) * 2000 + 1 * (j 0).val = t.val * 2000 + (j 0).val
    omega
  · show win4_2.index t (1 : Fin 2) * 16 + 1 * (j 1).val = (j 1).val
    omega

/-- An index of the result array lies in point `t`'s block iff each coordinate lies in the block's range on its axis. -/
theorem mem_blk (t : Fin cfg4.N) (i : S100000x16.Idx) :
    i ∈ ((cfg4.win 2).blk t).view.set ↔ ∀ a : Fin 2, win4_2.index t a * S2000x16.size a ≤ (i a).val ∧ (i a).val < win4_2.index t a * S2000x16.size a + S2000x16.size a := by
  show i ∈ ((View.whole main_v51).slice (win4_2.rect t)).set ↔ _
  rw [View.set_slice_whole, Rect.mem_set_unit]
  exact Iff.rfl

/-- Row r of the result lies in tile r / 2000: the fifty tiles cover the array. -/
theorem tiles_cover (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 50 := N_4
  have ht : (i 0).val / 2000 < cfg4.N := by rw [hN]; omega
  obtain ⟨-, -, -, -, e4, e5⟩ := index_facts ⟨(i 0).val / 2000, ht⟩
  refine ⟨⟨(i 0).val / 2000, ht⟩, flush4_2 _, ?_⟩
  rw [mem_blk]
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win4_2.index ⟨(i 0).val / 2000, ht⟩ (1 : Fin 2) * 16 ≤ (i 1).val ∧ (i 1).val < win4_2.index ⟨(i 0).val / 2000, ht⟩ (1 : Fin 2) * 16 + 16
    omega

/-- The result array after the fifty points is the product of the two matrices as the region finds them. -/
theorem array_eq (c : Dev nD) :
    (dat4 (F := Ideal) V c).arrAt 2 cfg4.N = product (V c main_v50) (V c main_arg6) :=
  (dat4 V c).arrAt_eq_of_cover 2 (product (V c main_v50) (V c main_arg6)) (fun t _ => flushed_eq V c t) tiles_cover

end ProductThree

namespace RefProductThree

open Cert.ReferenceIdeal Idealize.ShloMosaic.ValueIdx

/-! ## The reference's product at an entry -/

/-- The left operand's row coordinate is the output's row. -/
theorem lhs_row (i : S100000x16.Idx) (q : dot_S100000x32_S32x16_S100000x16_1_0_0_1_n_n.contr.Idx) :
    (dot_S100000x32_S32x16_S100000x16_1_0_0_1_n_n.lhsIdx i q 0).val = (i 0).val := by
  unfold DotDims.lhsIdx
  rw [dif_neg (show ¬(0 : Fin S100000x32.rank) ∈ dot_S100000x32_S32x16_S100000x16_1_0_0_1_n_n.lhsBatch by decide), dif_pos (show (0 : Fin S100000x32.rank) ∈ dot_S100000x32_S32x16_S100000x16_1_0_0_1_n_n.lhsNonContracting by decide)]
  rfl

/-- The left operand's column coordinate is the contraction position. -/
theorem lhs_col (i : S100000x16.Idx) (q : dot_S100000x32_S32x16_S100000x16_1_0_0_1_n_n.contr.Idx) :
    (dot_S100000x32_S32x16_S100000x16_1_0_0_1_n_n.lhsIdx i q 1).val = (q ⟨0, by decide⟩).val :=
  dot_S100000x32_S32x16_S100000x16_1_0_0_1_n_n.lhsIdx_val_of_single rfl i q

/-- The right operand's row coordinate is the contraction position. -/
theorem rhs_row (i : S100000x16.Idx) (q : dot_S100000x32_S32x16_S100000x16_1_0_0_1_n_n.contr.Idx) :
    (dot_S100000x32_S32x16_S100000x16_1_0_0_1_n_n.rhsIdx i q 0).val = (q ⟨0, by decide⟩).val :=
  dot_S100000x32_S32x16_S100000x16_1_0_0_1_n_n.rhsIdx_val_of_single rfl i q

/-- The right operand's column coordinate is the output's column. -/
theorem rhs_col (i : S100000x16.Idx) (q : dot_S100000x32_S32x16_S100000x16_1_0_0_1_n_n.contr.Idx) :
    (dot_S100000x32_S32x16_S100000x16_1_0_0_1_n_n.rhsIdx i q 1).val = (i 1).val := by
  unfold DotDims.rhsIdx
  rw [dif_neg (show ¬(1 : Fin S32x16.rank) ∈ dot_S100000x32_S32x16_S100000x16_1_0_0_1_n_n.rhsBatch by decide), dif_pos (show (1 : Fin S32x16.rank) ∈ dot_S100000x32_S32x16_S100000x16_1_0_0_1_n_n.rhsNonContracting by decide)]
  rfl

/-- Entry (r, s) of the reference's product of the whole matrices: row r of the left times column s of the right. -/
theorem whole_apply (a : FVec Ideal S100000x32 .f32) (b : FVec Ideal S32x16 .f32) (r : Fin 100000) (s : Fin 16) :
    Host.dotGeneral (F := Ideal) dot_S100000x32_S32x16_S100000x16_1_0_0_1_n_n none a b (ix2 r s)
      = ∑ k : Fin 32, a (ix2 r k) * b (ix2 k s) := by
  simp only [Host.dotGeneral]
  rw [Ideal.dotGeneral_apply, ← Equiv.sum_comp (ValueIdx.contrEquiv1 dot_S100000x32_S32x16_S100000x16_1_0_0_1_n_n 32 rfl rfl).symm]
  refine Finset.sum_congr rfl fun k _ => ?_
  have hk := ValueIdx.contrEquiv1_symm_val dot_S100000x32_S32x16_S100000x16_1_0_0_1_n_n 32 rfl rfl k
  have el : dot_S100000x32_S32x16_S100000x16_1_0_0_1_n_n.lhsIdx (ix2 r s) ((ValueIdx.contrEquiv1 dot_S100000x32_S32x16_S100000x16_1_0_0_1_n_n 32 rfl rfl).symm k) = ix2 r k := funext fun d => Fin.ext (by
    match d with
    | ⟨0, _⟩ => exact lhs_row _ _
    | ⟨1, _⟩ => exact (lhs_col _ _).trans hk)
  have er : dot_S100000x32_S32x16_S100000x16_1_0_0_1_n_n.rhsIdx (ix2 r s) ((ValueIdx.contrEquiv1 dot_S100000x32_S32x16_S100000x16_1_0_0_1_n_n 32 rfl rfl).symm k) = ix2 k s := funext fun d => Fin.ext (by
    match d with
    | ⟨0, _⟩ => exact (rhs_row _ _).trans hk
    | ⟨1, _⟩ => exact rhs_col _ _)
  rw [el, er]

end RefProductThree

/-- The product region's result array, for ANY contents the region is entered from, is the reference's product of the
    same two matrices. -/
theorem stepD3 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (X : Valuation Cert.ReferenceIdeal.τ Cert.ReferenceIdeal.sig (Elt Ideal))
    (hx : V c Cert.KernelIdeal.main_v50 = X (Proc.devRef .tc Cert.ReferenceIdeal.main_v66))
    (hw : V c Cert.KernelIdeal.main_arg6 = X (Proc.devRef .tc Cert.ReferenceIdeal.main_arg6)) :
    (Cert.KernelIdeal.Gen.dat4 (F := Ideal) V c).arrAt 2 Cert.KernelIdeal.cfg4.N
      = after Cert.ReferenceIdeal.RV.rD3 X (Proc.devRef .tc Cert.ReferenceIdeal.main_v67) := by
  rw [ProductThree.array_eq V c, hx, hw]
  have hr : after Cert.ReferenceIdeal.RV.rD3 X (Proc.devRef .tc Cert.ReferenceIdeal.main_v67)
      = Host.dotGeneral (F := Ideal) (φ₁ := .f32) (φ₂ := .f32) Cert.ReferenceIdeal.dot_S100000x32_S32x16_S100000x16_1_0_0_1_n_n none
          (X (Proc.devRef .tc Cert.ReferenceIdeal.main_v66)) (X (Proc.devRef .tc Cert.ReferenceIdeal.main_arg6)) := by
    after_results
  rw [hr]
  funext i
  obtain ⟨r, s, rfl⟩ : ∃ (r : Fin 100000) (s : Fin 16), i = ValueIdx.ix2 r s := ⟨i 0, i 1, ValueIdx.eq_ix2 i⟩
  exact (RefProductThree.whole_apply _ _ r s).symm

end Cert.Sim

end
-- ==== Proof.StepG1.lean ====
/-
  The first layer's aggregation over the edges (3,200,000 edges and 100,000 self loops; 32 features). Both programs
  wrap a negative source index by adding 100000, read the source node's feature row, scale it by the edge's weight and add
  it into the destination node's row. They differ in one thing: the kernel's row read replaces a row whose wrapped index
  is outside 0 … 99999 by a filler value, the reference's reads the nearest row instead. When every source index s has
  -100000 ≤ s < 100000 the wrapped index is always inside 0 … 99999, the kernel's replacement never happens, and the two
  stretches are the same operations on the same values.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

/-! ### Words: the wrapped index is in range -/

/-- A decided proposition that holds, as a one-bit word, is 1. -/
theorem ofBool_decide_one_g1 {p : Prop} [Decidable p] (h : p) : BitVec.ofBool (decide p) = 1#1 := by
  rw [decide_eq_true h]; rfl

/-- A signed 32-bit word v with -100000 ≤ v < 100000, wrapped by adding 100000 when it is negative, lies in 0 … 99999:
    both comparisons that guard the row read come out 1. If v is negative, v + 100000 does not wrap around in 32 bits
    and lies in 0 … 99999; otherwise v itself does. -/
theorem wrap_ok_g1 (v : BitVec 32) (h1 : -100000 ≤ v.toInt) (h2 : v.toInt < 100000) :
    IntOp.andi
      (IntOp.cmpi .sge (Scalar.select (IntOp.cmpi .slt v 0#32) (IntOp.addi v 100000#32) v) 0#32)
      (IntOp.cmpi .sle (Scalar.select (IntOp.cmpi .slt v 0#32) (IntOp.addi v 100000#32) v) 99999#32) = 1#1 := by
  have h0 : (0#32 : BitVec 32).toInt = 0 := by decide
  have h9 : (99999#32 : BitVec 32).toInt = 99999 := by decide
  have hk : (100000#32 : BitVec 32).toInt = 100000 := by decide
  by_cases hneg : v.toInt < 0
  · have hc : IntOp.cmpi .slt v 0#32 = 1#1 :=
      ofBool_decide_one_g1 (p := v.toInt < (0#32 : BitVec 32).toInt) (by rw [h0]; exact hneg)
    have hw : (IntOp.addi v 100000#32).toInt = v.toInt + 100000 := by
      show (v + 100000#32).toInt = _
      rw [BitVec.toInt_add, hk]
      exact Int.bmod_eq_of_le_mul_two (by omega) (by omega)
    have ha : IntOp.cmpi .sge (IntOp.addi v 100000#32) 0#32 = 1#1 :=
      ofBool_decide_one_g1 (p := (0#32 : BitVec 32).toInt ≤ (IntOp.addi v 100000#32).toInt) (by rw [h0, hw]; omega)
    have hb : IntOp.cmpi .sle (IntOp.addi v 100000#32) 99999#32 = 1#1 :=
      ofBool_decide_one_g1 (p := (IntOp.addi v 100000#32).toInt ≤ (99999#32 : BitVec 32).toInt) (by rw [h9, hw]; omega)
    rw [hc]
    show IntOp.andi (IntOp.cmpi .sge (IntOp.addi v 100000#32) 0#32) (IntOp.cmpi .sle (IntOp.addi v 100000#32) 99999#32) = 1#1
    rw [ha, hb]; rfl
  · have hc : IntOp.cmpi .slt v 0#32 = 0#1 := by
      show BitVec.ofBool (decide (v.toInt < (0#32 : BitVec 32).toInt)) = 0#1
      rw [decide_eq_false (by rw [h0]; exact hneg)]; rfl
    have ha : IntOp.cmpi .sge v 0#32 = 1#1 :=
      ofBool_decide_one_g1 (p := (0#32 : BitVec 32).toInt ≤ v.toInt) (by rw [h0]; omega)
    have hb : IntOp.cmpi .sle v 99999#32 = 1#1 :=
      ofBool_decide_one_g1 (p := v.toInt ≤ (99999#32 : BitVec 32).toInt) (by rw [h9]; omega)
    rw [hc]
    show IntOp.andi (IntOp.cmpi .sge v 0#32) (IntOp.cmpi .sle v 99999#32) = 1#1
    rw [ha, hb]; rfl

/-! ### A reduction by `and` of ones, and the select it guards -/

/-- A left fold by `and` from 1 over words that are all 1 is 1. -/
theorem foldl_andi_one_g1 {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from rfl]
    exact foldl_andi_one_g1 f l fun n hn => h n (List.mem_cons_of_mem _ hn)

/-- A reduction by `and`, started from 1, of an array whose every element is 1 is 1 at every result index. -/
theorem reduce_andi_ones_g1 {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_one_g1 x _ fun n _ => hx n

/-- A select whose condition is the broadcast of such a reduction keeps its first branch everywhere. -/
theorem select_guard_eq_g1 {α : Type} {s t u T : Shape} {axes : List (Fin s.rank)} (x : s.Idx → BitVec 1) (hx : ∀ i, x i = 1#1)
    (h : s.ReducesTo axes t) (hu : 0 < u.numel) (dims : Fin t.rank → Fin T.rank) (hb : t.BroadcastsInDim T dims)
    (a b : T.Idx → α) :
    select (broadcastInDim T dims hb (Host.reduce IntOp.andi x (constantI u 1 1#1) h hu)) a b = a := by
  funext j
  show Scalar.select (Host.reduce IntOp.andi x (constantI u 1 1#1) h hu _) (a j) (b j) = a j
  rw [reduce_andi_ones_g1 x hx h hu]; rfl

/-! ### The kernel's guarded row read is the plain row read -/

section Pieces
open Cert.KernelIdeal Cert.KernelIdeal.Gen

/-- The source indices with the negative ones wrapped by adding 100000, as a column. -/
abbrev wrapCol_g1 (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The guard of the kernel's row read: the wrapped index is at least 0 and at most 99999. -/
abbrev inRange_g1 (s : IVec S3300000 32) : IVec S3300000x1 1 :=
  andi (cmpi .sge (wrapCol_g1 s) (broadcastInDim S3300000x1 ![] bcast_S_S3300000x1 (constantI S_ 32 0#32)))
    (cmpi .sle (wrapCol_g1 s) (broadcastInDim S3300000x1 ![0, 1] bcast_S1x1_S3300000x1_0_1
      (broadcastInDim S1x1 ![1] bcast_S1_S1x1_1 (constantI S1 32 99999#32))))

/-- With every source index in -100000 … 99999 the guard is 1 at every edge. -/
theorem inRange_one_g1 (s : IVec S3300000 32) (hr : ∀ i, -100000 ≤ (s i).toInt ∧ (s i).toInt < 100000)
    (i : S3300000x1.Idx) : inRange_g1 s i = 1#1 :=
  wrap_ok_g1 _ (hr _).1 (hr _).2

/-- With every source index in range the filler is never taken: the kernel's row read (the source node's row where the
    guard holds, the filler value elsewhere) is the plain row read. -/
theorem rowsK_eq_g1 (s : IVec S3300000 32) (H : FVec Ideal S100000x32 .f32)
    (hr : ∀ i, -100000 ≤ (s i).toInt ∧ (s i).toInt < 100000) :
    select (broadcastInDim S3300000x32 ![0] bcast_S3300000_S3300000x32_0
        (Host.reduce IntOp.andi (inRange_g1 s) (constantI S_ 1 1#1) reducesTo_S3300000x1_S3300000_d1 h_S_))
      (Host.gather gather_S100000x32_S3300000x1_S3300000x32_1_0_n_n_0_1_132 H (wrapCol_g1 s))
      (broadcastInDim S3300000x32 ![] bcast_S_S3300000x32 (constant S_ .f32 0x7FC00000#32))
    = Host.gather gather_S100000x32_S3300000x1_S3300000x32_1_0_n_n_0_1_132 H (wrapCol_g1 s) :=
  select_guard_eq_g1 _ (inRange_one_g1 s hr) _ _ _ _ _ _

end Pieces

/-! ### The typed references of the kernel's row read hold their values unchanged -/

/-- Reading back through a typed reference what was stored through it is the identity. -/
theorem ofBuf_toBuf_g1 {sig : RefSig} {Val : EltTy → Type} {T : BufTy} (x : TRef sig T) (v : T.Contents Val) :
    x.ofBuf (x.toBuf v) = v := by
  obtain ⟨r, h, h2, h3⟩ := x
  subst h
  rfl

/-- The source indices are read through their typed reference unchanged. -/
theorem ofBuf_src_g1 (p1 : Cert.KernelIdeal.main_v3.ty = ⟨Cert.KernelIdeal.S3300000, .i32⟩)
    (p2 : Cert.KernelIdeal.main_v3.space ≠ .host) (p3 : Cert.KernelIdeal.main_v3.isScoped = false)
    (v : Cert.KernelIdeal.main_v3.ty.Contents (Elt Ideal)) :
    (TRef.of Cert.KernelIdeal.main_v3 p1 p2 p3).ofBuf v = v := rfl

/-- The features are read through their typed reference unchanged. -/
theorem ofBuf_feat_g1 (p1 : Cert.KernelIdeal.main_v31.ty = ⟨Cert.KernelIdeal.S100000x32, .f32⟩)
    (p2 : Cert.KernelIdeal.main_v31.space ≠ .host) (p3 : Cert.KernelIdeal.main_v31.isScoped = false)
    (v : Cert.KernelIdeal.main_v31.ty.Contents (Elt Ideal)) :
    (TRef.of Cert.KernelIdeal.main_v31 p1 p2 p3).ofBuf v = v := rfl

/-- The rows read are stored through their typed reference unchanged. -/
theorem toBuf_rows_g1 (p1 : Cert.KernelIdeal.main_v32.ty = ⟨Cert.KernelIdeal.S3300000x32, .f32⟩)
    (p2 : Cert.KernelIdeal.main_v32.space ≠ .host) (p3 : Cert.KernelIdeal.main_v32.isScoped = false)
    (v : (⟨Cert.KernelIdeal.S3300000x32, .f32⟩ : BufTy).Contents (Elt Ideal)) :
    (TRef.of Cert.KernelIdeal.main_v32 p1 p2 p3).toBuf v = v := rfl

/-- With every source index in range, the kernel's gather / scale / scatter-add stretch leaves in its result what the
    reference's leaves, from contents that agree on the features, the two index lists and the edge weights. -/
theorem stepG1 (VK : Valuation Cert.KernelIdeal.τ Cert.KernelIdeal.sig (Elt Ideal)) (X : Valuation Cert.ReferenceIdeal.τ Cert.ReferenceIdeal.sig (Elt Ideal))
    (hH : VK (Proc.devRef .tc Cert.KernelIdeal.main_v31) = X (Proc.devRef .tc Cert.ReferenceIdeal.main_v31))
    (hs : VK (Proc.devRef .tc Cert.KernelIdeal.main_v3) = X (Proc.devRef .tc Cert.ReferenceIdeal.main_v3))
    (hd : VK (Proc.devRef .tc Cert.KernelIdeal.main_v7) = X (Proc.devRef .tc Cert.ReferenceIdeal.main_v7))
    (hn : VK (Proc.devRef .tc Cert.KernelIdeal.main_v30) = X (Proc.devRef .tc Cert.ReferenceIdeal.main_v30))
    (hr : ∀ i : Cert.KernelIdeal.S3300000.Idx,
      -100000 ≤ (VK (Proc.devRef .tc Cert.KernelIdeal.main_v3) i : BitVec 32).toInt ∧ (VK (Proc.devRef .tc Cert.KernelIdeal.main_v3) i : BitVec 32).toInt < 100000) :
    after Cert.KernelIdeal.Gen.hostOps1_1 (after Cert.KernelIdeal.Gen.hostOps1 VK) (Proc.devRef .tc Cert.KernelIdeal.main_v38)
      = after Cert.ReferenceIdeal.RV.rG1 X (Proc.devRef .tc Cert.ReferenceIdeal.main_v44) := by
  -- both stretches as the pure terms of their operations over the contents they start from
  after_results_simp
  -- the kernel's typed references hold their values unchanged
  simp only [ofBuf_toBuf_g1, ofBuf_src_g1, ofBuf_feat_g1, toBuf_rows_g1]
  -- the kernel's guarded row read is the plain one; then both sides are the same operations on the same values, the
  -- two programs' shapes and dimension records being the same data
  rw [rowsK_eq_g1 _ _ hr, hH, hs, hd, hn] <;> rfl

end Cert.Sim

end
-- ==== Proof.StepG2.lean ====
/-
  The second layer's aggregation over the edges (3,200,000 edges and 100,000 self loops; 32 features). Both programs
  wrap a negative source index by adding 100000, read the source node's feature row, scale it by the edge's weight and add
  it into the destination node's row. They differ in one thing: the kernel's row read replaces a row whose wrapped index
  is outside 0 … 99999 by a filler value, the reference's reads the nearest row instead. When every source index s has
  -100000 ≤ s < 100000 the wrapped index is always inside 0 … 99999, the kernel's replacement never happens, and the two
  stretches are the same operations on the same values.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

/-! ### Words: the wrapped index is in range -/

/-- A decided proposition that holds, as a one-bit word, is 1. -/
theorem ofBool_decide_one_g2 {p : Prop} [Decidable p] (h : p) : BitVec.ofBool (decide p) = 1#1 := by
  rw [decide_eq_true h]; rfl

/-- A signed 32-bit word v with -100000 ≤ v < 100000, wrapped by adding 100000 when it is negative, lies in 0 … 99999:
    both comparisons that guard the row read come out 1. If v is negative, v + 100000 does not wrap around in 32 bits
    and lies in 0 … 99999; otherwise v itself does. -/
theorem wrap_ok_g2 (v : BitVec 32) (h1 : -100000 ≤ v.toInt) (h2 : v.toInt < 100000) :
    IntOp.andi
      (IntOp.cmpi .sge (Scalar.select (IntOp.cmpi .slt v 0#32) (IntOp.addi v 100000#32) v) 0#32)
      (IntOp.cmpi .sle (Scalar.select (IntOp.cmpi .slt v 0#32) (IntOp.addi v 100000#32) v) 99999#32) = 1#1 := by
  have h0 : (0#32 : BitVec 32).toInt = 0 := by decide
  have h9 : (99999#32 : BitVec 32).toInt = 99999 := by decide
  have hk : (100000#32 : BitVec 32).toInt = 100000 := by decide
  by_cases hneg : v.toInt < 0
  · have hc : IntOp.cmpi .slt v 0#32 = 1#1 :=
      ofBool_decide_one_g2 (p := v.toInt < (0#32 : BitVec 32).toInt) (by rw [h0]; exact hneg)
    have hw : (IntOp.addi v 100000#32).toInt = v.toInt + 100000 := by
      show (v + 100000#32).toInt = _
      rw [BitVec.toInt_add, hk]
      exact Int.bmod_eq_of_le_mul_two (by omega) (by omega)
    have ha : IntOp.cmpi .sge (IntOp.addi v 100000#32) 0#32 = 1#1 :=
      ofBool_decide_one_g2 (p := (0#32 : BitVec 32).toInt ≤ (IntOp.addi v 100000#32).toInt) (by rw [h0, hw]; omega)
    have hb : IntOp.cmpi .sle (IntOp.addi v 100000#32) 99999#32 = 1#1 :=
      ofBool_decide_one_g2 (p := (IntOp.addi v 100000#32).toInt ≤ (99999#32 : BitVec 32).toInt) (by rw [h9, hw]; omega)
    rw [hc]
    show IntOp.andi (IntOp.cmpi .sge (IntOp.addi v 100000#32) 0#32) (IntOp.cmpi .sle (IntOp.addi v 100000#32) 99999#32) = 1#1
    rw [ha, hb]; rfl
  · have hc : IntOp.cmpi .slt v 0#32 = 0#1 := by
      show BitVec.ofBool (decide (v.toInt < (0#32 : BitVec 32).toInt)) = 0#1
      rw [decide_eq_false (by rw [h0]; exact hneg)]; rfl
    have ha : IntOp.cmpi .sge v 0#32 = 1#1 :=
      ofBool_decide_one_g2 (p := (0#32 : BitVec 32).toInt ≤ v.toInt) (by rw [h0]; omega)
    have hb : IntOp.cmpi .sle v 99999#32 = 1#1 :=
      ofBool_decide_one_g2 (p := v.toInt ≤ (99999#32 : BitVec 32).toInt) (by rw [h9]; omega)
    rw [hc]
    show IntOp.andi (IntOp.cmpi .sge v 0#32) (IntOp.cmpi .sle v 99999#32) = 1#1
    rw [ha, hb]; rfl

/-! ### A reduction by `and` of ones, and the select it guards -/

/-- A left fold by `and` from 1 over words that are all 1 is 1. -/
theorem foldl_andi_one_g2 {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from rfl]
    exact foldl_andi_one_g2 f l fun n hn => h n (List.mem_cons_of_mem _ hn)

/-- A reduction by `and`, started from 1, of an array whose every element is 1 is 1 at every result index. -/
theorem reduce_andi_ones_g2 {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_one_g2 x _ fun n _ => hx n

/-- A select whose condition is the broadcast of such a reduction keeps its first branch everywhere. -/
theorem select_guard_eq_g2 {α : Type} {s t u T : Shape} {axes : List (Fin s.rank)} (x : s.Idx → BitVec 1) (hx : ∀ i, x i = 1#1)
    (h : s.ReducesTo axes t) (hu : 0 < u.numel) (dims : Fin t.rank → Fin T.rank) (hb : t.BroadcastsInDim T dims)
    (a b : T.Idx → α) :
    select (broadcastInDim T dims hb (Host.reduce IntOp.andi x (constantI u 1 1#1) h hu)) a b = a := by
  funext j
  show Scalar.select (Host.reduce IntOp.andi x (constantI u 1 1#1) h hu _) (a j) (b j) = a j
  rw [reduce_andi_ones_g2 x hx h hu]; rfl

/-! ### The kernel's guarded row read is the plain row read -/

section Pieces
open Cert.KernelIdeal Cert.KernelIdeal.Gen

/-- The source indices with the negative ones wrapped by adding 100000, as a column. -/
abbrev wrapCol_g2 (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The guard of the kernel's row read: the wrapped index is at least 0 and at most 99999. -/
abbrev inRange_g2 (s : IVec S3300000 32) : IVec S3300000x1 1 :=
  andi (cmpi .sge (wrapCol_g2 s) (broadcastInDim S3300000x1 ![] bcast_S_S3300000x1 (constantI S_ 32 0#32)))
    (cmpi .sle (wrapCol_g2 s) (broadcastInDim S3300000x1 ![0, 1] bcast_S1x1_S3300000x1_0_1
      (broadcastInDim S1x1 ![1] bcast_S1_S1x1_1 (constantI S1 32 99999#32))))

/-- With every source index in -100000 … 99999 the guard is 1 at every edge. -/
theorem inRange_one_g2 (s : IVec S3300000 32) (hr : ∀ i, -100000 ≤ (s i).toInt ∧ (s i).toInt < 100000)
    (i : S3300000x1.Idx) : inRange_g2 s i = 1#1 :=
  wrap_ok_g2 _ (hr _).1 (hr _).2

/-- With every source index in range the filler is never taken: the kernel's row read (the source node's row where the
    guard holds, the filler value elsewhere) is the plain row read. -/
theorem rowsK_eq_g2 (s : IVec S3300000 32) (H : FVec Ideal S100000x32 .f32)
    (hr : ∀ i, -100000 ≤ (s i).toInt ∧ (s i).toInt < 100000) :
    select (broadcastInDim S3300000x32 ![0] bcast_S3300000_S3300000x32_0
        (Host.reduce IntOp.andi (inRange_g2 s) (constantI S_ 1 1#1) reducesTo_S3300000x1_S3300000_d1 h_S_))
      (Host.gather gather_S100000x32_S3300000x1_S3300000x32_1_0_n_n_0_1_132 H (wrapCol_g2 s))
      (broadcastInDim S3300000x32 ![] bcast_S_S3300000x32 (constant S_ .f32 0x7FC00000#32))
    = Host.gather gather_S100000x32_S3300000x1_S3300000x32_1_0_n_n_0_1_132 H (wrapCol_g2 s) :=
  select_guard_eq_g2 _ (inRange_one_g2 s hr) _ _ _ _ _ _

end Pieces

/-! ### The typed references of the kernel's row read hold their values unchanged -/

/-- Reading back through a typed reference what was stored through it is the identity. -/
theorem ofBuf_toBuf_g2 {sig : RefSig} {Val : EltTy → Type} {T : BufTy} (x : TRef sig T) (v : T.Contents Val) :
    x.ofBuf (x.toBuf v) = v := by
  obtain ⟨r, h, h2, h3⟩ := x
  subst h
  rfl

/-- The source indices are read through their typed reference unchanged. -/
theorem ofBuf_src_g2 (p1 : Cert.KernelIdeal.main_v3.ty = ⟨Cert.KernelIdeal.S3300000, .i32⟩)
    (p2 : Cert.KernelIdeal.main_v3.space ≠ .host) (p3 : Cert.KernelIdeal.main_v3.isScoped = false)
    (v : Cert.KernelIdeal.main_v3.ty.Contents (Elt Ideal)) :
    (TRef.of Cert.KernelIdeal.main_v3 p1 p2 p3).ofBuf v = v := rfl

/-- The features are read through their typed reference unchanged. -/
theorem ofBuf_feat_g2 (p1 : Cert.KernelIdeal.main_v41.ty = ⟨Cert.KernelIdeal.S100000x32, .f32⟩)
    (p2 : Cert.KernelIdeal.main_v41.space ≠ .host) (p3 : Cert.KernelIdeal.main_v41.isScoped = false)
    (v : Cert.KernelIdeal.main_v41.ty.Contents (Elt Ideal)) :
    (TRef.of Cert.KernelIdeal.main_v41 p1 p2 p3).ofBuf v = v := rfl

/-- The rows read are stored through their typed reference unchanged. -/
theorem toBuf_rows_g2 (p1 : Cert.KernelIdeal.main_v42.ty = ⟨Cert.KernelIdeal.S3300000x32, .f32⟩)
    (p2 : Cert.KernelIdeal.main_v42.space ≠ .host) (p3 : Cert.KernelIdeal.main_v42.isScoped = false)
    (v : (⟨Cert.KernelIdeal.S3300000x32, .f32⟩ : BufTy).Contents (Elt Ideal)) :
    (TRef.of Cert.KernelIdeal.main_v42 p1 p2 p3).toBuf v = v := rfl

/-- With every source index in range, the kernel's gather / scale / scatter-add stretch leaves in its result what the
    reference's leaves, from contents that agree on the features, the two index lists and the edge weights. -/
theorem stepG2 (VK : Valuation Cert.KernelIdeal.τ Cert.KernelIdeal.sig (Elt Ideal)) (X : Valuation Cert.ReferenceIdeal.τ Cert.ReferenceIdeal.sig (Elt Ideal))
    (hH : VK (Proc.devRef .tc Cert.KernelIdeal.main_v41) = X (Proc.devRef .tc Cert.ReferenceIdeal.main_v49))
    (hs : VK (Proc.devRef .tc Cert.KernelIdeal.main_v3) = X (Proc.devRef .tc Cert.ReferenceIdeal.main_v3))
    (hd : VK (Proc.devRef .tc Cert.KernelIdeal.main_v7) = X (Proc.devRef .tc Cert.ReferenceIdeal.main_v7))
    (hn : VK (Proc.devRef .tc Cert.KernelIdeal.main_v30) = X (Proc.devRef .tc Cert.ReferenceIdeal.main_v30))
    (hr : ∀ i : Cert.KernelIdeal.S3300000.Idx,
      -100000 ≤ (VK (Proc.devRef .tc Cert.KernelIdeal.main_v3) i : BitVec 32).toInt ∧ (VK (Proc.devRef .tc Cert.KernelIdeal.main_v3) i : BitVec 32).toInt < 100000) :
    after Cert.KernelIdeal.Gen.hostOps3_1 (after Cert.KernelIdeal.Gen.hostOps3 VK) (Proc.devRef .tc Cert.KernelIdeal.main_v48)
      = after Cert.ReferenceIdeal.RV.rG2 X (Proc.devRef .tc Cert.ReferenceIdeal.main_v62) := by
  -- both stretches as the pure terms of their operations over the contents they start from
  after_results_simp
  -- the kernel's typed references hold their values unchanged
  simp only [ofBuf_toBuf_g2, ofBuf_src_g2, ofBuf_feat_g2, toBuf_rows_g2]
  -- the kernel's guarded row read is the plain one; then both sides are the same operations on the same values, the
  -- two programs' shapes and dimension records being the same data
  rw [rowsK_eq_g2 _ _ hr, hH, hs, hd, hn] <;> rfl

end Cert.Sim

end
-- ==== Proof.StepG3.lean ====
/-
  The third layer's aggregation over the edges (3,200,000 edges and 100,000 self loops; 16 features). Both programs
  wrap a negative source index by adding 100000, read the source node's feature row, scale it by the edge's weight and add
  it into the destination node's row. They differ in one thing: the kernel's row read replaces a row whose wrapped index
  is outside 0 … 99999 by a filler value, the reference's reads the nearest row instead. When every source index s has
  -100000 ≤ s < 100000 the wrapped index is always inside 0 … 99999, the kernel's replacement never happens, and the two
  stretches are the same operations on the same values.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.Sim

open Idealize.ShloMosaic Idealize.ShloMosaic.TcCoe Idealize.SL.Sem Idealize.ShloMosaic.StableHlo
open Idealize.ShloMosaic.Pipeline (Dat)

/-! ### Words: the wrapped index is in range -/

/-- A decided proposition that holds, as a one-bit word, is 1. -/
theorem ofBool_decide_one_g3 {p : Prop} [Decidable p] (h : p) : BitVec.ofBool (decide p) = 1#1 := by
  rw [decide_eq_true h]; rfl

/-- A signed 32-bit word v with -100000 ≤ v < 100000, wrapped by adding 100000 when it is negative, lies in 0 … 99999:
    both comparisons that guard the row read come out 1. If v is negative, v + 100000 does not wrap around in 32 bits
    and lies in 0 … 99999; otherwise v itself does. -/
theorem wrap_ok_g3 (v : BitVec 32) (h1 : -100000 ≤ v.toInt) (h2 : v.toInt < 100000) :
    IntOp.andi
      (IntOp.cmpi .sge (Scalar.select (IntOp.cmpi .slt v 0#32) (IntOp.addi v 100000#32) v) 0#32)
      (IntOp.cmpi .sle (Scalar.select (IntOp.cmpi .slt v 0#32) (IntOp.addi v 100000#32) v) 99999#32) = 1#1 := by
  have h0 : (0#32 : BitVec 32).toInt = 0 := by decide
  have h9 : (99999#32 : BitVec 32).toInt = 99999 := by decide
  have hk : (100000#32 : BitVec 32).toInt = 100000 := by decide
  by_cases hneg : v.toInt < 0
  · have hc : IntOp.cmpi .slt v 0#32 = 1#1 :=
      ofBool_decide_one_g3 (p := v.toInt < (0#32 : BitVec 32).toInt) (by rw [h0]; exact hneg)
    have hw : (IntOp.addi v 100000#32).toInt = v.toInt + 100000 := by
      show (v + 100000#32).toInt = _
      rw [BitVec.toInt_add, hk]
      exact Int.bmod_eq_of_le_mul_two (by omega) (by omega)
    have ha : IntOp.cmpi .sge (IntOp.addi v 100000#32) 0#32 = 1#1 :=
      ofBool_decide_one_g3 (p := (0#32 : BitVec 32).toInt ≤ (IntOp.addi v 100000#32).toInt) (by rw [h0, hw]; omega)
    have hb : IntOp.cmpi .sle (IntOp.addi v 100000#32) 99999#32 = 1#1 :=
      ofBool_decide_one_g3 (p := (IntOp.addi v 100000#32).toInt ≤ (99999#32 : BitVec 32).toInt) (by rw [h9, hw]; omega)
    rw [hc]
    show IntOp.andi (IntOp.cmpi .sge (IntOp.addi v 100000#32) 0#32) (IntOp.cmpi .sle (IntOp.addi v 100000#32) 99999#32) = 1#1
    rw [ha, hb]; rfl
  · have hc : IntOp.cmpi .slt v 0#32 = 0#1 := by
      show BitVec.ofBool (decide (v.toInt < (0#32 : BitVec 32).toInt)) = 0#1
      rw [decide_eq_false (by rw [h0]; exact hneg)]; rfl
    have ha : IntOp.cmpi .sge v 0#32 = 1#1 :=
      ofBool_decide_one_g3 (p := (0#32 : BitVec 32).toInt ≤ v.toInt) (by rw [h0]; omega)
    have hb : IntOp.cmpi .sle v 99999#32 = 1#1 :=
      ofBool_decide_one_g3 (p := v.toInt ≤ (99999#32 : BitVec 32).toInt) (by rw [h9]; omega)
    rw [hc]
    show IntOp.andi (IntOp.cmpi .sge v 0#32) (IntOp.cmpi .sle v 99999#32) = 1#1
    rw [ha, hb]; rfl

/-! ### A reduction by `and` of ones, and the select it guards -/

/-- A left fold by `and` from 1 over words that are all 1 is 1. -/
theorem foldl_andi_one_g3 {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1) (1#1) = 1#1 from rfl]
    exact foldl_andi_one_g3 f l fun n hn => h n (List.mem_cons_of_mem _ hn)

/-- A reduction by `and`, started from 1, of an array whose every element is 1 is 1 at every result index. -/
theorem reduce_andi_ones_g3 {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_one_g3 x _ fun n _ => hx n

/-- A select whose condition is the broadcast of such a reduction keeps its first branch everywhere. -/
theorem select_guard_eq_g3 {α : Type} {s t u T : Shape} {axes : List (Fin s.rank)} (x : s.Idx → BitVec 1) (hx : ∀ i, x i = 1#1)
    (h : s.ReducesTo axes t) (hu : 0 < u.numel) (dims : Fin t.rank → Fin T.rank) (hb : t.BroadcastsInDim T dims)
    (a b : T.Idx → α) :
    select (broadcastInDim T dims hb (Host.reduce IntOp.andi x (constantI u 1 1#1) h hu)) a b = a := by
  funext j
  show Scalar.select (Host.reduce IntOp.andi x (constantI u 1 1#1) h hu _) (a j) (b j) = a j
  rw [reduce_andi_ones_g3 x hx h hu]; rfl

/-! ### The kernel's guarded row read is the plain row read -/

section Pieces
open Cert.KernelIdeal Cert.KernelIdeal.Gen

/-- The source indices with the negative ones wrapped by adding 100000, as a column. -/
abbrev wrapCol_g3 (s : IVec S3300000 32) : IVec S3300000x1 32 :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- The guard of the kernel's row read: the wrapped index is at least 0 and at most 99999. -/
abbrev inRange_g3 (s : IVec S3300000 32) : IVec S3300000x1 1 :=
  andi (cmpi .sge (wrapCol_g3 s) (broadcastInDim S3300000x1 ![] bcast_S_S3300000x1 (constantI S_ 32 0#32)))
    (cmpi .sle (wrapCol_g3 s) (broadcastInDim S3300000x1 ![0, 1] bcast_S1x1_S3300000x1_0_1
      (broadcastInDim S1x1 ![1] bcast_S1_S1x1_1 (constantI S1 32 99999#32))))

/-- With every source index in -100000 … 99999 the guard is 1 at every edge. -/
theorem inRange_one_g3 (s : IVec S3300000 32) (hr : ∀ i, -100000 ≤ (s i).toInt ∧ (s i).toInt < 100000)
    (i : S3300000x1.Idx) : inRange_g3 s i = 1#1 :=
  wrap_ok_g3 _ (hr _).1 (hr _).2

/-- With every source index in range the filler is never taken: the kernel's row read (the source node's row where the
    guard holds, the filler value elsewhere) is the plain row read. -/
theorem rowsK_eq_g3 (s : IVec S3300000 32) (H : FVec Ideal S100000x16 .f32)
    (hr : ∀ i, -100000 ≤ (s i).toInt ∧ (s i).toInt < 100000) :
    select (broadcastInDim S3300000x16 ![0] bcast_S3300000_S3300000x16_0
        (Host.reduce IntOp.andi (inRange_g3 s) (constantI S_ 1 1#1) reducesTo_S3300000x1_S3300000_d1 h_S_))
      (Host.gather gather_S100000x16_S3300000x1_S3300000x16_1_0_n_n_0_1_116 H (wrapCol_g3 s))
      (broadcastInDim S3300000x16 ![] bcast_S_S3300000x16 (constant S_ .f32 0x7FC00000#32))
    = Host.gather gather_S100000x16_S3300000x1_S3300000x16_1_0_n_n_0_1_116 H (wrapCol_g3 s) :=
  select_guard_eq_g3 _ (inRange_one_g3 s hr) _ _ _ _ _ _

end Pieces

/-! ### The typed references of the kernel's row read hold their values unchanged -/

/-- Reading back through a typed reference what was stored through it is the identity. -/
theorem ofBuf_toBuf_g3 {sig : RefSig} {Val : EltTy → Type} {T : BufTy} (x : TRef sig T) (v : T.Contents Val) :
    x.ofBuf (x.toBuf v) = v := by
  obtain ⟨r, h, h2, h3⟩ := x
  subst h
  rfl

/-- The source indices are read through their typed reference unchanged. -/
theorem ofBuf_src_g3 (p1 : Cert.KernelIdeal.main_v3.ty = ⟨Cert.KernelIdeal.S3300000, .i32⟩)
    (p2 : Cert.KernelIdeal.main_v3.space ≠ .host) (p3 : Cert.KernelIdeal.main_v3.isScoped = false)
    (v : Cert.KernelIdeal.main_v3.ty.Contents (Elt Ideal)) :
    (TRef.of Cert.KernelIdeal.main_v3 p1 p2 p3).ofBuf v = v := rfl

/-- The features are read through their typed reference unchanged. -/
theorem ofBuf_feat_g3 (p1 : Cert.KernelIdeal.main_v51.ty = ⟨Cert.KernelIdeal.S100000x16, .f32⟩)
    (p2 : Cert.KernelIdeal.main_v51.space ≠ .host) (p3 : Cert.KernelIdeal.main_v51.isScoped = false)
    (v : Cert.KernelIdeal.main_v51.ty.Contents (Elt Ideal)) :
    (TRef.of Cert.KernelIdeal.main_v51 p1 p2 p3).ofBuf v = v := rfl

/-- The rows read are stored through their typed reference unchanged. -/
theorem toBuf_rows_g3 (p1 : Cert.KernelIdeal.main_v52.ty = ⟨Cert.KernelIdeal.S3300000x16, .f32⟩)
    (p2 : Cert.KernelIdeal.main_v52.space ≠ .host) (p3 : Cert.KernelIdeal.main_v52.isScoped = false)
    (v : (⟨Cert.KernelIdeal.S3300000x16, .f32⟩ : BufTy).Contents (Elt Ideal)) :
    (TRef.of Cert.KernelIdeal.main_v52 p1 p2 p3).toBuf v = v := rfl

/-- With every source index in range, the kernel's gather / scale / scatter-add stretch leaves in its result what the
    reference's leaves, from contents that agree on the features, the two index lists and the edge weights. -/
theorem stepG3 (VK : Valuation Cert.KernelIdeal.τ Cert.KernelIdeal.sig (Elt Ideal)) (X : Valuation Cert.ReferenceIdeal.τ Cert.ReferenceIdeal.sig (Elt Ideal))
    (hH : VK (Proc.devRef .tc Cert.KernelIdeal.main_v51) = X (Proc.devRef .tc Cert.ReferenceIdeal.main_v67))
    (hs : VK (Proc.devRef .tc Cert.KernelIdeal.main_v3) = X (Proc.devRef .tc Cert.ReferenceIdeal.main_v3))
    (hd : VK (Proc.devRef .tc Cert.KernelIdeal.main_v7) = X (Proc.devRef .tc Cert.ReferenceIdeal.main_v7))
    (hn : VK (Proc.devRef .tc Cert.KernelIdeal.main_v30) = X (Proc.devRef .tc Cert.ReferenceIdeal.main_v30))
    (hr : ∀ i : Cert.KernelIdeal.S3300000.Idx,
      -100000 ≤ (VK (Proc.devRef .tc Cert.KernelIdeal.main_v3) i : BitVec 32).toInt ∧ (VK (Proc.devRef .tc Cert.KernelIdeal.main_v3) i : BitVec 32).toInt < 100000) :
    after Cert.KernelIdeal.Gen.hostOps5_1 (after Cert.KernelIdeal.Gen.hostOps5 VK) (Proc.devRef .tc Cert.KernelIdeal.main_v58)
      = after Cert.ReferenceIdeal.RV.rG3 X (Proc.devRef .tc Cert.ReferenceIdeal.main_v80) := by
  -- both stretches as the pure terms of their operations over the contents they start from
  after_results_simp
  -- the kernel's typed references hold their values unchanged
  simp only [ofBuf_toBuf_g3, ofBuf_src_g3, ofBuf_feat_g3, toBuf_rows_g3]
  -- the kernel's guarded row read is the plain one; then both sides are the same operations on the same values, the
  -- two programs' shapes and dimension records being the same data
  rw [rowsK_eq_g3 _ _ hr, hH, hs, hd, hn] <;> rfl

end Cert.Sim

end
-- ==== Proof.StepE1.lean ====
/-
  The first layer's bias and ELU (100000 rows of 32 features). The kernel works in row tiles of 5000: at grid point t
  the body adds the bias row to rows 5000·t … 5000·t+4999 of the aggregated features, and where the sum y is not positive
  replaces it by exp y - 1; the twenty tiles cover the result. Entry (r, j) is therefore elu (a (r, j) + b j) with elu y = y for
  y > 0 and exp y - 1 otherwise. The reference adds the broadcast bias and applies its ELU, written as: y where y > 0, else
  1 · expm1 (y where y ≤ 0, else 0); on the extended reals expm1 y is exp y - 1 and 1 · z = z, so the two agree at every y.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.Sim

open Idealize.ShloMosaic Idealize.ShloMosaic.TcCoe Idealize.SL.Sem Idealize.ShloMosaic.StableHlo
open Idealize.ShloMosaic.Pipeline (Dat)

namespace E1

open Cert.KernelIdeal Cert.KernelIdeal.Gen Idealize.ShloMosaic.ValueIdx

/-- The offsets of an access to a whole staging buffer are zero on both axes. -/
theorem hz : (![0, 0] : Fin 2 → Nat) = fun _ => 0 := funext fun a => by fin_cases a <;> rfl

/-- The f32 pattern of 1.0 is the extended real 1. -/
theorem one_f32 : Ideal.ofBits .f32 0x3F800000#32 = 1 := IdealRules.sign_bit.ideal_onePat .f32

/-- ELU on the extended reals: the identity above zero, exp y - 1 elsewhere. -/
def elu (y : EReal) : EReal := if 0 < y then y else Ideal.exp y - 1

/-- The comparison y > 0 as an i1, where y is above zero. -/
theorem cmp_pos {y : EReal} (h : 0 < y) : FloatOps.cmpf (F := Ideal) (φ := .f32) .ogt y 0 = 1#1 := by
  show Ideal.cmp .ogt y 0 = 1#1
  simp [Ideal.cmp, h]
/-- The comparison where y is not above zero. -/
theorem cmp_nonpos {y : EReal} (h : ¬ 0 < y) : FloatOps.cmpf (F := Ideal) (φ := .f32) .ogt y 0 = 0#1 := by
  show Ideal.cmp .ogt y 0 = 0#1
  simp [Ideal.cmp, h]

/-- The kernel's selection at one element. -/
theorem kernel_elu (y : EReal) :
    Scalar.select (FloatOps.cmpf (F := Ideal) (φ := .f32) .ogt y (Ideal.ofBits .f32 0x00000000#32)) y (Ideal.exp y - Ideal.ofBits .f32 0x3F800000#32) = elu y := by
  rw [Ideal.ofBits_zero_f32, one_f32]
  unfold elu
  by_cases h : 0 < y
  · rw [cmp_pos h, select_one, if_pos h]
  · rw [cmp_nonpos h, select_zero, if_neg h]

/-- The reference's selection at one element: y where y > 0, else 1 · expm1 (0 where y > 0, else y). -/
theorem ref_elu (y : EReal) :
    Scalar.select (FloatOps.cmpf (F := Ideal) (φ := .f32) .ogt y (Ideal.ofBits .f32 0x00000000#32)) y
      (Ideal.ofBits .f32 0x3F800000#32 * (Ideal.exp (Scalar.select (FloatOps.cmpf (F := Ideal) (φ := .f32) .ogt y (Ideal.ofBits .f32 0x00000000#32)) (Ideal.ofBits .f32 0x00000000#32) y) - 1)) = elu y := by
  rw [Ideal.ofBits_zero_f32, one_f32]
  unfold elu
  by_cases h : 0 < y
  · rw [cmp_pos h, select_one, if_pos h]
  · rw [cmp_nonpos h, select_zero, select_zero, if_neg h, one_mul]

/-- The body's result at one element: ELU of the feature plus the bias of its column. -/
theorem pay_apply (x0 : Vec Ideal S5000x32 .f32) (x1 : Vec Ideal S1x32 .f32) (p : Fin 5000) (q : Fin 32) :
    k1_pay1 (F := Ideal) x0 x1 (ix2 p q) = elu (x0 (ix2 p q) + x1 (ix2 (0 : Fin 1) q)) := by
  unfold k1_pay1
  simp only [shapeCast_self]
  refine Eq.trans ?_ (kernel_elu _)
  show Scalar.select (FloatOps.cmpf (F := Ideal) (φ := .f32) .ogt (x0 (ix2 p q) + broadcastTo S5000x32 x1 broadcasts_S1x32_S5000x32 (ix2 p q)) (Ideal.ofBits .f32 0x00000000#32))
      (x0 (ix2 p q) + broadcastTo S5000x32 x1 broadcasts_S1x32_S5000x32 (ix2 p q))
      (Ideal.exp (x0 (ix2 p q) + broadcastTo S5000x32 x1 broadcasts_S1x32_S5000x32 (ix2 p q)) - Ideal.ofBits .f32 0x3F800000#32) = _
  rw [broadcastTo_1b_ab_apply x1 broadcasts_S1x32_S5000x32 p q]

/-- What the result array ends holding: ELU of the aggregated feature plus its column's bias. -/
def G (a : S100000x32.Idx → EReal) (b : S1x32.Idx → EReal) : S100000x32.Idx → EReal :=
  fun i => elu (a i + b (ix2 (0 : Fin 1) (i 1 : Fin 32)))

/-- The printed index maps over the twenty grid points: the feature tile and the result tile are row tile t, the bias row is
    the one block. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What grid point t writes back is tile t of G of the feature array and the bias row as the region finds them. -/
theorem flushed_eq (V : (c : Dev nD) → (b : Ref sig .tc) → Buf (Elt Ideal) ((c : Thread nD τ).loc b)) (c : Dev nD) (t : Fin cfg1.N) :
    (dat1 (F := Ideal) V c).flushed 2 t = ((cfg1.win 2).blk t).view.read (Elt Ideal) (G (V c main_v38) (V c main_v39)) := by
  show (cfg1.win 2).cut (grid1.coords t) ((dat1 V c).after 2 t) = _
  rw [after1_2]
  unfold out1_2
  rw [View.canon_unit_zero hz]
  simp only [View.ld_unit_zero (S := S5000x32) hz, View.ld_unit_zero (S := S1x32) hz]
  obtain ⟨e0, e1, e2, e3, e4, e5⟩ := idx_facts t
  refine funext fun (j : S5000x32.Idx) => ?_
  obtain ⟨p, q, rfl⟩ : ∃ (p : Fin 5000) (q : Fin 32), j = ix2 p q := ⟨j 0, j 1, eq_ix2 j⟩
  show k1_pay1 (F := Ideal) (iblk1 V c 0 t) (iblk1 V c 1 t) (ix2 p q) = G (V c main_v38) (V c main_v39) (((cfg1.win 2).blk t).view.emb (ix2 p q))
  rw [pay_apply]
  show elu (FloatOps.addf (F := Ideal) (φ := .f32) (V c main_v38 (((cfg1.win 0).blk t).view.emb (ix2 p q))) (V c main_v39 (((cfg1.win 1).blk t).view.emb (ix2 (0 : Fin 1) q))))
     = elu (FloatOps.addf (F := Ideal) (φ := .f32) (V c main_v38 (((cfg1.win 2).blk t).view.emb (ix2 p q))) (V c main_v39 (ix2 (0 : Fin 1) ((((cfg1.win 2).blk t).view.emb (ix2 p q)) 1 : Fin 32))))
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 32 + 1 * q.val = win1_2.index t (1 : Fin 2) * 32 + 1 * q.val; omega
  have h1 : ((cfg1.win 1).blk t).view.emb (ix2 (0 : Fin 1) q) = ix2 (0 : Fin 1) ((((cfg1.win 2).blk t).view.emb (ix2 p q)) 1 : Fin 32) := by
    funext a; apply Fin.ext
    match a with
    | ⟨0, _⟩ => show win1_1.index t (0 : Fin 2) * 1 + 1 * 0 = 0; omega
    | ⟨1, _⟩ => show win1_1.index t (1 : Fin 2) * 32 + 1 * q.val = win1_2.index t (1 : Fin 2) * 32 + 1 * q.val; omega
  rw [h0, h1]
  rfl

/-- An index of the array is in grid point t's tile iff each coordinate is in the tile's range on its axis. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v40).slice (win1_2.rect t)).set ↔ _
  rw [View.set_slice_whole, Rect.mem_set_unit]
  exact Iff.rfl

/-- Row r lies in tile r / 5000: the twenty tiles cover the array. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨e0, e1, e2, e3, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- The result array after the twenty grid points. -/
theorem final (V : (c : Dev nD) → (b : Ref sig .tc) → Buf (Elt Ideal) ((c : Thread nD τ).loc b)) (c : Dev nD) :
    (dat1 (F := Ideal) V c).arrAt 2 cfg1.N = G (V c main_v38) (V c main_v39) :=
  (dat1 V c).arrAt_eq_of_cover 2 (G (V c main_v38) (V c main_v39)) (fun t _ => flushed_eq V c t) cover

/-- The reference's sum: the features plus the bias vector broadcast [32] → [1,32] → [100000,32]. -/
def refY (a : FVec Ideal Cert.ReferenceIdeal.S100000x32 .f32) (b : FVec Ideal Cert.ReferenceIdeal.S32 .f32) : FVec Ideal Cert.ReferenceIdeal.S100000x32 .f32 :=
  addf a (broadcastInDim Cert.ReferenceIdeal.S100000x32 ![0, 1] Cert.ReferenceIdeal.Gen.bcast_S1x32_S100000x32_0_1
    (broadcastInDim Cert.ReferenceIdeal.S1x32 ![1] Cert.ReferenceIdeal.Gen.bcast_S32_S1x32_1 b))

/-- The reference's ELU of a whole array: y where y > 0, else 1 · expm1 (0 where y > 0, else y), the constants broadcast scalars. -/
def refElu (y : FVec Ideal Cert.ReferenceIdeal.S100000x32 .f32) : FVec Ideal Cert.ReferenceIdeal.S100000x32 .f32 :=
  select (cmpf .ogt y (broadcastInDim Cert.ReferenceIdeal.S100000x32 ![] Cert.ReferenceIdeal.Gen.bcast_S_S100000x32 (constant (F := Ideal) Cert.ReferenceIdeal.S_ .f32 0x00000000#32))) y
    (mulf (broadcastInDim Cert.ReferenceIdeal.S100000x32 ![] Cert.ReferenceIdeal.Gen.bcast_S_S100000x32 (constant (F := Ideal) Cert.ReferenceIdeal.S_ .f32 0x3F800000#32))
      (Host.expm1 (select (cmpf .ogt y (broadcastInDim Cert.ReferenceIdeal.S100000x32 ![] Cert.ReferenceIdeal.Gen.bcast_S_S100000x32 (constant (F := Ideal) Cert.ReferenceIdeal.S_ .f32 0x00000000#32)))
        (broadcastInDim Cert.ReferenceIdeal.S100000x32 ![] Cert.ReferenceIdeal.Gen.bcast_S_S100000x32 (id (constant (F := Ideal) Cert.ReferenceIdeal.S_ .f32 0x00000000#32))) y)))

/-- The reference's ELU at one element. -/
theorem refElu_apply (y : FVec Ideal Cert.ReferenceIdeal.S100000x32 .f32) (i : Cert.ReferenceIdeal.S100000x32.Idx) : refElu y i = elu (y i) :=
  Eq.trans rfl (ref_elu (y i))

/-- The reference's sum at (r, j): the feature plus the bias at j. -/
theorem refY_apply (a : FVec Ideal Cert.ReferenceIdeal.S100000x32 .f32) (b : FVec Ideal Cert.ReferenceIdeal.S32 .f32) (r : Fin 100000) (j : Fin 32) :
    refY a b (ValueIdx.ix2 r j) = a (ValueIdx.ix2 r j) + b (ValueIdx.ix1 j) := by
  show a (ValueIdx.ix2 r j) + broadcastInDim Cert.ReferenceIdeal.S100000x32 ![0, 1] Cert.ReferenceIdeal.Gen.bcast_S1x32_S100000x32_0_1
    (broadcastInDim Cert.ReferenceIdeal.S1x32 ![1] Cert.ReferenceIdeal.Gen.bcast_S32_S1x32_1 b) (ValueIdx.ix2 r j) = _
  congr 1
  refine (broadcastInDim_apply _ Cert.ReferenceIdeal.Gen.bcast_S1x32_S100000x32_0_1 _ (ValueIdx.ix2 r j) (ValueIdx.ix2 (0 : Fin 1) j) fun a => ?_).trans ?_
  · match a with
    | ⟨0, _⟩ => rfl
    | ⟨1, _⟩ => exact (if_neg (show ¬ ((32 : Nat) = 1) by decide)).symm
  · refine broadcastInDim_apply _ Cert.ReferenceIdeal.Gen.bcast_S32_S1x32_1 _ (ValueIdx.ix2 (0 : Fin 1) j) (ValueIdx.ix1 j) fun a => ?_
    match a with
    | ⟨0, _⟩ => exact (if_neg (show ¬ ((32 : Nat) = 1) by decide)).symm

/-- What the reference's bias stretch leaves in its result: its ELU of its sum, whole arrays. -/
theorem ref_final (X : Valuation Cert.ReferenceIdeal.τ Cert.ReferenceIdeal.sig (Elt Ideal)) :
    after Cert.ReferenceIdeal.RV.rE1 X (Proc.devRef .tc Cert.ReferenceIdeal.main_v48)
      = refElu (refY (X (Proc.devRef .tc Cert.ReferenceIdeal.main_v44)) (X (Proc.devRef .tc Cert.ReferenceIdeal.main_arg3))) := by
  after_results
  rfl

end E1

/-- The bias region's result array, for ANY contents the region is entered from, is what the reference's bias stretch
    leaves, when the two agree on the aggregated features and the kernel's bias row holds the reference's bias vector. -/
theorem stepE1 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (X : Valuation Cert.ReferenceIdeal.τ Cert.ReferenceIdeal.sig (Elt Ideal))
    (ha : V c Cert.KernelIdeal.main_v38 = X (Proc.devRef .tc Cert.ReferenceIdeal.main_v44))
    (hb : ∀ j : Fin 32, V c Cert.KernelIdeal.main_v39 (ValueIdx.ix2 (0 : Fin 1) j) = X (Proc.devRef .tc Cert.ReferenceIdeal.main_arg3) (ValueIdx.ix1 j)) :
    (Cert.KernelIdeal.Gen.dat1 (F := Ideal) V c).arrAt 2 Cert.KernelIdeal.cfg1.N
      = after Cert.ReferenceIdeal.RV.rE1 X (Proc.devRef .tc Cert.ReferenceIdeal.main_v48) := by
  rw [E1.final V c, E1.ref_final X]
  funext i
  obtain ⟨r, j, rfl⟩ : ∃ (r : Fin 100000) (j : Fin 32), i = ValueIdx.ix2 r j := ⟨i 0, i 1, ValueIdx.eq_ix2 i⟩
  rw [E1.refElu_apply, E1.refY_apply]
  show E1.elu (FloatOps.addf (F := Ideal) (φ := .f32) (V c Cert.KernelIdeal.main_v38 (ValueIdx.ix2 r j)) (V c Cert.KernelIdeal.main_v39 (ValueIdx.ix2 (0 : Fin 1) j))) = _
  rw [ha, hb j]
  rfl

end Cert.Sim

end
-- ==== Proof.StepE2.lean ====
/-
  The second layer's bias and ELU (100000 rows of 32 features). The kernel works in row tiles of 5000: at grid point t
  the body adds the bias row to rows 5000·t … 5000·t+4999 of the aggregated features, and where the sum y is not positive
  replaces it by exp y - 1; the twenty tiles cover the result. Entry (r, j) is therefore elu (a (r, j) + b j) with elu y = y for
  y > 0 and exp y - 1 otherwise. The reference adds the broadcast bias and applies its ELU, written as: y where y > 0, else
  1 · expm1 (y where y ≤ 0, else 0); on the extended reals expm1 y is exp y - 1 and 1 · z = z, so the two agree at every y.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.Sim

open Idealize.ShloMosaic Idealize.ShloMosaic.TcCoe Idealize.SL.Sem Idealize.ShloMosaic.StableHlo
open Idealize.ShloMosaic.Pipeline (Dat)

namespace E2

open Cert.KernelIdeal Cert.KernelIdeal.Gen Idealize.ShloMosaic.ValueIdx

/-- The offsets of an access to a whole staging buffer are zero on both axes. -/
theorem hz : (![0, 0] : Fin 2 → Nat) = fun _ => 0 := funext fun a => by fin_cases a <;> rfl

/-- The f32 pattern of 1.0 is the extended real 1. -/
theorem one_f32 : Ideal.ofBits .f32 0x3F800000#32 = 1 := IdealRules.sign_bit.ideal_onePat .f32

/-- ELU on the extended reals: the identity above zero, exp y - 1 elsewhere. -/
def elu (y : EReal) : EReal := if 0 < y then y else Ideal.exp y - 1

/-- The comparison y > 0 as an i1, where y is above zero. -/
theorem cmp_pos {y : EReal} (h : 0 < y) : FloatOps.cmpf (F := Ideal) (φ := .f32) .ogt y 0 = 1#1 := by
  show Ideal.cmp .ogt y 0 = 1#1
  simp [Ideal.cmp, h]
/-- The comparison where y is not above zero. -/
theorem cmp_nonpos {y : EReal} (h : ¬ 0 < y) : FloatOps.cmpf (F := Ideal) (φ := .f32) .ogt y 0 = 0#1 := by
  show Ideal.cmp .ogt y 0 = 0#1
  simp [Ideal.cmp, h]

/-- The kernel's selection at one element. -/
theorem kernel_elu (y : EReal) :
    Scalar.select (FloatOps.cmpf (F := Ideal) (φ := .f32) .ogt y (Ideal.ofBits .f32 0x00000000#32)) y (Ideal.exp y - Ideal.ofBits .f32 0x3F800000#32) = elu y := by
  rw [Ideal.ofBits_zero_f32, one_f32]
  unfold elu
  by_cases h : 0 < y
  · rw [cmp_pos h, select_one, if_pos h]
  · rw [cmp_nonpos h, select_zero, if_neg h]

/-- The reference's selection at one element: y where y > 0, else 1 · expm1 (0 where y > 0, else y). -/
theorem ref_elu (y : EReal) :
    Scalar.select (FloatOps.cmpf (F := Ideal) (φ := .f32) .ogt y (Ideal.ofBits .f32 0x00000000#32)) y
      (Ideal.ofBits .f32 0x3F800000#32 * (Ideal.exp (Scalar.select (FloatOps.cmpf (F := Ideal) (φ := .f32) .ogt y (Ideal.ofBits .f32 0x00000000#32)) (Ideal.ofBits .f32 0x00000000#32) y) - 1)) = elu y := by
  rw [Ideal.ofBits_zero_f32, one_f32]
  unfold elu
  by_cases h : 0 < y
  · rw [cmp_pos h, select_one, if_pos h]
  · rw [cmp_nonpos h, select_zero, select_zero, if_neg h, one_mul]

/-- The body's result at one element: ELU of the feature plus the bias of its column. -/
theorem pay_apply (x0 : Vec Ideal S5000x32 .f32) (x1 : Vec Ideal S1x32 .f32) (p : Fin 5000) (q : Fin 32) :
    k3_pay1 (F := Ideal) x0 x1 (ix2 p q) = elu (x0 (ix2 p q) + x1 (ix2 (0 : Fin 1) q)) := by
  unfold k3_pay1
  simp only [shapeCast_self]
  refine Eq.trans ?_ (kernel_elu _)
  show Scalar.select (FloatOps.cmpf (F := Ideal) (φ := .f32) .ogt (x0 (ix2 p q) + broadcastTo S5000x32 x1 broadcasts_S1x32_S5000x32 (ix2 p q)) (Ideal.ofBits .f32 0x00000000#32))
      (x0 (ix2 p q) + broadcastTo S5000x32 x1 broadcasts_S1x32_S5000x32 (ix2 p q))
      (Ideal.exp (x0 (ix2 p q) + broadcastTo S5000x32 x1 broadcasts_S1x32_S5000x32 (ix2 p q)) - Ideal.ofBits .f32 0x3F800000#32) = _
  rw [broadcastTo_1b_ab_apply x1 broadcasts_S1x32_S5000x32 p q]

/-- What the result array ends holding: ELU of the aggregated feature plus its column's bias. -/
def G (a : S100000x32.Idx → EReal) (b : S1x32.Idx → EReal) : S100000x32.Idx → EReal :=
  fun i => elu (a i + b (ix2 (0 : Fin 1) (i 1 : Fin 32)))

/-- The printed index maps over the twenty grid points: the feature tile and the result tile are row tile t, the bias row is
    the one block. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What grid point t writes back is tile t of G of the feature array and the bias row as the region finds them. -/
theorem flushed_eq (V : (c : Dev nD) → (b : Ref sig .tc) → Buf (Elt Ideal) ((c : Thread nD τ).loc b)) (c : Dev nD) (t : Fin cfg3.N) :
    (dat3 (F := Ideal) V c).flushed 2 t = ((cfg3.win 2).blk t).view.read (Elt Ideal) (G (V c main_v48) (V c main_v49)) := by
  show (cfg3.win 2).cut (grid3.coords t) ((dat3 V c).after 2 t) = _
  rw [after3_2]
  unfold out3_2
  rw [View.canon_unit_zero hz]
  simp only [View.ld_unit_zero (S := S5000x32) hz, View.ld_unit_zero (S := S1x32) hz]
  obtain ⟨e0, e1, e2, e3, e4, e5⟩ := idx_facts t
  refine funext fun (j : S5000x32.Idx) => ?_
  obtain ⟨p, q, rfl⟩ : ∃ (p : Fin 5000) (q : Fin 32), j = ix2 p q := ⟨j 0, j 1, eq_ix2 j⟩
  show k3_pay1 (F := Ideal) (iblk3 V c 0 t) (iblk3 V c 1 t) (ix2 p q) = G (V c main_v48) (V c main_v49) (((cfg3.win 2).blk t).view.emb (ix2 p q))
  rw [pay_apply]
  show elu (FloatOps.addf (F := Ideal) (φ := .f32) (V c main_v48 (((cfg3.win 0).blk t).view.emb (ix2 p q))) (V c main_v49 (((cfg3.win 1).blk t).view.emb (ix2 (0 : Fin 1) q))))
     = elu (FloatOps.addf (F := Ideal) (φ := .f32) (V c main_v48 (((cfg3.win 2).blk t).view.emb (ix2 p q))) (V c main_v49 (ix2 (0 : Fin 1) ((((cfg3.win 2).blk t).view.emb (ix2 p q)) 1 : Fin 32))))
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 32 + 1 * q.val = win3_2.index t (1 : Fin 2) * 32 + 1 * q.val; omega
  have h1 : ((cfg3.win 1).blk t).view.emb (ix2 (0 : Fin 1) q) = ix2 (0 : Fin 1) ((((cfg3.win 2).blk t).view.emb (ix2 p q)) 1 : Fin 32) := by
    funext a; apply Fin.ext
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  rw [h0, h1]
  rfl

/-- An index of the array is in grid point t's tile iff each coordinate is in the tile's range on its axis. -/
theorem mem_blk (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v50).slice (win3_2.rect t)).set ↔ _
  rw [View.set_slice_whole, Rect.mem_set_unit]
  exact Iff.rfl

/-- Row r lies in tile r / 5000: the twenty tiles cover the array. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨e0, e1, e2, e3, e4, e5⟩ := idx_facts t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- The result array after the twenty grid points. -/
theorem final (V : (c : Dev nD) → (b : Ref sig .tc) → Buf (Elt Ideal) ((c : Thread nD τ).loc b)) (c : Dev nD) :
    (dat3 (F := Ideal) V c).arrAt 2 cfg3.N = G (V c main_v48) (V c main_v49) :=
  (dat3 V c).arrAt_eq_of_cover 2 (G (V c main_v48) (V c main_v49)) (fun t _ => flushed_eq V c t) cover

/-- The reference's sum: the features plus the bias vector broadcast [32] → [1,32] → [100000,32]. -/
def refY (a : FVec Ideal Cert.ReferenceIdeal.S100000x32 .f32) (b : FVec Ideal Cert.ReferenceIdeal.S32 .f32) : FVec Ideal Cert.ReferenceIdeal.S100000x32 .f32 :=
  addf a (broadcastInDim Cert.ReferenceIdeal.S100000x32 ![0, 1] Cert.ReferenceIdeal.Gen.bcast_S1x32_S100000x32_0_1
    (broadcastInDim Cert.ReferenceIdeal.S1x32 ![1] Cert.ReferenceIdeal.Gen.bcast_S32_S1x32_1 b))

/-- The reference's ELU of a whole array: y where y > 0, else 1 · expm1 (0 where y > 0, else y), the constants broadcast scalars. -/
def refElu (y : FVec Ideal Cert.ReferenceIdeal.S100000x32 .f32) : FVec Ideal Cert.ReferenceIdeal.S100000x32 .f32 :=
  select (cmpf .ogt y (broadcastInDim Cert.ReferenceIdeal.S100000x32 ![] Cert.ReferenceIdeal.Gen.bcast_S_S100000x32 (constant (F := Ideal) Cert.ReferenceIdeal.S_ .f32 0x00000000#32))) y
    (mulf (broadcastInDim Cert.ReferenceIdeal.S100000x32 ![] Cert.ReferenceIdeal.Gen.bcast_S_S100000x32 (constant (F := Ideal) Cert.ReferenceIdeal.S_ .f32 0x3F800000#32))
      (Host.expm1 (select (cmpf .ogt y (broadcastInDim Cert.ReferenceIdeal.S100000x32 ![] Cert.ReferenceIdeal.Gen.bcast_S_S100000x32 (constant (F := Ideal) Cert.ReferenceIdeal.S_ .f32 0x00000000#32)))
        (broadcastInDim Cert.ReferenceIdeal.S100000x32 ![] Cert.ReferenceIdeal.Gen.bcast_S_S100000x32 (id (constant (F := Ideal) Cert.ReferenceIdeal.S_ .f32 0x00000000#32))) y)))

/-- The reference's ELU at one element. -/
theorem refElu_apply (y : FVec Ideal Cert.ReferenceIdeal.S100000x32 .f32) (i : Cert.ReferenceIdeal.S100000x32.Idx) : refElu y i = elu (y i) :=
  Eq.trans rfl (ref_elu (y i))

/-- The reference's sum at (r, j): the feature plus the bias at j. -/
theorem refY_apply (a : FVec Ideal Cert.ReferenceIdeal.S100000x32 .f32) (b : FVec Ideal Cert.ReferenceIdeal.S32 .f32) (r : Fin 100000) (j : Fin 32) :
    refY a b (ValueIdx.ix2 r j) = a (ValueIdx.ix2 r j) + b (ValueIdx.ix1 j) := by
  show a (ValueIdx.ix2 r j) + broadcastInDim Cert.ReferenceIdeal.S100000x32 ![0, 1] Cert.ReferenceIdeal.Gen.bcast_S1x32_S100000x32_0_1
    (broadcastInDim Cert.ReferenceIdeal.S1x32 ![1] Cert.ReferenceIdeal.Gen.bcast_S32_S1x32_1 b) (ValueIdx.ix2 r j) = _
  congr 1
  refine (broadcastInDim_apply _ Cert.ReferenceIdeal.Gen.bcast_S1x32_S100000x32_0_1 _ (ValueIdx.ix2 r j) (ValueIdx.ix2 (0 : Fin 1) j) fun a => ?_).trans ?_
  · match a with
    | ⟨0, _⟩ => rfl
    | ⟨1, _⟩ => exact (if_neg (show ¬ ((32 : Nat) = 1) by decide)).symm
  · refine broadcastInDim_apply _ Cert.ReferenceIdeal.Gen.bcast_S32_S1x32_1 _ (ValueIdx.ix2 (0 : Fin 1) j) (ValueIdx.ix1 j) fun a => ?_
    match a with
    | ⟨0, _⟩ => exact (if_neg (show ¬ ((32 : Nat) = 1) by decide)).symm

/-- What the reference's bias stretch leaves in its result: its ELU of its sum, whole arrays. -/
theorem ref_final (X : Valuation Cert.ReferenceIdeal.τ Cert.ReferenceIdeal.sig (Elt Ideal)) :
    after Cert.ReferenceIdeal.RV.rE2 X (Proc.devRef .tc Cert.ReferenceIdeal.main_v66)
      = refElu (refY (X (Proc.devRef .tc Cert.ReferenceIdeal.main_v62)) (X (Proc.devRef .tc Cert.ReferenceIdeal.main_arg5))) := by
  after_results
  rfl

end E2

/-- The bias region's result array, for ANY contents the region is entered from, is what the reference's bias stretch
    leaves, when the two agree on the aggregated features and the kernel's bias row holds the reference's bias vector. -/
theorem stepE2 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (X : Valuation Cert.ReferenceIdeal.τ Cert.ReferenceIdeal.sig (Elt Ideal))
    (ha : V c Cert.KernelIdeal.main_v48 = X (Proc.devRef .tc Cert.ReferenceIdeal.main_v62))
    (hb : ∀ j : Fin 32, V c Cert.KernelIdeal.main_v49 (ValueIdx.ix2 (0 : Fin 1) j) = X (Proc.devRef .tc Cert.ReferenceIdeal.main_arg5) (ValueIdx.ix1 j)) :
    (Cert.KernelIdeal.Gen.dat3 (F := Ideal) V c).arrAt 2 Cert.KernelIdeal.cfg3.N
      = after Cert.ReferenceIdeal.RV.rE2 X (Proc.devRef .tc Cert.ReferenceIdeal.main_v66) := by
  rw [E2.final V c, E2.ref_final X]
  funext i
  obtain ⟨r, j, rfl⟩ : ∃ (r : Fin 100000) (j : Fin 32), i = ValueIdx.ix2 r j := ⟨i 0, i 1, ValueIdx.eq_ix2 i⟩
  rw [E2.refElu_apply, E2.refY_apply]
  show E2.elu (FloatOps.addf (F := Ideal) (φ := .f32) (V c Cert.KernelIdeal.main_v48 (ValueIdx.ix2 r j)) (V c Cert.KernelIdeal.main_v49 (ValueIdx.ix2 (0 : Fin 1) j))) = _
  rw [ha, hb j]
  rfl

end Cert.Sim

end
-- ==== Proof.StepB3.lean ====
/-
  The third layer's bias (100000 rows of 16 features). The kernel works in row tiles of 5000: at grid point t
  the body adds the bias row to rows 5000·t … 5000·t+4999 of the aggregated features; the twenty tiles cover the result. Entry (r, j) is therefore a (r, j) + b j, which is the reference's sum
  with the broadcast bias.
-/
import proofs.«423356_j64484638982496_1_alg».proof.Proof.Gen.KernelIdeal.Frame
import proofs.«423356_j64484638982496_1_alg».proof.Proof.RefRun
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.Sim

open Idealize.ShloMosaic Idealize.ShloMosaic.TcCoe Idealize.SL.Sem Idealize.ShloMosaic.StableHlo
open Idealize.ShloMosaic.Pipeline (Dat)

namespace B3

open Cert.KernelIdeal Cert.KernelIdeal.Gen Idealize.ShloMosaic.ValueIdx

/-- The offsets of an access to a whole staging buffer are zero on both axes. -/
theorem hz : (![0, 0] : Fin 2 → Nat) = fun _ => 0 := funext fun a => by fin_cases a <;> rfl

/-- The body's result at one element: the feature plus the bias of its column. -/
theorem pay_apply (x0 : Vec Ideal S5000x16 .f32) (x1 : Vec Ideal S1x16 .f32) (p : Fin 5000) (q : Fin 16) :
    k5_pay1 (F := Ideal) x0 x1 (ix2 p q) = x0 (ix2 p q) + x1 (ix2 (0 : Fin 1) q) := by
  unfold k5_pay1
  simp only [shapeCast_self]
  show x0 (ix2 p q) + broadcastTo S5000x16 x1 broadcasts_S1x16_S5000x16 (ix2 p q) = _
  rw [broadcastTo_1b_ab_apply x1 broadcasts_S1x16_S5000x16 p q]

/-- What the result array ends holding: the aggregated feature plus its column's bias. -/
def G (a : S100000x16.Idx → EReal) (b : S1x16.Idx → EReal) : S100000x16.Idx → EReal :=
  fun i => a i + b (ix2 (0 : Fin 1) (i 1 : Fin 16))

/-- The printed index maps over the twenty grid points: the feature tile and the result tile are row tile t, the bias row is
    the one block. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What grid point t writes back is tile t of G of the feature array and the bias row as the region finds them. -/
theorem flushed_eq (V : (c : Dev nD) → (b : Ref sig .tc) → Buf (Elt Ideal) ((c : Thread nD τ).loc b)) (c : Dev nD) (t : Fin cfg5.N) :
    (dat5 (F := Ideal) V c).flushed 2 t = ((cfg5.win 2).blk t).view.read (Elt Ideal) (G (V c main_v58) (V c main_v59)) := by
  show (cfg5.win 2).cut (grid5.coords t) ((dat5 V c).after 2 t) = _
  rw [after5_2]
  unfold out5_2
  rw [View.canon_unit_zero hz]
  simp only [View.ld_unit_zero (S := S5000x16) hz, View.ld_unit_zero (S := S1x16) hz]
  obtain ⟨e0, e1, e2, e3, e4, e5⟩ := idx_facts t
  refine funext fun (j : S5000x16.Idx) => ?_
  obtain ⟨p, q, rfl⟩ : ∃ (p : Fin 5000) (q : Fin 16), j = ix2 p q := ⟨j 0, j 1, eq_ix2 j⟩
  show k5_pay1 (F := Ideal) (iblk5 V c 0 t) (iblk5 V c 1 t) (ix2 p q) = G (V c main_v58) (V c main_v59) (((cfg5.win 2).blk t).view.emb (ix2 p q))
  rw [pay_apply]
  show FloatOps.addf (F := Ideal) (φ := .f32) (V c main_v58 (((cfg5.win 0).blk t).view.emb (ix2 p q))) (V c main_v59 (((cfg5.win 1).blk t).view.emb (ix2 (0 : Fin 1) q)))
     = FloatOps.addf (F := Ideal) (φ := .f32) (V c main_v58 (((cfg5.win 2).blk t).view.emb (ix2 p q))) (V c main_v59 (ix2 (0 : Fin 1) ((((cfg5.win 2).blk t).view.emb (ix2 p q)) 1 : Fin 16)))
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 16 + 1 * q.val = win5_2.index t (1 : Fin 2) * 16 + 1 * q.val; omega
  have h1 : ((cfg5.win 1).blk t).view.emb (ix2 (0 : Fin 1) q) = ix2 (0 : Fin 1) ((((cfg5.win 2).blk t).view.emb (ix2 p q)) 1 : Fin 16) := by
    funext a; apply Fin.ext
    match a with
    | ⟨0, _⟩ => show win5_1.index t (0 : Fin 2) * 1 + 1 * 0 = 0; omega
    | ⟨1, _⟩ => show win5_1.index t (1 : Fin 2) * 16 + 1 * q.val = win5_2.index t (1 : Fin 2) * 16 + 1 * q.val; omega
  rw [h0, h1]
  rfl

/-- An index of the array is in grid point t's tile iff each coordinate is in the tile's range on its axis. -/
theorem mem_blk (t : Fin cfg5.N) (i : S100000x16.Idx) :
    i ∈ ((cfg5.win 2).blk t).view.set ↔ ∀ a : Fin 2, win5_2.index t a * S5000x16.size a ≤ (i a).val ∧ (i a).val < win5_2.index t a * S5000x16.size a + S5000x16.size a := by
  show i ∈ ((View.whole main_v60).slice (win5_2.rect t)).set ↔ _
  rw [View.set_slice_whole, Rect.mem_set_unit]
  exact Iff.rfl

/-- Row r lies in tile r / 5000: the twenty tiles cover the array. -/
theorem cover (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 20 := N_5
  let t : Fin cfg5.N := ⟨(i 0).val / 5000, by rw [hN]; omega⟩
  obtain ⟨e0, e1, e2, e3, e4, e5⟩ := idx_facts t
  have ht : t.val = (i 0).val / 5000 := rfl
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 16 ≤ (i 1).val ∧ (i 1).val < win5_2.index t (1 : Fin 2) * 16 + 16; omega

/-- The result array after the twenty grid points. -/
theorem final (V : (c : Dev nD) → (b : Ref sig .tc) → Buf (Elt Ideal) ((c : Thread nD τ).loc b)) (c : Dev nD) :
    (dat5 (F := Ideal) V c).arrAt 2 cfg5.N = G (V c main_v58) (V c main_v59) :=
  (dat5 V c).arrAt_eq_of_cover 2 (G (V c main_v58) (V c main_v59)) (fun t _ => flushed_eq V c t) cover

/-- The reference's sum: the features plus the bias vector broadcast [16] → [1,16] → [100000,16]. -/
def refY (a : FVec Ideal Cert.ReferenceIdeal.S100000x16 .f32) (b : FVec Ideal Cert.ReferenceIdeal.S16 .f32) : FVec Ideal Cert.ReferenceIdeal.S100000x16 .f32 :=
  addf a (broadcastInDim Cert.ReferenceIdeal.S100000x16 ![0, 1] Cert.ReferenceIdeal.Gen.bcast_S1x16_S100000x16_0_1
    (broadcastInDim Cert.ReferenceIdeal.S1x16 ![1] Cert.ReferenceIdeal.Gen.bcast_S16_S1x16_1 b))

/-- The reference's sum at (r, j): the feature plus the bias at j. -/
theorem refY_apply (a : FVec Ideal Cert.ReferenceIdeal.S100000x16 .f32) (b : FVec Ideal Cert.ReferenceIdeal.S16 .f32) (r : Fin 100000) (j : Fin 16) :
    refY a b (ValueIdx.ix2 r j) = a (ValueIdx.ix2 r j) + b (ValueIdx.ix1 j) := by
  show a (ValueIdx.ix2 r j) + broadcastInDim Cert.ReferenceIdeal.S100000x16 ![0, 1] Cert.ReferenceIdeal.Gen.bcast_S1x16_S100000x16_0_1
    (broadcastInDim Cert.ReferenceIdeal.S1x16 ![1] Cert.ReferenceIdeal.Gen.bcast_S16_S1x16_1 b) (ValueIdx.ix2 r j) = _
  congr 1
  refine (broadcastInDim_apply _ Cert.ReferenceIdeal.Gen.bcast_S1x16_S100000x16_0_1 _ (ValueIdx.ix2 r j) (ValueIdx.ix2 (0 : Fin 1) j) fun a => ?_).trans ?_
  · match a with
    | ⟨0, _⟩ => rfl
    | ⟨1, _⟩ => exact (if_neg (show ¬ ((16 : Nat) = 1) by decide)).symm
  · refine broadcastInDim_apply _ Cert.ReferenceIdeal.Gen.bcast_S16_S1x16_1 _ (ValueIdx.ix2 (0 : Fin 1) j) (ValueIdx.ix1 j) fun a => ?_
    match a with
    | ⟨0, _⟩ => exact (if_neg (show ¬ ((16 : Nat) = 1) by decide)).symm

/-- What the reference's bias stretch leaves in its result: its sum, whole arrays. -/
theorem ref_final (X : Valuation Cert.ReferenceIdeal.τ Cert.ReferenceIdeal.sig (Elt Ideal)) :
    after Cert.ReferenceIdeal.RV.rB3 X (Proc.devRef .tc Cert.ReferenceIdeal.main_v83)
      = refY (X (Proc.devRef .tc Cert.ReferenceIdeal.main_v80)) (X (Proc.devRef .tc Cert.ReferenceIdeal.main_arg7)) := by
  after_results
  rfl

end B3

/-- The bias region's result array, for ANY contents the region is entered from, is what the reference's bias stretch
    leaves, when the two agree on the aggregated features and the kernel's bias row holds the reference's bias vector. -/
theorem stepB3 (V : (c : Dev Cert.KernelIdeal.nD) → (b : Ref Cert.KernelIdeal.sig .tc) → Buf (Elt Ideal) ((c : Thread Cert.KernelIdeal.nD Cert.KernelIdeal.τ).loc b))
    (c : Dev Cert.KernelIdeal.nD) (X : Valuation Cert.ReferenceIdeal.τ Cert.ReferenceIdeal.sig (Elt Ideal))
    (ha : V c Cert.KernelIdeal.main_v58 = X (Proc.devRef .tc Cert.ReferenceIdeal.main_v80))
    (hb : ∀ j : Fin 16, V c Cert.KernelIdeal.main_v59 (ValueIdx.ix2 (0 : Fin 1) j) = X (Proc.devRef .tc Cert.ReferenceIdeal.main_arg7) (ValueIdx.ix1 j)) :
    (Cert.KernelIdeal.Gen.dat5 (F := Ideal) V c).arrAt 2 Cert.KernelIdeal.cfg5.N
      = after Cert.ReferenceIdeal.RV.rB3 X (Proc.devRef .tc Cert.ReferenceIdeal.main_v83) := by
  rw [B3.final V c, B3.ref_final X]
  funext i
  obtain ⟨r, j, rfl⟩ : ∃ (r : Fin 100000) (j : Fin 16), i = ValueIdx.ix2 r j := ⟨i 0, i 1, ValueIdx.eq_ix2 i⟩
  rw [B3.refY_apply]
  show FloatOps.addf (F := Ideal) (φ := .f32) (V c Cert.KernelIdeal.main_v58 (ValueIdx.ix2 r j)) (V c Cert.KernelIdeal.main_v59 (ValueIdx.ix2 (0 : Fin 1) j)) = _
  rw [ha, hb j]
  rfl

end Cert.Sim

end
-- ==== Proof.Chain.lean ====
/-
  The two programs in step. Both compute, layer by layer, the same graph convolution: the edge lists and weights, then
  a product, an aggregation over the edges and a bias (with ELU after the first two layers). The kernel's @main is cut at
  the entries and exits of its six tiled regions, the reference's at the ends of ten lists of operations; at each pair
  of cut points the buffers that carry the computation hold the same contents. The induction is over the ten stages in
  order: each stage's lemma takes the previous stage's equality, and the facts that the index lists, the weights and the
  arguments still hold what they held when written. The one place where the programs' texts differ in value (the row read
  with a filler outside the range) is used under the precondition that every source index is in range.
-/
import proofs.«423356_j64484638982496_1_alg».proof.Defs
import proofs.«423356_j64484638982496_1_alg».proof.Proof.KeepK
import proofs.«423356_j64484638982496_1_alg».proof.Proof.KeepR
import proofs.«423356_j64484638982496_1_alg».proof.Proof.StepA
import proofs.«423356_j64484638982496_1_alg».proof.Proof.SrcRange
import proofs.«423356_j64484638982496_1_alg».proof.Proof.StepD1
import proofs.«423356_j64484638982496_1_alg».proof.Proof.StepD2
import proofs.«423356_j64484638982496_1_alg».proof.Proof.StepD3
import proofs.«423356_j64484638982496_1_alg».proof.Proof.StepG1
import proofs.«423356_j64484638982496_1_alg».proof.Proof.StepG2
import proofs.«423356_j64484638982496_1_alg».proof.Proof.StepG3
import proofs.«423356_j64484638982496_1_alg».proof.Proof.StepE1
import proofs.«423356_j64484638982496_1_alg».proof.Proof.StepE2
import proofs.«423356_j64484638982496_1_alg».proof.Proof.StepB3

set_option maxRecDepth 16384

noncomputable section

namespace Cert.Sim

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The kernel's first bias row: the bias vector reshaped to one row, so its entry (0, j) is the vector's entry j. -/
theorem bias1_row (c : Dev Cert.KernelIdeal.nD) (j : Fin 32) :
    Cert.KernelIdeal.Gen.W6 (F := Ideal) m ρ c (Proc.devRef .tc Cert.KernelIdeal.main_v39) (ValueIdx.ix2 (0 : Fin 1) j)
      = Cert.KernelIdeal.Gen.W5 (F := Ideal) m ρ c (Proc.devRef .tc Cert.KernelIdeal.main_arg3) (ValueIdx.ix1 j) := by
  show after Cert.KernelIdeal.Gen.hostOps1_1 (Cert.KernelIdeal.Gen.W5 (F := Ideal) m ρ c) (Proc.devRef .tc Cert.KernelIdeal.main_v39) (ValueIdx.ix2 (0 : Fin 1) j) = _
  generalize Cert.KernelIdeal.Gen.W5 (F := Ideal) m ρ c = Wv
  after_results
  show shapeCast Cert.KernelIdeal.S1x32 (Wv (Proc.devRef .tc Cert.KernelIdeal.main_arg3)) _ (ValueIdx.ix2 (0 : Fin 1) j) = _
  refine shapeCast_apply _ _ _ (ValueIdx.ix1 j) ?_
  rw [Shape.rowMajor_val_one, Shape.rowMajor_val_two]
  simp

/-- The kernel's second bias row: the bias vector reshaped to one row, so its entry (0, j) is the vector's entry j. -/
theorem bias2_row (c : Dev Cert.KernelIdeal.nD) (j : Fin 32) :
    Cert.KernelIdeal.Gen.W10 (F := Ideal) m ρ c (Proc.devRef .tc Cert.KernelIdeal.main_v49) (ValueIdx.ix2 (0 : Fin 1) j)
      = Cert.KernelIdeal.Gen.W9 (F := Ideal) m ρ c (Proc.devRef .tc Cert.KernelIdeal.main_arg5) (ValueIdx.ix1 j) := by
  show after Cert.KernelIdeal.Gen.hostOps3_1 (Cert.KernelIdeal.Gen.W9 (F := Ideal) m ρ c) (Proc.devRef .tc Cert.KernelIdeal.main_v49) (ValueIdx.ix2 (0 : Fin 1) j) = _
  generalize Cert.KernelIdeal.Gen.W9 (F := Ideal) m ρ c = Wv
  after_results
  show shapeCast Cert.KernelIdeal.S1x32 (Wv (Proc.devRef .tc Cert.KernelIdeal.main_arg5)) _ (ValueIdx.ix2 (0 : Fin 1) j) = _
  refine shapeCast_apply _ _ _ (ValueIdx.ix1 j) ?_
  rw [Shape.rowMajor_val_one, Shape.rowMajor_val_two]
  simp

/-- The kernel's third bias row: the bias vector reshaped to one row, so its entry (0, j) is the vector's entry j. -/
theorem bias3_row (c : Dev Cert.KernelIdeal.nD) (j : Fin 16) :
    Cert.KernelIdeal.Gen.W14 (F := Ideal) m ρ c (Proc.devRef .tc Cert.KernelIdeal.main_v59) (ValueIdx.ix2 (0 : Fin 1) j)
      = Cert.KernelIdeal.Gen.W13 (F := Ideal) m ρ c (Proc.devRef .tc Cert.KernelIdeal.main_arg7) (ValueIdx.ix1 j) := by
  show after Cert.KernelIdeal.Gen.hostOps5_1 (Cert.KernelIdeal.Gen.W13 (F := Ideal) m ρ c) (Proc.devRef .tc Cert.KernelIdeal.main_v59) (ValueIdx.ix2 (0 : Fin 1) j) = _
  generalize Cert.KernelIdeal.Gen.W13 (F := Ideal) m ρ c = Wv
  after_results
  show shapeCast Cert.KernelIdeal.S1x16 (Wv (Proc.devRef .tc Cert.KernelIdeal.main_arg7)) _ (ValueIdx.ix2 (0 : Fin 1) j) = _
  refine shapeCast_apply _ _ _ (ValueIdx.ix1 j) ?_
  rw [Shape.rowMajor_val_one, Shape.rowMajor_val_two]
  simp

/-- At the end of the two runs the kernel's result buffer and the reference's hold the same array, when the arguments
    agree and every source index of the edge list is in range. -/
theorem result_eq (c : Dev Cert.KernelIdeal.nD)
    (hpre : Cert.Pre_finite_inputs.fn (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.W15 (F := Ideal) m ρ c (Proc.devRef .tc Cert.KernelIdeal.main_v60)
      = Cert.ReferenceIdeal.RV.XB3 (F := Ideal) m' c (Proc.devRef .tc Cert.ReferenceIdeal.main_v83) := by
  -- the edge lists and the weights
  obtain ⟨hs3, hd3, hn3⟩ := stepA (Cert.KernelIdeal.Gen.W0 (F := Ideal) m ρ c) (Cert.ReferenceIdeal.RV.X0 (F := Ideal) m' c) h1.symm
  have hr3 := src_range (Cert.KernelIdeal.Gen.W0 (F := Ideal) m ρ c) hpre
  -- layer one
  have hD1 : Cert.KernelIdeal.Gen.W4 (F := Ideal) m ρ c (Proc.devRef .tc Cert.KernelIdeal.main_v31) = Cert.ReferenceIdeal.RV.XD1 (F := Ideal) m' c (Proc.devRef .tc Cert.ReferenceIdeal.main_v31) :=
    (Cert.KernelIdeal.Gen.W4_arr m ρ c 2).trans (stepD1 (Cert.KernelIdeal.Gen.V3 m ρ) c (Cert.ReferenceIdeal.RV.XA m' c) ((Cert.KernelIdeal.Keep.main_arg0_W3 m ρ c).trans (h0.symm.trans (Cert.ReferenceIdeal.Keep.main_arg0_XA m' c).symm)) ((Cert.KernelIdeal.Keep.main_arg2_W3 m ρ c).trans (h2.symm.trans (Cert.ReferenceIdeal.Keep.main_arg2_XA m' c).symm)))
  have hG1 : Cert.KernelIdeal.Gen.W6 (F := Ideal) m ρ c (Proc.devRef .tc Cert.KernelIdeal.main_v38) = Cert.ReferenceIdeal.RV.XG1 (F := Ideal) m' c (Proc.devRef .tc Cert.ReferenceIdeal.main_v44) :=
    stepG1 (Cert.KernelIdeal.Gen.W4 m ρ c) (Cert.ReferenceIdeal.RV.XD1 m' c) hD1 ((Cert.KernelIdeal.Keep.main_v3_W4 m ρ c).trans (hs3.trans (Cert.ReferenceIdeal.Keep.main_v3_XD1 m' c).symm)) ((Cert.KernelIdeal.Keep.main_v7_W4 m ρ c).trans (hd3.trans (Cert.ReferenceIdeal.Keep.main_v7_XD1 m' c).symm)) ((Cert.KernelIdeal.Keep.main_v30_W4 m ρ c).trans (hn3.trans (Cert.ReferenceIdeal.Keep.main_v30_XD1 m' c).symm))
      (fun i => by rw [Cert.KernelIdeal.Keep.main_v3_W4 m ρ c]; exact hr3 i)
  have hE1 : Cert.KernelIdeal.Gen.W7 (F := Ideal) m ρ c (Proc.devRef .tc Cert.KernelIdeal.main_v40) = Cert.ReferenceIdeal.RV.XE1 (F := Ideal) m' c (Proc.devRef .tc Cert.ReferenceIdeal.main_v48) :=
    (Cert.KernelIdeal.Gen.W7_arr m ρ c 2).trans (stepE1 (Cert.KernelIdeal.Gen.V6 m ρ) c (Cert.ReferenceIdeal.RV.XG1 m' c) hG1
      (fun j => (bias1_row m ρ c j).trans (congrFun ((Cert.KernelIdeal.Keep.main_arg3_W5 m ρ c).trans (h3.symm.trans (Cert.ReferenceIdeal.Keep.main_arg3_XG1 m' c).symm)) _)))
  -- layer two
  have hD2 : Cert.KernelIdeal.Gen.W8 (F := Ideal) m ρ c (Proc.devRef .tc Cert.KernelIdeal.main_v41) = Cert.ReferenceIdeal.RV.XD2 (F := Ideal) m' c (Proc.devRef .tc Cert.ReferenceIdeal.main_v49) :=
    (Cert.KernelIdeal.Gen.W8_arr m ρ c 2).trans (stepD2 (Cert.KernelIdeal.Gen.V7 m ρ) c (Cert.ReferenceIdeal.RV.XE1 m' c) hE1 ((Cert.KernelIdeal.Keep.main_arg4_W7 m ρ c).trans (h4.symm.trans (Cert.ReferenceIdeal.Keep.main_arg4_XE1 m' c).symm)))
  have hG2 : Cert.KernelIdeal.Gen.W10 (F := Ideal) m ρ c (Proc.devRef .tc Cert.KernelIdeal.main_v48) = Cert.ReferenceIdeal.RV.XG2 (F := Ideal) m' c (Proc.devRef .tc Cert.ReferenceIdeal.main_v62) :=
    stepG2 (Cert.KernelIdeal.Gen.W8 m ρ c) (Cert.ReferenceIdeal.RV.XD2 m' c) hD2 ((Cert.KernelIdeal.Keep.main_v3_W8 m ρ c).trans (hs3.trans (Cert.ReferenceIdeal.Keep.main_v3_XD2 m' c).symm)) ((Cert.KernelIdeal.Keep.main_v7_W8 m ρ c).trans (hd3.trans (Cert.ReferenceIdeal.Keep.main_v7_XD2 m' c).symm)) ((Cert.KernelIdeal.Keep.main_v30_W8 m ρ c).trans (hn3.trans (Cert.ReferenceIdeal.Keep.main_v30_XD2 m' c).symm))
      (fun i => by rw [Cert.KernelIdeal.Keep.main_v3_W8 m ρ c]; exact hr3 i)
  have hE2 : Cert.KernelIdeal.Gen.W11 (F := Ideal) m ρ c (Proc.devRef .tc Cert.KernelIdeal.main_v50) = Cert.ReferenceIdeal.RV.XE2 (F := Ideal) m' c (Proc.devRef .tc Cert.ReferenceIdeal.main_v66) :=
    (Cert.KernelIdeal.Gen.W11_arr m ρ c 2).trans (stepE2 (Cert.KernelIdeal.Gen.V10 m ρ) c (Cert.ReferenceIdeal.RV.XG2 m' c) hG2
      (fun j => (bias2_row m ρ c j).trans (congrFun ((Cert.KernelIdeal.Keep.main_arg5_W9 m ρ c).trans (h5.symm.trans (Cert.ReferenceIdeal.Keep.main_arg5_XG2 m' c).symm)) _)))
  -- layer three
  have hD3 : Cert.KernelIdeal.Gen.W12 (F := Ideal) m ρ c (Proc.devRef .tc Cert.KernelIdeal.main_v51) = Cert.ReferenceIdeal.RV.XD3 (F := Ideal) m' c (Proc.devRef .tc Cert.ReferenceIdeal.main_v67) :=
    (Cert.KernelIdeal.Gen.W12_arr m ρ c 2).trans (stepD3 (Cert.KernelIdeal.Gen.V11 m ρ) c (Cert.ReferenceIdeal.RV.XE2 m' c) hE2 ((Cert.KernelIdeal.Keep.main_arg6_W11 m ρ c).trans (h6.symm.trans (Cert.ReferenceIdeal.Keep.main_arg6_XE2 m' c).symm)))
  have hG3 : Cert.KernelIdeal.Gen.W14 (F := Ideal) m ρ c (Proc.devRef .tc Cert.KernelIdeal.main_v58) = Cert.ReferenceIdeal.RV.XG3 (F := Ideal) m' c (Proc.devRef .tc Cert.ReferenceIdeal.main_v80) :=
    stepG3 (Cert.KernelIdeal.Gen.W12 m ρ c) (Cert.ReferenceIdeal.RV.XD3 m' c) hD3 ((Cert.KernelIdeal.Keep.main_v3_W12 m ρ c).trans (hs3.trans (Cert.ReferenceIdeal.Keep.main_v3_XD3 m' c).symm)) ((Cert.KernelIdeal.Keep.main_v7_W12 m ρ c).trans (hd3.trans (Cert.ReferenceIdeal.Keep.main_v7_XD3 m' c).symm)) ((Cert.KernelIdeal.Keep.main_v30_W12 m ρ c).trans (hn3.trans (Cert.ReferenceIdeal.Keep.main_v30_XD3 m' c).symm))
      (fun i => by rw [Cert.KernelIdeal.Keep.main_v3_W12 m ρ c]; exact hr3 i)
  exact (Cert.KernelIdeal.Gen.W15_arr m ρ c 2).trans (stepB3 (Cert.KernelIdeal.Gen.V14 m ρ) c (Cert.ReferenceIdeal.RV.XG3 m' c) hG3
    (fun j => (bias3_row m ρ c j).trans (congrFun ((Cert.KernelIdeal.Keep.main_arg7_W13 m ρ c).trans (h7.symm.trans (Cert.ReferenceIdeal.Keep.main_arg7_XG3 m' c).symm)) _)))

end Cert.Sim

end
-- ==== Proof.lean ====
/-
  The certificate of a three-layer graph convolution: a Pallas kernel program against its jnp reference, over the
  extended reals. Per layer the kernel program computes the dense product in row tiles of 2000 on the matrix unit, gathers
  the source rows of the 3,300,000 edges (the 3,200,000 given ones and a self loop per node), scales them by the symmetric
  normalisation 1 / sqrt (deg src · deg dst) and adds them into the destination rows on the host, and adds the bias (and
  applies ELU, written as y for y > 0 and exp y - 1 otherwise) in row tiles of 5000; the reference does the same with one
  dot_general per layer and jax's ELU (y for y > 0, else 1 · expm1 of y guarded to be ≤ 0). On the extended reals the tiled
  product is the product, the two ELUs are one function, and the only difference in value is the row read: the kernel's
  fills a row whose wrapped source index is outside 0 … 99999 with a filler where the reference's reads the nearest row.
  The precondition keeps every source index in -100000 … 99999 (outside it the reference indexes out of range), where the
  filler is never used; under it the two result arrays are equal entry by entry.

  The frames of the two kernel programs are the generated ones; the reference's frame and the value claim come from the
  two runs read back: the kernel's launch with its result buffer named at the last boundary of @main (KRun), the
  reference's @main as ten lists of operations (RefRun), and the stage-by-stage comparison of the two (Chain).
-/
import proofs.«423356_j64484638982496_1_alg».proof.Defs
import proofs.«423356_j64484638982496_1_alg».proof.Proof.Gen.Kernel
import proofs.«423356_j64484638982496_1_alg».proof.Proof.Gen.Kernel.Skeleton
import proofs.«423356_j64484638982496_1_alg».proof.Proof.Gen.Kernel.Launch
import proofs.«423356_j64484638982496_1_alg».proof.Proof.Gen.Kernel.Points
import proofs.«423356_j64484638982496_1_alg».proof.Proof.Gen.Kernel.Frame
import proofs.«423356_j64484638982496_1_alg».proof.Proof.Gen.KernelIdeal
import proofs.«423356_j64484638982496_1_alg».proof.Proof.Gen.KernelIdeal.Skeleton
import proofs.«423356_j64484638982496_1_alg».proof.Proof.Gen.KernelIdeal.Launch
import proofs.«423356_j64484638982496_1_alg».proof.Proof.Gen.KernelIdeal.Points
import proofs.«423356_j64484638982496_1_alg».proof.Proof.Gen.KernelIdeal.Frame
import proofs.«423356_j64484638982496_1_alg».proof.Proof.Gen.ReferenceIdeal
import proofs.«423356_j64484638982496_1_alg».proof.Proof.Gen.Pre_finite_inputs
import proofs.«423356_j64484638982496_1_alg».proof.Proof.KRun
import proofs.«423356_j64484638982496_1_alg».proof.Proof.RefRun
import proofs.«423356_j64484638982496_1_alg».proof.Proof.KeepR
import proofs.«423356_j64484638982496_1_alg».proof.Proof.Chain
import Idealize.ShloMosaic.Adequacy
import Idealize.ShloMosaic.Init

noncomputable section

namespace Cert.Proof

open Idealize.ShloMosaic Idealize.SL.Sem

/-- The kernel program at the word level runs, nothing faulting, its arguments unchanged: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs, nothing faulting, its arguments unchanged: its run read back, the arguments being buffers no
    operation writes. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Keep.main_arg0_XB3 m c),
     (h c Cert.ReferenceIdeal.main_arg1).trans (Cert.ReferenceIdeal.Keep.main_arg1_XB3 m c),
     (h c Cert.ReferenceIdeal.main_arg2).trans (Cert.ReferenceIdeal.Keep.main_arg2_XB3 m c),
     (h c Cert.ReferenceIdeal.main_arg3).trans (Cert.ReferenceIdeal.Keep.main_arg3_XB3 m c),
     (h c Cert.ReferenceIdeal.main_arg4).trans (Cert.ReferenceIdeal.Keep.main_arg4_XB3 m c),
     (h c Cert.ReferenceIdeal.main_arg5).trans (Cert.ReferenceIdeal.Keep.main_arg5_XB3 m c),
     (h c Cert.ReferenceIdeal.main_arg6).trans (Cert.ReferenceIdeal.Keep.main_arg6_XB3 m c),
     (h c Cert.ReferenceIdeal.main_arg7).trans (Cert.ReferenceIdeal.Keep.main_arg7_XB3 m c)⟩)
    (Cert.ReferenceIdeal.RV.run (F := Ideal) m ρ)

/-- From memories that agree on the arguments, under the precondition, the two idealized programs run and end with equal
    result arrays: the kernel's launch names its result at the last boundary of @main, the reference's run names its
    result after its last list, and the stage-by-stage comparison equates the two. -/
theorem algebraic : Cert.algebraic_KernelIdeal_ReferenceIdeal := by
  intro m ρ m' ρ' hpre hagree
  refine ⟨fun c => Cert.ReferenceIdeal.RV.XB3 (F := Ideal) m' c (Proc.devRef .tc Cert.ReferenceIdeal.main_v83), ?_, ?_⟩
  · refine (θ_run Cert.KernelIdeal.defs _ _).mono (fun r h c => ?_) (Cert.KernelIdeal.KRun.run_named (F := Ideal) m ρ)
    obtain ⟨hv, ha⟩ := h c
    obtain ⟨g0, g1, g2, g3, g4, g5, g6, g7⟩ := hagree c
    exact ⟨hv.trans (Cert.Sim.result_eq m ρ m' c (hpre c) g0 g1 g2 g3 g4 g5 g6 g7), ha⟩
  · refine (θ_run Cert.ReferenceIdeal.defs _ _).mono (fun r h c => ?_) (Cert.ReferenceIdeal.RV.run (F := Ideal) m' ρ')
    exact ⟨h c Cert.ReferenceIdeal.main_v83,
      (h c Cert.ReferenceIdeal.main_arg0).trans (Cert.ReferenceIdeal.Keep.main_arg0_XB3 m' c),
      (h c Cert.ReferenceIdeal.main_arg1).trans (Cert.ReferenceIdeal.Keep.main_arg1_XB3 m' c),
      (h c Cert.ReferenceIdeal.main_arg2).trans (Cert.ReferenceIdeal.Keep.main_arg2_XB3 m' c),
      (h c Cert.ReferenceIdeal.main_arg3).trans (Cert.ReferenceIdeal.Keep.main_arg3_XB3 m' c),
      (h c Cert.ReferenceIdeal.main_arg4).trans (Cert.ReferenceIdeal.Keep.main_arg4_XB3 m' c),
      (h c Cert.ReferenceIdeal.main_arg5).trans (Cert.ReferenceIdeal.Keep.main_arg5_XB3 m' c),
      (h c Cert.ReferenceIdeal.main_arg6).trans (Cert.ReferenceIdeal.Keep.main_arg6_XB3 m' c),
      (h c Cert.ReferenceIdeal.main_arg7).trans (Cert.ReferenceIdeal.Keep.main_arg7_XB3 m' c)⟩

/-- The three frames, the idealization (the ideal pass rewrote nothing: its claim is `True`) and the equality of results. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
